-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2048 : Shape := ⟨2, ![256, 2048]⟩
abbrev S2048x64x32 : Shape := ⟨3, ![2048, 64, 32]⟩
abbrev S_ : Shape := ⟨0, ![]⟩

class Facts : Prop where
  bcast_S_S256x2048 : S_.BroadcastsInDim S256x2048 (![] : Fin 0 → Fin S256x2048.rank)
  reducesTo_S256x2048_S_d0_1 : S256x2048.ReducesTo [0, 1] S_
  h_S_ : 0 < S_.numel
  bcast_S_S2048x64x32 : S_.BroadcastsInDim S2048x64x32 (![] : Fin 0 → Fin S2048x64x32.rank)
  reducesTo_S2048x64x32_S_d0_1_2 : S2048x64x32.ReducesTo [0, 1, 2] S_

variable [Facts]

def fn {F : FTy → Type} [FloatOps F] (main_arg0 : FVec F S256x2048 .f32) (main_arg1 : FVec F S2048x64x32 .f32) : IVec S_ 1 :=
  let main_v0 : FVec F S256x2048 .f32 := Host.absf main_arg0
  let main_cst : FVec F S_ .f32 := constant S_ .f32 0x7F800000#32
  let main_v1 : FVec F S256x2048 .f32 := broadcastInDim S256x2048 ![] bcast_S_S256x2048 main_cst
  let main_v2 : IVec S256x2048 1 := cmpf .olt main_v0 main_v1
  let main_c : IVec S_ 1 := constantI S_ 1 1#1
  let main_v3 : IVec S_ 1 := (fun x v => Host.reduce IntOp.andi x v reducesTo_S256x2048_S_d0_1 h_S_) main_v2 main_c
  let main_v4 : FVec F S2048x64x32 .f32 := Host.absf main_arg1
  let main_cst_0 : FVec F S_ .f32 := constant S_ .f32 0x7F800000#32
  let main_v5 : FVec F S2048x64x32 .f32 := broadcastInDim S2048x64x32 ![] bcast_S_S2048x64x32 main_cst_0
  let main_v6 : IVec S2048x64x32 1 := cmpf .olt main_v4 main_v5
  let main_c_1 : IVec S_ 1 := constantI S_ 1 1#1
  let main_v7 : IVec S_ 1 := (fun x v => Host.reduce IntOp.andi x v reducesTo_S2048x64x32_S_d0_1_2 h_S_) main_v6 main_c_1
  let main_v8 : IVec S_ 1 := andi main_v3 main_v7
  main_v8
-- ==== Kernel.lean ====
abbrev S256x2048 : Shape := ⟨2, ![256, 2048]⟩
abbrev S2048x64x32 : Shape := ⟨3, ![2048, 64, 32]⟩
abbrev S2048x2048 : Shape := ⟨2, ![2048, 2048]⟩
abbrev S256x512 : Shape := ⟨2, ![256, 512]⟩
abbrev S512x512 : Shape := ⟨2, ![512, 512]⟩
abbrev S256x64x32 : Shape := ⟨3, ![256, 64, 32]⟩
abbrev S256x64 : Shape := ⟨2, ![256, 64]⟩
abbrev S32x64x32 : Shape := ⟨3, ![32, 64, 32]⟩
abbrev S64x64x32 : Shape := ⟨3, ![64, 64, 32]⟩
abbrev S32x64 : Shape := ⟨2, ![32, 64]⟩
abbrev S32x1x64x32 : Shape := ⟨4, ![32, 1, 64, 32]⟩
abbrev S1x64x64x32 : Shape := ⟨4, ![1, 64, 64, 32]⟩
abbrev S32x64x64x32 : Shape := ⟨4, ![32, 64, 64, 32]⟩
abbrev S32x64x64 : Shape := ⟨3, ![32, 64, 64]⟩

abbrev nBuf : Space → Nat
  | .hbm => 8
  | .vmem => 14
  | .smem => 0
  | _ => 0

abbrev bufTy : (tb : Table) → Fin (tcTables nBuf tb) → BufTy
  | .hbm, ⟨0, _⟩ => ⟨S256x2048, .f32⟩
  | .hbm, ⟨1, _⟩ => ⟨S2048x64x32, .f32⟩
  | .hbm, ⟨2, _⟩ => ⟨S2048x2048, .f32⟩
  | .hbm, ⟨3, _⟩ => ⟨S256x2048, .bf16⟩
  | .hbm, ⟨4, _⟩ => ⟨S2048x2048, .bf16⟩
  | .hbm, ⟨5, _⟩ => ⟨S256x2048, .f32⟩
  | .hbm, ⟨6, _⟩ => ⟨S256x64x32, .f32⟩
  | .hbm, ⟨7, _⟩ => ⟨S256x64, .f32⟩
  | .local _ .vmem, ⟨0, _⟩ => ⟨S256x512, .bf16⟩
  | .local _ .vmem, ⟨1, _⟩ => ⟨S256x512, .bf16⟩
  | .local _ .vmem, ⟨2, _⟩ => ⟨S512x512, .bf16⟩
  | .local _ .vmem, ⟨3, _⟩ => ⟨S512x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S32x64x32, .f32⟩
  | .local _ .vmem, ⟨8, _⟩ => ⟨S32x64x32, .f32⟩
  | .local _ .vmem, ⟨9, _⟩ => ⟨S64x64x32, .f32⟩
  | .local _ .vmem, ⟨10, _⟩ => ⟨S64x64x32, .f32⟩
  | .local _ .vmem, ⟨11, _⟩ => ⟨S32x64, .f32⟩
  | .local _ .vmem, ⟨12, _⟩ => ⟨S32x64, .f32⟩
  | .local _ .vmem, ⟨13, _⟩ => ⟨S32x64, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_12 : BitVec 32 := 0#32
  let v25 : BitVec 1 := Scalar.cmpi .ne v24 c0_i32_12
  v25

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S32x64x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S64x64x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S32x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S2048x64x32_S2048x2048 : S2048x64x32.ShapeCasts S2048x2048
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S256x2048_S256x64x32 : S256x2048.ShapeCasts S256x64x32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S32x64x32_S32x64x32_0_0_0 : ∀ a, (![0, 0, 0] : Fin 3 → Nat) a + S32x64x32.size a ≤ S32x64x32.size a
  h_S32x64x32 : 0 < S32x64x32.numel
  shapeCasts_S32x64x32_S32x64x32 : S32x64x32.ShapeCasts S32x64x32
  inb_S64x64x32_S64x64x32_0_0_0 : ∀ a, (![0, 0, 0] : Fin 3 → Nat) a + S64x64x32.size a ≤ S64x64x32.size a
  h_S64x64x32 : 0 < S64x64x32.numel
  shapeCasts_S64x64x32_S64x64x32 : S64x64x32.ShapeCasts S64x64x32
  shapeCasts_S32x64x32_S32x1x64x32 : S32x64x32.ShapeCasts S32x1x64x32
  shapeCasts_S64x64x32_S1x64x64x32 : S64x64x32.ShapeCasts S1x64x64x32
  broadcasts_S32x1x64x32_S32x64x64x32 : S32x1x64x32.Broadcasts S32x64x64x32
  broadcasts_S1x64x64x32_S32x64x64x32 : S1x64x64x32.Broadcasts S32x64x64x32
  reduces_S32x64x64x32_S32x64x64 : S32x64x64x32.Reduces [3] S32x64x64
  reduces_S32x64x64_S32x64 : S32x64x64.Reduces [1] S32x64
  dot_S256x512_S512x512_S256x512_1_0_0_1_n_n_wf : DotDims.WF S256x512 S512x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S256x2048.size a
  hwx0_0 : ∀ i : grid0.Coords, EltTy.bits .bf16 = 32 ∨ (Rect.block (s := S256x2048) S256x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S2048x2048.size a
  hwx0_1 : ∀ i : grid0.Coords, EltTy.bits .bf16 = 32 ∨ (Rect.block (s := S2048x2048) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x2048.size a
  hwx0_2 : ∀ i : grid0.Coords, EltTy.bits .f32 = 32 ∨ (Rect.block (s := S256x2048) S256x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x64x32.size a ≤ S256x64x32.size a
  hwx1_0 : ∀ i : grid1.Coords, EltTy.bits .f32 = 32 ∨ (Rect.block (s := S256x64x32) S32x64x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x64x32.size a ≤ S256x64x32.size a
  hwx1_1 : ∀ i : grid1.Coords, EltTy.bits .f32 = 32 ∨ (Rect.block (s := S256x64x32) S64x64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S256x64.size a
  hwx1_2 : ∀ i : grid1.Coords, EltTy.bits .f32 = 32 ∨ (Rect.block (s := S256x64) S32x64.size (cc1_transform_2 i) (hinb1_2 i)).WholeWords (EltTy.packing .f32)

variable [Facts₀]

def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

abbrev win0_0 : Pipeline.Window sig grid0 :=
  Pipeline.Window.ofSpec (Memref.whole main_v1) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v4) S32x64x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S64x64x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S32x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S256x2048 : Shape := ⟨2, ![256, 2048]⟩
abbrev S2048x64x32 : Shape := ⟨3, ![2048, 64, 32]⟩
abbrev S2048x2048 : Shape := ⟨2, ![2048, 2048]⟩
abbrev S256x64x32 : Shape := ⟨3, ![256, 64, 32]⟩
abbrev S256x1x64x32 : Shape := ⟨4, ![256, 1, 64, 32]⟩
abbrev S1x256x64x32 : Shape := ⟨4, ![1, 256, 64, 32]⟩
abbrev S256x256x64x32 : Shape := ⟨4, ![256, 256, 64, 32]⟩
abbrev S_ : Shape := ⟨0, ![]⟩
abbrev S256x256x64 : Shape := ⟨3, ![256, 256, 64]⟩
abbrev S256x64 : Shape := ⟨2, ![256, 64]⟩

abbrev nBuf : Space → Nat
  | .hbm => 17
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x64x32, .f32⟩
  | .hbm, ⟨2, _⟩ => ⟨S2048x2048, .f32⟩
  | .hbm, ⟨3, _⟩ => ⟨S256x2048, .f32⟩
  | .hbm, ⟨4, _⟩ => ⟨S256x64x32, .f32⟩
  | .hbm, ⟨5, _⟩ => ⟨S256x1x64x32, .f32⟩
  | .hbm, ⟨6, _⟩ => ⟨S1x256x64x32, .f32⟩
  | .hbm, ⟨7, _⟩ => ⟨S256x256x64x32, .f32⟩
  | .hbm, ⟨8, _⟩ => ⟨S256x256x64x32, .f32⟩
  | .hbm, ⟨9, _⟩ => ⟨S256x256x64x32, .f32⟩
  | .hbm, ⟨10, _⟩ => ⟨S256x256x64x32, .f32⟩
  | .hbm, ⟨11, _⟩ => ⟨S_, .f32⟩
  | .hbm, ⟨12, _⟩ => ⟨S256x256x64, .f32⟩
  | .hbm, ⟨13, _⟩ => ⟨S256x256x64, .f32⟩
  | .hbm, ⟨14, _⟩ => ⟨S256x256x64, .f32⟩
  | .hbm, ⟨15, _⟩ => ⟨S_, .f32⟩
  | .hbm, ⟨16, _⟩ => ⟨S256x64, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩

abbrev nD : Nat := 1
abbrev τ : Topo := Topo.v7x

variable {F : FTy → Type} [FloatOps F]

class Facts₀ : Prop where
  shapeCasts_S2048x64x32_S2048x2048 : S2048x64x32.ShapeCasts S2048x2048
  shapeCasts_S256x2048_S256x64x32 : S256x2048.ShapeCasts S256x64x32
  bcast_S256x64x32_S256x1x64x32_0_2_3 : S256x64x32.BroadcastsInDim S256x1x64x32 (![0, 2, 3] : Fin 3 → Fin S256x1x64x32.rank)
  bcast_S256x64x32_S1x256x64x32_1_2_3 : S256x64x32.BroadcastsInDim S1x256x64x32 (![1, 2, 3] : Fin 3 → Fin S1x256x64x32.rank)
  bcast_S256x1x64x32_S256x256x64x32_0_1_2_3 : S256x1x64x32.BroadcastsInDim S256x256x64x32 (![0, 1, 2, 3] : Fin 4 → Fin S256x256x64x32.rank)
  bcast_S1x256x64x32_S256x256x64x32_0_1_2_3 : S1x256x64x32.BroadcastsInDim S256x256x64x32 (![0, 1, 2, 3] : Fin 4 → Fin S256x256x64x32.rank)
  reducesTo_S256x256x64x32_S256x256x64_d3 : S256x256x64x32.ReducesTo [3] S256x256x64
  h_S_ : 0 < S_.numel
  reducesTo_S256x256x64_S256x64_d1 : S256x256x64.ReducesTo [1] S256x64
  dot_S256x2048_S2048x2048_S256x2048_1_0_0_1_n_n_wf : DotDims.WF S256x2048 S2048x2048 S256x2048 [1] [0] [0] [1] [] []

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

class Facts : Prop extends Facts₀ where

variable [Facts]
-- ==== Proof.Kernel.MmRuns.lean ====
/-
  The blocked matrix product's kernel body, run once per position of the point in the contracted axis.

  The grid is (1, 4, 4): for each of the four column blocks of the product, four steps along the contracted axis. The
  body keeps a running sum in a scratch buffer: at the first step of a sweep it stores the zero block there, at every
  step it adds the product of the current row block and column block to what the scratch holds, and at the last step it
  copies the scratch into the result's staging buffer. So there are three cases, told apart by the two conditions on
  the grid point below; in each the body is run symbolically on whole buffers, and what it stores is recorded as the
  list of pieces the run finds (latest first).
-/
import proofs.«102462_j11759620457095_1_alg».proof.Proof.Gen.Kernel.Launch
import proofs.«102462_j11759620457095_1_alg».proof.Proof.Gen.Kernel.Skeleton
import proofs.«102462_j11759620457095_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Mm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first of a sweep along the contracted axis: the body resets the running sum. -/
abbrev isFirst (i : grid0.Coords) : Prop := (Scalar.cmpi .ne (Scalar.extui (Scalar.cmpi .eq (BitVec.ofNat 32 (i 2).val) 0#32)) 0#32) = 1#1
/-- The point is the last of a sweep: the body copies the running sum out. -/
abbrev isLast (i : grid0.Coords) : Prop := k0_cond2 i = 1#1

/-- A sweep starts at the points that are multiples of four, -/
theorem isFirst_iff : ∀ t : Fin cfg0.N, isFirst (grid0.coords t) ↔ t.val % 4 = 0 :=
  (by decide +kernel : ∀ t : Fin grid0.N, isFirst (grid0.coords t) ↔ t.val % 4 = 0)
/-- and ends three points later. -/
theorem isLast_iff : ∀ t : Fin cfg0.N, isLast (grid0.coords t) ↔ t.val % 4 = 3 :=
  (by decide +kernel : ∀ t : Fin grid0.N, isLast (grid0.coords t) ↔ t.val % 4 = 3)

set_option maxHeartbeats 1000000 in
/-- First step of a sweep: whatever the scratch held, the body stores the zero block, then the zero block plus the
    product of the two input blocks; the result's buffer is handed back as it was found. -/
noncomputable def runFirst (c : Dev nD) (i : grid0.Coords) (arg3 : Memref sig .tc .vmem S256x512 .bf16) (harg3 : arg3.IsWhole) (arg4 : Memref sig .tc .vmem S512x512 .bf16) (harg4 : arg4.IsWhole) (arg5 : Memref sig .tc .vmem S256x512 .f32) (harg5 : arg5.IsWhole) (arg6 : Memref sig .tc .vmem S256x512 .f32) (harg6 : arg6.IsWhole)
    (hc0 : isFirst i) (hc1 : ¬isLast i) (x0 : Vec F S256x512 .bf16) (x1 : Vec F S512x512 .bf16) :
    { LS : List (View.Piece (Elt F) S256x512 .f32) //
      ∀ (xo : Vec F S256x512 .f32) (E : Set ℕ) (K : PUnit → sProp 𝕄),
        iprop(owns (c : Thread nD τ) arg3 fullShare x0 ∗ owns (c : Thread nD τ) arg4 fullShare x1 ∗ owns (c : Thread nD τ) arg5 fullShare xo ∗ (∃ d, owns (c : Thread nD τ) arg6 fullShare d)
            ∗ (iprop(owns (c : Thread nD τ) arg3 fullShare x0 ∗ owns (c : Thread nD τ) arg4 fullShare x1 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc0__matmul_kernel i arg3 harg3 arg4 harg4 arg5 harg5 arg6 harg6) K } := by
  refine ⟨?_, fun xo E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 1000000 in
/-- A step inside a sweep: the body adds the product of the two input blocks to what the scratch holds; the result's
    buffer is handed back as it was found. -/
noncomputable def runMid (c : Dev nD) (i : grid0.Coords) (arg3 : Memref sig .tc .vmem S256x512 .bf16) (harg3 : arg3.IsWhole) (arg4 : Memref sig .tc .vmem S512x512 .bf16) (harg4 : arg4.IsWhole) (arg5 : Memref sig .tc .vmem S256x512 .f32) (harg5 : arg5.IsWhole) (arg6 : Memref sig .tc .vmem S256x512 .f32) (harg6 : arg6.IsWhole)
    (hc0 : ¬isFirst i) (hc1 : ¬isLast i) (x0 : Vec F S256x512 .bf16) (x1 : Vec F S512x512 .bf16) (xs : Vec F S256x512 .f32) :
    { LS : List (View.Piece (Elt F) S256x512 .f32) //
      ∀ (xo : Vec F S256x512 .f32) (E : Set ℕ) (K : PUnit → sProp 𝕄),
        iprop(owns (c : Thread nD τ) arg3 fullShare x0 ∗ owns (c : Thread nD τ) arg4 fullShare x1 ∗ owns (c : Thread nD τ) arg5 fullShare xo ∗ owns (c : Thread nD τ) arg6 fullShare xs
            ∗ (iprop(owns (c : Thread nD τ) arg3 fullShare x0 ∗ owns (c : Thread nD τ) arg4 fullShare x1 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc0__matmul_kernel i arg3 harg3 arg4 harg4 arg5 harg5 arg6 harg6) K } := by
  refine ⟨?_, fun xo E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 1000000 in
/-- Last step of a sweep: the body adds the last product to the scratch and copies the scratch into the result's
    buffer, whatever that held. The first list is what it stores into the result's buffer, the second into the scratch. -/
noncomputable def runLast (c : Dev nD) (i : grid0.Coords) (arg3 : Memref sig .tc .vmem S256x512 .bf16) (harg3 : arg3.IsWhole) (arg4 : Memref sig .tc .vmem S512x512 .bf16) (harg4 : arg4.IsWhole) (arg5 : Memref sig .tc .vmem S256x512 .f32) (harg5 : arg5.IsWhole) (arg6 : Memref sig .tc .vmem S256x512 .f32) (harg6 : arg6.IsWhole)
    (hc0 : ¬isFirst i) (hc1 : isLast i) (x0 : Vec F S256x512 .bf16) (x1 : Vec F S512x512 .bf16) (xs : Vec F S256x512 .f32) :
    Σ' (LO : List (View.Piece (Elt F) S256x512 .f32)), { LS : List (View.Piece (Elt F) S256x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc0__matmul_kernel i arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS

end Cert.Kernel.Mm

end
-- ==== Proof.Kernel.MmData.lean ====
/-
  The blocked matrix product's proof data: the running sum in the scratch after each grid point, what each window's
  staging buffer holds, and the body's obligation at every point.
-/
import proofs.«102462_j11759620457095_1_alg».proof.Proof.Gen.Kernel.Launch
import proofs.«102462_j11759620457095_1_alg».proof.Proof.Gen.Kernel.Skeleton
import proofs.«102462_j11759620457095_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«102462_j11759620457095_1_alg».proof.Proof.Kernel.MmRuns
import Idealize.ShloMosaic.Lib.Pipeline.Value
set_option maxRecDepth 16384

noncomputable section

namespace Cert.Kernel.Mm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-! ## What each case stores, read back -/

/-- The first step's two stores into the scratch cover it. -/
theorem cover_first (c : Dev nD) (i : grid0.Coords) (arg3 : Memref sig .tc .vmem S256x512 .bf16) (harg3 : arg3.IsWhole) (arg4 : Memref sig .tc .vmem S512x512 .bf16) (harg4 : arg4.IsWhole) (arg5 : Memref sig .tc .vmem S256x512 .f32) (harg5 : arg5.IsWhole) (arg6 : Memref sig .tc .vmem S256x512 .f32) (harg6 : arg6.IsWhole) (hc0 : isFirst i) (hc1 : ¬isLast i) (x0 : Vec F S256x512 .bf16) (x1 : Vec F S512x512 .bf16) (y : S256x512.Idx) :
    ∃ pc ∈ (runFirst c i arg3 harg3 arg4 harg4 arg5 harg5 arg6 harg6 hc0 hc1 x0 x1).1, y ∈ pc.1.set :=
  View.cover_of_tiledL (runFirst c i arg3 harg3 arg4 harg4 arg5 harg5 arg6 harg6 hc0 hc1 x0 x1).1 S256x512.size (by sl_kernel_rfl) y

/-- An inner step's one store into the scratch covers it. -/
theorem cover_mid (c : Dev nD) (i : grid0.Coords) (arg3 : Memref sig .tc .vmem S256x512 .bf16) (harg3 : arg3.IsWhole) (arg4 : Memref sig .tc .vmem S512x512 .bf16) (harg4 : arg4.IsWhole) (arg5 : Memref sig .tc .vmem S256x512 .f32) (harg5 : arg5.IsWhole) (arg6 : Memref sig .tc .vmem S256x512 .f32) (harg6 : arg6.IsWhole) (hc0 : ¬isFirst i) (hc1 : ¬isLast i) (x0 : Vec F S256x512 .bf16) (x1 : Vec F S512x512 .bf16) (xs : Vec F S256x512 .f32) (y : S256x512.Idx) :
    ∃ pc ∈ (runMid c i arg3 harg3 arg4 harg4 arg5 harg5 arg6 harg6 hc0 hc1 x0 x1 xs).1, y ∈ pc.1.set :=
  View.cover_of_tiledL (runMid c i arg3 harg3 arg4 harg4 arg5 harg5 arg6 harg6 hc0 hc1 x0 x1 xs).1 S256x512.size (by sl_kernel_rfl) y

/-- The last step's store into the scratch covers it, -/
theorem cover_last_s (c : Dev nD) (i : grid0.Coords) (arg3 : Memref sig .tc .vmem S256x512 .bf16) (harg3 : arg3.IsWhole) (arg4 : Memref sig .tc .vmem S512x512 .bf16) (harg4 : arg4.IsWhole) (arg5 : Memref sig .tc .vmem S256x512 .f32) (harg5 : arg5.IsWhole) (arg6 : Memref sig .tc .vmem S256x512 .f32) (harg6 : arg6.IsWhole) (hc0 : ¬isFirst i) (hc1 : isLast i) (x0 : Vec F S256x512 .bf16) (x1 : Vec F S512x512 .bf16) (xs : Vec F S256x512 .f32) (y : S256x512.Idx) :
    ∃ pc ∈ (runLast c i arg3 harg3 arg4 harg4 arg5 harg5 arg6 harg6 hc0 hc1 x0 x1 xs).2.1, y ∈ pc.1.set :=
  View.cover_of_tiledL (runLast c i arg3 harg3 arg4 harg4 arg5 harg5 arg6 harg6 hc0 hc1 x0 x1 xs).2.1 S256x512.size (by sl_kernel_rfl) y

/-- and so does its store into the result's buffer. -/
theorem cover_last_o (c : Dev nD) (i : grid0.Coords) (arg3 : Memref sig .tc .vmem S256x512 .bf16) (harg3 : arg3.IsWhole) (arg4 : Memref sig .tc .vmem S512x512 .bf16) (harg4 : arg4.IsWhole) (arg5 : Memref sig .tc .vmem S256x512 .f32) (harg5 : arg5.IsWhole) (arg6 : Memref sig .tc .vmem S256x512 .f32) (harg6 : arg6.IsWhole) (hc0 : ¬isFirst i) (hc1 : isLast i) (x0 : Vec F S256x512 .bf16) (x1 : Vec F S512x512 .bf16) (xs : Vec F S256x512 .f32) (y : S256x512.Idx) :
    ∃ pc ∈ (runLast c i arg3 harg3 arg4 harg4 arg5 harg5 arg6 harg6 hc0 hc1 x0 x1 xs).1, y ∈ pc.1.set :=
  View.cover_of_tiledL (runLast c i arg3 harg3 arg4 harg4 arg5 harg5 arg6 harg6 hc0 hc1 x0 x1 xs).1 S256x512.size (by sl_kernel_rfl) y

/-- The first step leaves in the scratch the zero block plus the product of the two input blocks. -/
theorem first_val (c : Dev nD) (i : grid0.Coords) (arg3 : Memref sig .tc .vmem S256x512 .bf16) (harg3 : arg3.IsWhole) (arg4 : Memref sig .tc .vmem S512x512 .bf16) (harg4 : arg4.IsWhole) (arg5 : Memref sig .tc .vmem S256x512 .f32) (harg5 : arg5.IsWhole) (arg6 : Memref sig .tc .vmem S256x512 .f32) (harg6 : arg6.IsWhole) (hc0 : isFirst i) (hc1 : ¬isLast i) (x0 : Vec F S256x512 .bf16) (x1 : Vec F S512x512 .bf16) :
    View.canon (runFirst c i arg3 harg3 arg4 harg4 arg5 harg5 arg6 harg6 hc0 hc1 x0 x1).1 = k0_pay2 (k0_pay1 (F := F)) x0 x1 := by
  unfold runFirst
  dsimp only
  sl_unfold_words
  rw [View.canon_cons_unit_zero (S := S256x512) hz2, View.readCov_unit_zero (S := S256x512) _ hz2]
  simp only [View.readAt_eq_ld, harg3.read_unread, harg4.read_unread, View.ld_unit_zero (S := S256x512) hz2, View.ld_unit_zero (S := S512x512) hz2]

/-- An inner step leaves in the scratch what it held plus the product of the two input blocks. -/
theorem mid_val (c : Dev nD) (i : grid0.Coords) (arg3 : Memref sig .tc .vmem S256x512 .bf16) (harg3 : arg3.IsWhole) (arg4 : Memref sig .tc .vmem S512x512 .bf16) (harg4 : arg4.IsWhole) (arg5 : Memref sig .tc .vmem S256x512 .f32) (harg5 : arg5.IsWhole) (arg6 : Memref sig .tc .vmem S256x512 .f32) (harg6 : arg6.IsWhole) (hc0 : ¬isFirst i) (hc1 : ¬isLast i) (x0 : Vec F S256x512 .bf16) (x1 : Vec F S512x512 .bf16) (xs : Vec F S256x512 .f32) :
    View.canon (runMid c i arg3 harg3 arg4 harg4 arg5 harg5 arg6 harg6 hc0 hc1 x0 x1 xs).1 = k0_pay2 xs x0 x1 := by
  unfold runMid
  dsimp only
  sl_unfold_words
  rw [View.canon_unit_zero (S := S256x512) hz2]
  simp only [View.readAt_eq_ld, harg3.read_unread, harg4.read_unread, harg6.read_unread, View.ld_unit_zero (S := S256x512) hz2, View.ld_unit_zero (S := S512x512) hz2]

/-- The last step leaves the same sum in the scratch, -/
theorem last_val_s (c : Dev nD) (i : grid0.Coords) (arg3 : Memref sig .tc .vmem S256x512 .bf16) (harg3 : arg3.IsWhole) (arg4 : Memref sig .tc .vmem S512x512 .bf16) (harg4 : arg4.IsWhole) (arg5 : Memref sig .tc .vmem S256x512 .f32) (harg5 : arg5.IsWhole) (arg6 : Memref sig .tc .vmem S256x512 .f32) (harg6 : arg6.IsWhole) (hc0 : ¬isFirst i) (hc1 : isLast i) (x0 : Vec F S256x512 .bf16) (x1 : Vec F S512x512 .bf16) (xs : Vec F S256x512 .f32) :
    View.canon (runLast c i arg3 harg3 arg4 harg4 arg5 harg5 arg6 harg6 hc0 hc1 x0 x1 xs).2.1 = k0_pay2 xs x0 x1 := by
  unfold runLast
  dsimp only
  sl_unfold_words
  rw [View.canon_unit_zero (S := S256x512) hz2]
  simp only [View.readAt_eq_ld, harg3.read_unread, harg4.read_unread, harg6.read_unread, View.ld_unit_zero (S := S256x512) hz2, View.ld_unit_zero (S := S512x512) hz2]

/-- and copies it into the result's buffer. -/
theorem last_val_o (c : Dev nD) (i : grid0.Coords) (arg3 : Memref sig .tc .vmem S256x512 .bf16) (harg3 : arg3.IsWhole) (arg4 : Memref sig .tc .vmem S512x512 .bf16) (harg4 : arg4.IsWhole) (arg5 : Memref sig .tc .vmem S256x512 .f32) (harg5 : arg5.IsWhole) (arg6 : Memref sig .tc .vmem S256x512 .f32) (harg6 : arg6.IsWhole) (hc0 : ¬isFirst i) (hc1 : isLast i) (x0 : Vec F S256x512 .bf16) (x1 : Vec F S512x512 .bf16) (xs : Vec F S256x512 .f32) :
    View.canon (runLast c i arg3 harg3 arg4 harg4 arg5 harg5 arg6 harg6 hc0 hc1 x0 x1 xs).1 = k0_pay2 xs x0 x1 := by
  unfold runLast
  dsimp only
  sl_unfold_words
  rw [View.canon_unit_zero (S := S256x512) hz2, View.readCov_unit_zero (S := S256x512) _ hz2]
  simp only [View.readAt_eq_ld, harg3.read_unread, harg4.read_unread, harg6.read_unread, View.ld_unit_zero (S := S256x512) hz2, View.ld_unit_zero (S := S512x512) hz2]

/-! ## The windows' blocks -/

section Data

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its block at every point, for any proof data over these arrays whose body
    leaves the block in place. -/
theorem before_lhs_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the right operand. -/
theorem before_rhs_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The row block of the left operand at a point: rows all, columns of the current step of the contracted axis. -/
abbrev lhsBlk (c : Dev nD) (t : Fin cfg0.N) : Vec F S256x512 .bf16 := iblk V c 0 t
/-- The block of the right operand at a point: rows of the current step, columns of the current column block. -/
abbrev rhsBlk (c : Dev nD) (t : Fin cfg0.N) : Vec F S512x512 .bf16 := iblk V c 1 t

/-! ## The running sum -/

/-- What the scratch holds after point `n`: at the first step of a sweep the zero block plus that step's product, at a
    later step what the step before left plus this step's product. -/
def acc (c : Dev nD) : (n : ℕ) → n < cfg0.N → Vec F S256x512 .f32
  | 0, h => k0_pay2 (k0_pay1 (F := F)) (lhsBlk V c ⟨0, h⟩) (rhsBlk V c ⟨0, h⟩)
  | n + 1, h =>
    if (n + 1) % 4 = 0 then k0_pay2 (k0_pay1 (F := F)) (lhsBlk V c ⟨n + 1, h⟩) (rhsBlk V c ⟨n + 1, h⟩)
    else k0_pay2 (acc c n (Nat.lt_of_succ_lt h)) (lhsBlk V c ⟨n + 1, h⟩) (rhsBlk V c ⟨n + 1, h⟩)

theorem acc_first (c : Dev nD) (t : Fin cfg0.N) (h0 : t.val % 4 = 0) :
    acc V c t.val t.isLt = k0_pay2 (k0_pay1 (F := F)) (lhsBlk V c t) (rhsBlk V c t) := by
  obtain ⟨n, hn⟩ := t
  cases n with
  | zero => rfl
  | succ n => exact if_pos h0

theorem acc_next (c : Dev nD) (t : Fin cfg0.N) (h0 : ¬t.val % 4 = 0) :
    acc V c t.val t.isLt = k0_pay2 (acc V c (t.val - 1) (Nat.lt_of_le_of_lt (Nat.sub_le _ _) t.isLt)) (lhsBlk V c t) (rhsBlk V c t) := by
  obtain ⟨n, hn⟩ := t
  cases n with
  | zero => exact absurd (Nat.zero_mod _) h0
  | succ n => exact if_neg h0

/-! ## The invariant between points -/

/-- The scratch the running sum lives in. -/
abbrev scM : Memref sig .tc .vmem S256x512 .f32 := Memref.whole cc0_scratch0

/-- The core's other scoped buffers that no window of this call stages: the second call's staging buffers and scratch,
    each whole at some contents. The body never touches them. -/
abbrev others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The invariant the region starts from, with the scratch named: the scratch at anything, the other scoped buffers,
    the generator register at some state. -/
theorem PhiA_eq (c : Dev nD) :
    (Pipeline.ΦA spec0 c : sProp 𝕄)
      = iprop(iprop((∃ d, owns (c : Thread nD τ) scM fullShare d) ∗ others (F := F) c) ∗ (∃ r, prngReg c r)) := by
  unfold Pipeline.ΦA; rw [scopedRest0_eq]; simp only [scM, owns_whole]; try rfl

/-- The invariant before position `n`: before the first point the scratch holds anything; afterwards the running sum
    the point before left. -/
def PhiS (c : Dev nD) : (n : ℕ) → n ≤ cfg0.N → sProp 𝕄
  | 0, _ => Pipeline.ΦA spec0 c
  | n + 1, hn => iprop(iprop(owns (c : Thread nD τ) scM fullShare (acc V c n hn) ∗ others (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (acc V c n hn) ∗ others (F := F) c) ∗ (∃ r, prngReg c r)) := rfl

theorem PhiS_pos (c : Dev nD) (n : ℕ) (h : n ≤ cfg0.N) (hz : n ≠ 0) :
    PhiS V c n h = iprop(iprop(owns (c : Thread nD τ) scM fullShare (acc V c (n - 1) (by omega)) ∗ others (F := F) c) ∗ (∃ r, prngReg c r)) := by
  cases n with
  | zero => exact absurd rfl hz
  | succ n => rfl

/-! ## The proof data -/

/-- The proof data of the matrix product's pipeline on core `c`: the arrays as the region finds them; after the body
    each operand's buffer at its block and the result's at the running sum; the invariant above; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => acc V c t.val t.isLt
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_lhs (c : Dev nD) (t : Fin cfg0.N) : (dat V c).after 0 t = iblk V c 0 t := by dsimp only [dat]
theorem after_rhs (c : Dev nD) (t : Fin cfg0.N) : (dat V c).after 1 t = iblk V c 1 t := by dsimp only [dat]
theorem after_out (c : Dev nD) (t : Fin cfg0.N) : (dat V c).after 2 t = acc V c t.val t.isLt := by dsimp only [dat]

theorem before_lhs (c : Dev nD) (t : Fin cfg0.N) (d) : (dat V c).before 0 t d = iblk V c 0 t :=
  before_lhs_of V (dat V c) (A_eq V c 0) (after_lhs V c) t d
theorem before_rhs (c : Dev nD) (t : Fin cfg0.N) (d) : (dat V c).before 1 t d = iblk V c 1 t :=
  before_rhs_of V (dat V c) (A_eq V c 1) (after_rhs V c) t d

/-! ## Where the result's window is idle -/

theorem live_lhs : ∀ t : Fin cfg0.N, cfg0.idle 0 (grid0.coords t) = false := by decide +kernel
theorem live_rhs : ∀ t : Fin cfg0.N, cfg0.idle 1 (grid0.coords t) = false := by decide +kernel
/-- Away from the last step of a sweep the body stores nothing into the result's buffer, -/
theorem idle_out : ∀ t : Fin cfg0.N, ¬isLast (grid0.coords t) → cfg0.idle 2 (grid0.coords t) = true := by decide +kernel
/-- and the pipeline does not write it back there. -/
theorem noFlush_out : ∀ t : Fin cfg0.N, ¬isLast (grid0.coords t) → (cfg0.win 2).flush t = false := by decide +kernel
/-- At the last step it does store into it. -/
theorem live_out : ∀ t : Fin cfg0.N, isLast (grid0.coords t) → cfg0.idle 2 (grid0.coords t) = false := by decide +kernel

/-! ## The body obligation -/

/-- Each window's current staging memref at point `t`, as the pipeline passes it, and its wholeness. -/
abbrev ms0 (t : Fin cfg0.N) : Memref sig .tc .vmem S256x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x512 .f32 := win0_2.stage (cfg0.slots t 2)
abbrev hs2 (t : Fin cfg0.N) : (ms2 t).IsWhole := hstage0_2 ((cfg0.slots t 2).cast nbuf0_2)

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The operands' buffers hold their blocks; the position of the point in its sweep says which
    case the body is in; the invariant hands it the scratch at the running sum so far (at anything before the first
    point and at the start of a sweep, where it is overwritten) and takes it back at the new running sum; the result's
    buffer goes back untouched except at the last step of a sweep, which fills it with the running sum. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_lhs, before_rhs]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live_lhs t], after_lhs]
  rw [show (dat V c).leavesExact 1 t = owns (c : Thread nD τ) (ms1 t) fullShare ((dat V c).after 1 t) from by
    unfold Dat.leavesExact; rw [live_rhs t], after_rhs]
  have hN : t.val < 16 := lt_of_lt_of_eq t.isLt (show cfg0.N = 16 from N_0)
  by_cases h0 : t.val % 4 = 0
  · have hc0 : isFirst (grid0.coords t) := (isFirst_iff t).mpr h0
    have hc1 : ¬isLast (grid0.coords t) := fun h => by have := (isLast_iff t).mp h; omega
    rw [Dat.leavesExact_idle (dat V c) 2 t (idle_out t hc1) (noFlush_out t hc1)]
    rw [acc_first V c t h0]
    by_cases hz : t.val = 0
    · rw [PhiS_castSucc V c t, PhiS_zero V c _ _ hz, PhiA_eq]
      iintro ⟨⟨⟨HS, Hoth⟩, Hg⟩, Ho, ⟨%d0, H0⟩, ⟨%d1, H1⟩, ⟨%d2, H2⟩⟩
      iapply ((runFirst c (grid0.coords t) _ (hs0 t) _ (hs1 t) _ (hs2 t) scM (Memref.isWhole_whole _) hc0 hc1 (lhsBlk V c t) (rhsBlk V c t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact (View.read_writes_eq_canon _ _ _ (cover_first c _ _ _ _ _ _ _ _ _ hc0 hc1 _ _)).trans (first_val c _ _ _ _ _ _ _ _ _ hc0 hc1 _ _)
          iexact Hoth
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS, Hoth⟩, Hg⟩, Ho, ⟨%d0, H0⟩, ⟨%d1, H1⟩, ⟨%d2, H2⟩⟩
      iapply ((runFirst c (grid0.coords t) _ (hs0 t) _ (hs1 t) _ (hs2 t) scM (Memref.isWhole_whole _) hc0 hc1 (lhsBlk V c t) (rhsBlk V c t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hoth Hg]
      · isplitl [HS Hoth]
        · isplitl [HS]
          · unfold owns; iexists _; isplitr
            swap; · iexact HS
            ipureintro; exact (View.read_writes_eq_canon _ _ _ (cover_first c _ _ _ _ _ _ _ _ _ hc0 hc1 _ _)).trans (first_val c _ _ _ _ _ _ _ _ _ hc0 hc1 _ _)
          iexact Hoth
        iexact Hg
      isplitl [Ho]; · iexact Ho
      isplitl [H0]; · iexact H0
      isplitl [H1]; · iexact H1
      iexists _; iexact H2
  · have hc0 : ¬isFirst (grid0.coords t) := fun h => h0 ((isFirst_iff t).mp h)
    have hz : t.val ≠ 0 := fun h => h0 (by rw [h])
    rw [acc_next V c t h0]
    rw [PhiS_castSucc V c t, PhiS_pos V c _ _ hz]
    by_cases h1 : t.val % 4 = 3
    · have hc1 : isLast (grid0.coords t) := (isLast_iff t).mpr h1
      rw [show (dat V c).leavesExact 2 t = owns (c : Thread nD τ) (ms2 t) fullShare ((dat V c).after 2 t) from by
        unfold Dat.leavesExact; rw [live_out t hc1], after_out]
      rw [acc_next V c t h0]
      iintro ⟨⟨⟨HS, Hoth⟩, Hg⟩, Ho, ⟨%d0, H0⟩, ⟨%d1, H1⟩, ⟨%d2, H2⟩⟩
      iapply ((runLast c (grid0.coords t) _ (hs0 t) _ (hs1 t) _ (hs2 t) scM (Memref.isWhole_whole _) hc0 hc1 (lhsBlk V c t) (rhsBlk V c t) _).2.2 Set.univ _)
      isplitl [H0]; · iexact H0
      isplitl [H1]; · iexact H1
      isplitl [H2]; · iexists _; iexact H2
      isplitl [HS]; · iexact HS
      iintro ⟨H0, H1, ⟨%eo, H2⟩, ⟨%es, HS⟩⟩
      isplitl [HS Hoth Hg]
      · isplitl [HS Hoth]
        · isplitl [HS]
          · unfold owns; iexists _; isplitr
            swap; · iexact HS
            ipureintro; exact (View.read_writes_eq_canon _ _ _ (cover_last_s c _ _ _ _ _ _ _ _ _ hc0 hc1 _ _ _)).trans (last_val_s c _ _ _ _ _ _ _ _ _ hc0 hc1 _ _ _)
          iexact Hoth
        iexact Hg
      isplitl [Ho]; · iexact Ho
      isplitl [H0]; · iexact H0
      isplitl [H1]; · iexact H1
      unfold owns; iexists _; isplitr
      swap; · iexact H2
      ipureintro; exact (View.read_writes_eq_canon _ _ _ (cover_last_o c _ _ _ _ _ _ _ _ _ hc0 hc1 _ _ _)).trans (last_val_o c _ _ _ _ _ _ _ _ _ hc0 hc1 _ _ _)
    · have hc1 : ¬isLast (grid0.coords t) := fun h => h1 ((isLast_iff t).mp h)
      rw [Dat.leavesExact_idle (dat V c) 2 t (idle_out t hc1) (noFlush_out t hc1)]
      iintro ⟨⟨⟨HS, Hoth⟩, Hg⟩, Ho, ⟨%d0, H0⟩, ⟨%d1, H1⟩, ⟨%d2, H2⟩⟩
      iapply ((runMid c (grid0.coords t) _ (hs0 t) _ (hs1 t) _ (hs2 t) scM (Memref.isWhole_whole _) hc0 hc1 (lhsBlk V c t) (rhsBlk V c t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact (View.read_writes_eq_canon _ _ _ (cover_mid c _ _ _ _ _ _ _ _ _ hc0 hc1 _ _ _)).trans (mid_val c _ _ _ _ _ _ _ _ _ hc0 hc1 _ _ _)
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the region is entered with is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the same back: what the scratch holds is forgotten. -/
theorem hout (c : Dev nD) : (dat V c).Φ (Fin.last cfg0.N) ⊢ Pipeline.ΦA spec0 c := by
  have hne : (Fin.last cfg0.N).val ≠ 0 := by rw [Fin.val_last]; have : cfg0.N = 16 := N_0; omega
  rw [show (dat V c).Φ (Fin.last cfg0.N) = PhiS V c (Fin.last cfg0.N).val (Nat.le_of_lt_succ (Fin.last cfg0.N).isLt) from rfl,
    PhiS_pos V c _ _ hne, PhiA_eq]
  iintro ⟨⟨HS, Hoth⟩, Hg⟩
  isplitl [HS Hoth]
  · isplitl [HS]
    · iexists _; iexact HS
    iexact Hoth
  iexact Hg

end Data

end Cert.Kernel.Mm

end
-- ==== Proof.Kernel.Between.lean ====
/-
  The contents of the core's unscoped buffers between the items of @main, up to the second region's entry: the launch
  contents, then what the three host operations before the first region write (the table flattened to a matrix, and
  both operands in the narrower float format), then the first region's result array at what its pipeline leaves, then
  the reshape of that result into rows.
-/
import proofs.«102462_j11759620457095_1_alg».proof.Proof.Gen.Kernel.Launch
import proofs.«102462_j11759620457095_1_alg».proof.Proof.Gen.Kernel.Skeleton
import proofs.«102462_j11759620457095_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«102462_j11759620457095_1_alg».proof.Proof.Gen.Kernel.Regions
import proofs.«102462_j11759620457095_1_alg».proof.Proof.Kernel.MmData
import Idealize.ShloMosaic.Lib.Pipeline.Value
set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between items -/

/-- Core `c`'s buffers at launch. -/
abbrev W0 : Dev nD → Valuation τ sig (Elt F) := fun c b => m (c, b)
/-- After the three host operations before the first region: the flattened table and the two operands in the
    narrower float format. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first region: its arrays at what the pipeline leaves, every other buffer as entered. -/
def W2 (c : Dev nD) : Valuation τ sig (Elt F) :=
  Pipeline.withArrays spec0 c (W1 m c) fun w => (Mm.dat (V1 m) c).arrAt w cfg0.N
theorem W2_arr (c : Dev nD) (w : Fin cfg0.W) :
    W2 m c (Proc.devRef .tc (Pipeline.arrRef spec0 w)) = (Mm.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Mm.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the reshape of the product into rows. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

end Cert.Kernel.Whole

end
-- ==== Proof.Kernel.PdRuns.lean ====
/-
  The summed exponential of negative L1 distances: the kernel body, run once per position of the point in its sweep.

  The grid is (8, 4): for each of the eight row blocks of the result, four steps across the blocks of the other
  operand. At a step the body holds a block x of 32 rows and a block y of 64 rows (each row a 64 × 32 table) and forms,
  for every row a of x and every column k, the sum over the rows b of y of exp (−Σ_d |x[a,k,d] − y[b,k,d]|). It keeps a
  running sum of these in a scratch buffer: at the first step of a sweep it stores the zero block there, at every step
  it adds the step's term to what the scratch holds, and at the last step it copies the scratch into the result's
  staging buffer. So there are three cases, told apart by the two conditions on the grid point below; in each the body
  is run symbolically on whole buffers, and what it stores is recorded as the list of pieces the run finds (latest
  first).
-/
import proofs.«102462_j11759620457095_1_alg».proof.Proof.Gen.Kernel.Launch
import proofs.«102462_j11759620457095_1_alg».proof.Proof.Gen.Kernel.Skeleton
import proofs.«102462_j11759620457095_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pd

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first of a sweep across the other operand's blocks: the body resets the running sum. -/
abbrev isFirst (i : grid1.Coords) : Prop := (Scalar.cmpi .ne (Scalar.extui (Scalar.cmpi .eq (BitVec.ofNat 32 (i 1).val) 0#32)) 0#32) = 1#1
/-- The point is the last of a sweep: the body copies the running sum out. -/
abbrev isLast (i : grid1.Coords) : Prop := k1_cond2 i = 1#1

/-- A sweep starts at the points that are multiples of four, -/
theorem isFirst_iff : ∀ t : Fin cfg1.N, isFirst (grid1.coords t) ↔ t.val % 4 = 0 :=
  (by decide +kernel : ∀ t : Fin grid1.N, isFirst (grid1.coords t) ↔ t.val % 4 = 0)
/-- and ends three points later. -/
theorem isLast_iff : ∀ t : Fin cfg1.N, isLast (grid1.coords t) ↔ t.val % 4 = 3 :=
  (by decide +kernel : ∀ t : Fin grid1.N, isLast (grid1.coords t) ↔ t.val % 4 = 3)

set_option maxHeartbeats 1000000 in
/-- First step of a sweep: whatever the scratch held, the body stores the zero block, then the step's term added to the
    zero block; the result's buffer is handed back as it was found. -/
noncomputable def runFirst (c : Dev nD) (i : grid1.Coords) (arg2 : Memref sig .tc .vmem S32x64x32 .f32) (harg2 : arg2.IsWhole) (arg3 : Memref sig .tc .vmem S64x64x32 .f32) (harg3 : arg3.IsWhole) (arg4 : Memref sig .tc .vmem S32x64 .f32) (harg4 : arg4.IsWhole) (arg5 : Memref sig .tc .vmem S32x64 .f32) (harg5 : arg5.IsWhole)
    (hc0 : isFirst i) (hc1 : ¬isLast i) (x0 : Vec F S32x64x32 .f32) (x1 : Vec F S64x64x32 .f32) :
    { LS : List (View.Piece (Elt F) S32x64 .f32) //
      ∀ (xo : Vec F S32x64 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc1__l1_exp_sum_kernel i arg2 harg2 arg3 harg3 arg4 harg4 arg5 harg5) K } := by
  refine ⟨?_, fun xo E K => ?run⟩
  case run =>
    simp only [cc1__l1_exp_sum_kernel_eq_skeleton]; unfold cc1__l1_exp_sum_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- A step inside a sweep: the body adds the step's term to what the scratch holds; the result's buffer is handed back
    as it was found. -/
noncomputable def runMid (c : Dev nD) (i : grid1.Coords) (arg2 : Memref sig .tc .vmem S32x64x32 .f32) (harg2 : arg2.IsWhole) (arg3 : Memref sig .tc .vmem S64x64x32 .f32) (harg3 : arg3.IsWhole) (arg4 : Memref sig .tc .vmem S32x64 .f32) (harg4 : arg4.IsWhole) (arg5 : Memref sig .tc .vmem S32x64 .f32) (harg5 : arg5.IsWhole)
    (hc0 : ¬isFirst i) (hc1 : ¬isLast i) (x0 : Vec F S32x64x32 .f32) (x1 : Vec F S64x64x32 .f32) (xs : Vec F S32x64 .f32) :
    { LS : List (View.Piece (Elt F) S32x64 .f32) //
      ∀ (xo : Vec F S32x64 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc1__l1_exp_sum_kernel i arg2 harg2 arg3 harg3 arg4 harg4 arg5 harg5) K } := by
  refine ⟨?_, fun xo E K => ?run⟩
  case run =>
    simp only [cc1__l1_exp_sum_kernel_eq_skeleton]; unfold cc1__l1_exp_sum_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- Last step of a sweep: the body adds the last term to the scratch and copies the scratch into the result's buffer,
    whatever that held. The first list is what it stores into the result's buffer, the second into the scratch. -/
noncomputable def runLast (c : Dev nD) (i : grid1.Coords) (arg2 : Memref sig .tc .vmem S32x64x32 .f32) (harg2 : arg2.IsWhole) (arg3 : Memref sig .tc .vmem S64x64x32 .f32) (harg3 : arg3.IsWhole) (arg4 : Memref sig .tc .vmem S32x64 .f32) (harg4 : arg4.IsWhole) (arg5 : Memref sig .tc .vmem S32x64 .f32) (harg5 : arg5.IsWhole)
    (hc0 : ¬isFirst i) (hc1 : isLast i) (x0 : Vec F S32x64x32 .f32) (x1 : Vec F S64x64x32 .f32) (xs : Vec F S32x64 .f32) :
    Σ' (LO : List (View.Piece (Elt F) S32x64 .f32)), { LS : List (View.Piece (Elt F) S32x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc1__l1_exp_sum_kernel i arg2 harg2 arg3 harg3 arg4 harg4 arg5 harg5) K } := by
  refine ⟨?_, ?_, fun E K => ?run⟩
  case run =>
    simp only [cc1__l1_exp_sum_kernel_eq_skeleton]; unfold cc1__l1_exp_sum_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS

end Cert.Kernel.Pd

end
-- ==== Proof.Kernel.PdData.lean ====
/-
  The summed exponential of negative L1 distances: the proof data. The running sum in the scratch after each grid
  point, what each window's staging buffer holds, and the body's obligation at every point.

  With x the block of 32 rows and y the block of 64 rows at a point, the step's term is, for every row a of x and
  every column k, the sum over the rows b of y of exp (−Σ_d |x[a,k,d] − y[b,k,d]|). After a point the scratch holds the
  sum of the terms of the sweep so far; after the last point of a sweep the result's staging buffer holds the same.
-/
import proofs.«102462_j11759620457095_1_alg».proof.Proof.Gen.Kernel.Launch
import proofs.«102462_j11759620457095_1_alg».proof.Proof.Gen.Kernel.Skeleton
import proofs.«102462_j11759620457095_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«102462_j11759620457095_1_alg».proof.Proof.Kernel.PdRuns
import Idealize.ShloMosaic.Lib.Pipeline.Value
set_option maxRecDepth 16384

noncomputable section

namespace Cert.Kernel.Pd

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case stores, read back -/

/-- The first step's two stores into the scratch cover it. -/
theorem cover_first (c : Dev nD) (i : grid1.Coords) (arg2 : Memref sig .tc .vmem S32x64x32 .f32) (harg2 : arg2.IsWhole) (arg3 : Memref sig .tc .vmem S64x64x32 .f32) (harg3 : arg3.IsWhole) (arg4 : Memref sig .tc .vmem S32x64 .f32) (harg4 : arg4.IsWhole) (arg5 : Memref sig .tc .vmem S32x64 .f32) (harg5 : arg5.IsWhole) (hc0 : isFirst i) (hc1 : ¬isLast i) (x0 : Vec F S32x64x32 .f32) (x1 : Vec F S64x64x32 .f32) (y : S32x64.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S32x64.size (by sl_kernel_rfl) y

/-- An inner step's one store into the scratch covers it. -/
theorem cover_mid (c : Dev nD) (i : grid1.Coords) (arg2 : Memref sig .tc .vmem S32x64x32 .f32) (harg2 : arg2.IsWhole) (arg3 : Memref sig .tc .vmem S64x64x32 .f32) (harg3 : arg3.IsWhole) (arg4 : Memref sig .tc .vmem S32x64 .f32) (harg4 : arg4.IsWhole) (arg5 : Memref sig .tc .vmem S32x64 .f32) (harg5 : arg5.IsWhole) (hc0 : ¬isFirst i) (hc1 : ¬isLast i) (x0 : Vec F S32x64x32 .f32) (x1 : Vec F S64x64x32 .f32) (xs : Vec F S32x64 .f32) (y : S32x64.Idx) :
    ∃ pc ∈ (runMid c i arg2 harg2 arg3 harg3 arg4 harg4 arg5 harg5 hc0 hc1 x0 x1 xs).1, y ∈ pc.1.set :=
  View.cover_of_tiledL (runMid c i arg2 harg2 arg3 harg3 arg4 harg4 arg5 harg5 hc0 hc1 x0 x1 xs).1 S32x64.size (by sl_kernel_rfl) y

/-- The last step's store into the scratch covers it, -/
theorem cover_last_s (c : Dev nD) (i : grid1.Coords) (arg2 : Memref sig .tc .vmem S32x64x32 .f32) (harg2 : arg2.IsWhole) (arg3 : Memref sig .tc .vmem S64x64x32 .f32) (harg3 : arg3.IsWhole) (arg4 : Memref sig .tc .vmem S32x64 .f32) (harg4 : arg4.IsWhole) (arg5 : Memref sig .tc .vmem S32x64 .f32) (harg5 : arg5.IsWhole) (hc0 : ¬isFirst i) (hc1 : isLast i) (x0 : Vec F S32x64x32 .f32) (x1 : Vec F S64x64x32 .f32) (xs : Vec F S32x64 .f32) (y : S32x64.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S32x64.size (by sl_kernel_rfl) y

/-- and so does its store into the result's buffer. -/
theorem cover_last_o (c : Dev nD) (i : grid1.Coords) (arg2 : Memref sig .tc .vmem S32x64x32 .f32) (harg2 : arg2.IsWhole) (arg3 : Memref sig .tc .vmem S64x64x32 .f32) (harg3 : arg3.IsWhole) (arg4 : Memref sig .tc .vmem S32x64 .f32) (harg4 : arg4.IsWhole) (arg5 : Memref sig .tc .vmem S32x64 .f32) (harg5 : arg5.IsWhole) (hc0 : ¬isFirst i) (hc1 : isLast i) (x0 : Vec F S32x64x32 .f32) (x1 : Vec F S64x64x32 .f32) (xs : Vec F S32x64 .f32) (y : S32x64.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S32x64.size (by sl_kernel_rfl) y

/-- The first step leaves in the scratch the step's term added to the zero block. -/
theorem first_val (c : Dev nD) (i : grid1.Coords) (arg2 : Memref sig .tc .vmem S32x64x32 .f32) (harg2 : arg2.IsWhole) (arg3 : Memref sig .tc .vmem S64x64x32 .f32) (harg3 : arg3.IsWhole) (arg4 : Memref sig .tc .vmem S32x64 .f32) (harg4 : arg4.IsWhole) (arg5 : Memref sig .tc .vmem S32x64 .f32) (harg5 : arg5.IsWhole) (hc0 : isFirst i) (hc1 : ¬isLast i) (x0 : Vec F S32x64x32 .f32) (x1 : Vec F S64x64x32 .f32) :
    View.canon (runFirst c i arg2 harg2 arg3 harg3 arg4 harg4 arg5 harg5 hc0 hc1 x0 x1).1 = k1_pay2 x0 x1 (k1_pay1 (F := F)) := by
  unfold runFirst
  dsimp only
  sl_unfold_words
  rw [View.canon_cons_unit_zero (S := S32x64) hz2, View.readCov_unit_zero (S := S32x64) _ hz2]
  simp only [View.readAt_eq_ld, harg2.read_unread, harg3.read_unread, View.ld_unit_zero (S := S32x64x32) hz3, View.ld_unit_zero (S := S64x64x32) hz3]

/-- An inner step leaves in the scratch the step's term added to what it held. -/
theorem mid_val (c : Dev nD) (i : grid1.Coords) (arg2 : Memref sig .tc .vmem S32x64x32 .f32) (harg2 : arg2.IsWhole) (arg3 : Memref sig .tc .vmem S64x64x32 .f32) (harg3 : arg3.IsWhole) (arg4 : Memref sig .tc .vmem S32x64 .f32) (harg4 : arg4.IsWhole) (arg5 : Memref sig .tc .vmem S32x64 .f32) (harg5 : arg5.IsWhole) (hc0 : ¬isFirst i) (hc1 : ¬isLast i) (x0 : Vec F S32x64x32 .f32) (x1 : Vec F S64x64x32 .f32) (xs : Vec F S32x64 .f32) :
    View.canon (runMid c i arg2 harg2 arg3 harg3 arg4 harg4 arg5 harg5 hc0 hc1 x0 x1 xs).1 = k1_pay2 x0 x1 xs := by
  unfold runMid
  dsimp only
  sl_unfold_words
  rw [View.canon_unit_zero (S := S32x64) hz2]
  simp only [View.readAt_eq_ld, harg2.read_unread, harg3.read_unread, harg5.read_unread, View.ld_unit_zero (S := S32x64) hz2, View.ld_unit_zero (S := S32x64x32) hz3, View.ld_unit_zero (S := S64x64x32) hz3]

/-- The last step leaves the same sum in the scratch, -/
theorem last_val_s (c : Dev nD) (i : grid1.Coords) (arg2 : Memref sig .tc .vmem S32x64x32 .f32) (harg2 : arg2.IsWhole) (arg3 : Memref sig .tc .vmem S64x64x32 .f32) (harg3 : arg3.IsWhole) (arg4 : Memref sig .tc .vmem S32x64 .f32) (harg4 : arg4.IsWhole) (arg5 : Memref sig .tc .vmem S32x64 .f32) (harg5 : arg5.IsWhole) (hc0 : ¬isFirst i) (hc1 : isLast i) (x0 : Vec F S32x64x32 .f32) (x1 : Vec F S64x64x32 .f32) (xs : Vec F S32x64 .f32) :
    View.canon (runLast c i arg2 harg2 arg3 harg3 arg4 harg4 arg5 harg5 hc0 hc1 x0 x1 xs).2.1 = k1_pay2 x0 x1 xs := by
  unfold runLast
  dsimp only
  sl_unfold_words
  rw [View.canon_unit_zero (S := S32x64) hz2]
  simp only [View.readAt_eq_ld, harg2.read_unread, harg3.read_unread, harg5.read_unread, View.ld_unit_zero (S := S32x64) hz2, View.ld_unit_zero (S := S32x64x32) hz3, View.ld_unit_zero (S := S64x64x32) hz3]

/-- and copies it into the result's buffer. -/
theorem last_val_o (c : Dev nD) (i : grid1.Coords) (arg2 : Memref sig .tc .vmem S32x64x32 .f32) (harg2 : arg2.IsWhole) (arg3 : Memref sig .tc .vmem S64x64x32 .f32) (harg3 : arg3.IsWhole) (arg4 : Memref sig .tc .vmem S32x64 .f32) (harg4 : arg4.IsWhole) (arg5 : Memref sig .tc .vmem S32x64 .f32) (harg5 : arg5.IsWhole) (hc0 : ¬isFirst i) (hc1 : isLast i) (x0 : Vec F S32x64x32 .f32) (x1 : Vec F S64x64x32 .f32) (xs : Vec F S32x64 .f32) :
    View.canon (runLast c i arg2 harg2 arg3 harg3 arg4 harg4 arg5 harg5 hc0 hc1 x0 x1 xs).1 = k1_pay2 x0 x1 xs := by
  unfold runLast
  dsimp only
  sl_unfold_words
  rw [View.canon_unit_zero (S := S32x64) hz2, View.readCov_unit_zero (S := S32x64) _ hz2]
  simp only [View.readAt_eq_ld, harg2.read_unread, harg3.read_unread, harg5.read_unread, View.ld_unit_zero (S := S32x64) hz2, View.ld_unit_zero (S := S32x64x32) hz3, View.ld_unit_zero (S := S64x64x32) hz3]

/-! ## The windows' blocks -/

section Data

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block's staging buffer holds its block at every point of a sweep, though it is fetched only at the sweep's
    first point: in between the block's index does not move. For any proof data over these arrays whose body leaves
    the block in place. -/
theorem before_rows_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the other operand's block, fetched at every point. -/
theorem before_oth_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The block of 32 rows at a point: the rows of the current row block of the result. -/
abbrev rowsBlk (c : Dev nD) (t : Fin cfg1.N) : Vec F S32x64x32 .f32 := iblk V c 0 t
/-- The block of 64 rows of the same array at a point: the rows of the current step of the sweep. -/
abbrev othBlk (c : Dev nD) (t : Fin cfg1.N) : Vec F S64x64x32 .f32 := iblk V c 1 t

/-! ## The running sum -/

/-- What the scratch holds after point `n`: at the first step of a sweep that step's term added to the zero block, at
    a later step this step's term added to what the step before left. -/
def acc (c : Dev nD) : (n : ℕ) → n < cfg1.N → Vec F S32x64 .f32
  | 0, h => k1_pay2 (rowsBlk V c ⟨0, h⟩) (othBlk V c ⟨0, h⟩) (k1_pay1 (F := F))
  | n + 1, h =>
    if (n + 1) % 4 = 0 then k1_pay2 (rowsBlk V c ⟨n + 1, h⟩) (othBlk V c ⟨n + 1, h⟩) (k1_pay1 (F := F))
    else k1_pay2 (rowsBlk V c ⟨n + 1, h⟩) (othBlk V c ⟨n + 1, h⟩) (acc c n (Nat.lt_of_succ_lt h))

theorem acc_first (c : Dev nD) (t : Fin cfg1.N) (h0 : t.val % 4 = 0) :
    acc V c t.val t.isLt = k1_pay2 (rowsBlk V c t) (othBlk V c t) (k1_pay1 (F := F)) := by
  obtain ⟨n, hn⟩ := t
  cases n with
  | zero => rfl
  | succ n => exact if_pos h0

theorem acc_next (c : Dev nD) (t : Fin cfg1.N) (h0 : ¬t.val % 4 = 0) :
    acc V c t.val t.isLt = k1_pay2 (rowsBlk V c t) (othBlk V c t) (acc V c (t.val - 1) (Nat.lt_of_le_of_lt (Nat.sub_le _ _) t.isLt)) := by
  obtain ⟨n, hn⟩ := t
  cases n with
  | zero => exact absurd (Nat.zero_mod _) h0
  | succ n => exact if_neg h0

/-! ## The invariant between points -/

/-- The scratch the running sum lives in. -/
abbrev scM : Memref sig .tc .vmem S32x64 .f32 := Memref.whole cc1_scratch0

/-- The core's scoped buffers that no window of this call stages, in the order the region lists them: the first
    call's staging buffers and scratch, each whole at some contents and never touched by the body, and last this
    call's scratch, of which `P` says what it holds. -/
abbrev scopedBufs (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ P)

/-- The invariant the region starts from, with the scratch named: the other scoped buffers, the scratch at anything,
    the generator register at some state. -/
theorem PhiA_eq (c : Dev nD) :
    (Pipeline.ΦA spec1 c : sProp 𝕄)
      = iprop(scopedBufs (F := F) c (iprop(∃ d, owns (c : Thread nD τ) scM fullShare d)) ∗ (∃ r, prngReg c r)) := by
  unfold Pipeline.ΦA; rw [scopedRest1_eq]; simp only [scM, owns_whole]; try rfl

/-- The invariant before position `n`: before the first point the scratch holds anything; afterwards the running sum
    the point before left. -/
def PhiS (c : Dev nD) : (n : ℕ) → n ≤ cfg1.N → sProp 𝕄
  | 0, _ => Pipeline.ΦA spec1 c
  | n + 1, hn => iprop(scopedBufs (F := F) c (owns (c : Thread nD τ) scM fullShare (acc V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(scopedBufs (F := F) c (owns (c : Thread nD τ) scM fullShare (acc V c n hn)) ∗ (∃ r, prngReg c r)) := rfl

theorem PhiS_pos (c : Dev nD) (n : ℕ) (h : n ≤ cfg1.N) (hz : n ≠ 0) :
    PhiS V c n h = iprop(scopedBufs (F := F) c (owns (c : Thread nD τ) scM fullShare (acc V c (n - 1) (by omega))) ∗ (∃ r, prngReg c r)) := by
  cases n with
  | zero => exact absurd rfl hz
  | succ n => rfl

/-! ## The proof data -/

/-- The proof data of this call's pipeline on core `c`: the arrays as the region finds them; after the body each
    operand's buffer at its block and the result's at the running sum; the invariant above; nothing owed. The two
    operand windows stage one and the same array, so each holds half of it; the result's array is held whole. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => acc V c t.val t.isLt
  Φ t := PhiS V c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_rows (c : Dev nD) (t : Fin cfg1.N) : (dat V c).after 0 t = iblk V c 0 t := by dsimp only [dat]
theorem after_oth (c : Dev nD) (t : Fin cfg1.N) : (dat V c).after 1 t = iblk V c 1 t := by dsimp only [dat]
theorem after_out (c : Dev nD) (t : Fin cfg1.N) : (dat V c).after 2 t = acc V c t.val t.isLt := by dsimp only [dat]

theorem before_rows (c : Dev nD) (t : Fin cfg1.N) (d) : (dat V c).before 0 t d = iblk V c 0 t :=
  before_rows_of V (dat V c) (A_eq V c 0) (after_rows V c) t d
theorem before_oth (c : Dev nD) (t : Fin cfg1.N) (d) : (dat V c).before 1 t d = iblk V c 1 t :=
  before_oth_of V (dat V c) (A_eq V c 1) (after_oth V c) t d

/-! ## Where the result's window is idle -/

theorem live_rows : ∀ t : Fin cfg1.N, cfg1.idle 0 (grid1.coords t) = false := by decide +kernel
theorem live_oth : ∀ t : Fin cfg1.N, cfg1.idle 1 (grid1.coords t) = false := by decide +kernel
/-- Away from the last step of a sweep the body stores nothing into the result's buffer, -/
theorem idle_out : ∀ t : Fin cfg1.N, ¬isLast (grid1.coords t) → cfg1.idle 2 (grid1.coords t) = true := by decide +kernel
/-- and the pipeline does not write it back there. -/
theorem noFlush_out : ∀ t : Fin cfg1.N, ¬isLast (grid1.coords t) → (cfg1.win 2).flush t = false := by decide +kernel
/-- At the last step it does store into it. -/
theorem live_out : ∀ t : Fin cfg1.N, isLast (grid1.coords t) → cfg1.idle 2 (grid1.coords t) = false := by decide +kernel

/-! ## The body obligation -/

/-- Each window's current staging memref at point `t`, as the pipeline passes it, and its wholeness. -/
abbrev ms0 (t : Fin cfg1.N) : Memref sig .tc .vmem S32x64x32 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S64x64x32 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S32x64 .f32 := win1_2.stage (cfg1.slots t 2)
abbrev hs2 (t : Fin cfg1.N) : (ms2 t).IsWhole := hstage1_2 ((cfg1.slots t 2).cast nbuf1_2)

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The operands' buffers hold their blocks; the position of the point in its sweep says which
    case the body is in; the invariant hands it the scratch at the running sum so far (at anything before the first
    point and at the start of a sweep, where it is overwritten) and takes it back at the new running sum; the other
    scoped buffers pass through untouched; the result's buffer goes back untouched except at the last step of a sweep,
    which fills it with the running sum. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_rows, before_oth]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live_rows t], after_rows]
  rw [show (dat V c).leavesExact 1 t = owns (c : Thread nD τ) (ms1 t) fullShare ((dat V c).after 1 t) from by
    unfold Dat.leavesExact; rw [live_oth t], after_oth]
  have hN : t.val < 32 := lt_of_lt_of_eq t.isLt (show cfg1.N = 32 from N_1)
  by_cases h0 : t.val % 4 = 0
  · have hc0 : isFirst (grid1.coords t) := (isFirst_iff t).mpr h0
    have hc1 : ¬isLast (grid1.coords t) := fun h => by have := (isLast_iff t).mp h; omega
    rw [Dat.leavesExact_idle (dat V c) 2 t (idle_out t hc1) (noFlush_out t hc1)]
    rw [acc_first V c t h0]
    by_cases hz : t.val = 0
    · rw [PhiS_castSucc V c t, PhiS_zero V c _ _ hz, PhiA_eq]
      unfold scopedBufs
      iintro ⟨⟨⟨B1, B2, B3, B4, B5, B6, B7, HS⟩, Hg⟩, Ho, ⟨%d0, H0⟩, ⟨%d1, H1⟩, ⟨%d2, H2⟩⟩
      iapply ((runFirst c (grid1.coords t) _ (hs0 t) _ (hs1 t) _ (hs2 t) scM (Memref.isWhole_whole _) hc0 hc1 (rowsBlk V c t) (othBlk V c t)).2 _ Set.univ _)
      isplitl [H0]; · iexact H0
      isplitl [H1]; · iexact H1
      isplitl [H2]; · iexact H2
      isplitl [HS]; · iexact HS
      iintro ⟨H0, H1, H2, ⟨%es, HS⟩⟩
      isplitl [B1 B2 B3 B4 B5 B6 B7 HS Hg]
      · isplitl [B1 B2 B3 B4 B5 B6 B7 HS]
        · isplitl [B1]; · iexact B1
          isplitl [B2]; · iexact B2
          isplitl [B3]; · iexact B3
          isplitl [B4]; · iexact B4
          isplitl [B5]; · iexact B5
          isplitl [B6]; · iexact B6
          isplitl [B7]; · iexact B7
          unfold owns; iexists _; isplitr
          swap; · iexact HS
          ipureintro; exact (View.read_writes_eq_canon _ _ _ (cover_first c _ _ _ _ _ _ _ _ _ hc0 hc1 _ _)).trans (first_val c _ _ _ _ _ _ _ _ _ hc0 hc1 _ _)
        iexact Hg
      isplitl [Ho]; · iexact Ho
      isplitl [H0]; · iexact H0
      isplitl [H1]; · iexact H1
      iexists _; iexact H2
    · rw [PhiS_castSucc V c t, PhiS_pos V c _ _ hz]
      unfold scopedBufs
      iintro ⟨⟨⟨B1, B2, B3, B4, B5, B6, B7, HS⟩, Hg⟩, Ho, ⟨%d0, H0⟩, ⟨%d1, H1⟩, ⟨%d2, H2⟩⟩
      iapply ((runFirst c (grid1.coords t) _ (hs0 t) _ (hs1 t) _ (hs2 t) scM (Memref.isWhole_whole _) hc0 hc1 (rowsBlk V c t) (othBlk V c t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [B1 B2 B3 B4 B5 B6 B7 HS Hg]
      · isplitl [B1 B2 B3 B4 B5 B6 B7 HS]
        · isplitl [B1]; · iexact B1
          isplitl [B2]; · iexact B2
          isplitl [B3]; · iexact B3
          isplitl [B4]; · iexact B4
          isplitl [B5]; · iexact B5
          isplitl [B6]; · iexact B6
          isplitl [B7]; · iexact B7
          unfold owns; iexists _; isplitr
          swap; · iexact HS
          ipureintro; exact (View.read_writes_eq_canon _ _ _ (cover_first c _ _ _ _ _ _ _ _ _ hc0 hc1 _ _)).trans (first_val c _ _ _ _ _ _ _ _ _ hc0 hc1 _ _)
        iexact Hg
      isplitl [Ho]; · iexact Ho
      isplitl [H0]; · iexact H0
      isplitl [H1]; · iexact H1
      iexists _; iexact H2
  · have hc0 : ¬isFirst (grid1.coords t) := fun h => h0 ((isFirst_iff t).mp h)
    have hz : t.val ≠ 0 := fun h => h0 (by rw [h])
    rw [acc_next V c t h0]
    rw [PhiS_castSucc V c t, PhiS_pos V c _ _ hz]
    by_cases h1 : t.val % 4 = 3
    · have hc1 : isLast (grid1.coords t) := (isLast_iff t).mpr h1
      rw [show (dat V c).leavesExact 2 t = owns (c : Thread nD τ) (ms2 t) fullShare ((dat V c).after 2 t) from by
        unfold Dat.leavesExact; rw [live_out t hc1], after_out]
      rw [acc_next V c t h0]
      unfold scopedBufs
      iintro ⟨⟨⟨B1, B2, B3, B4, B5, B6, B7, HS⟩, Hg⟩, Ho, ⟨%d0, H0⟩, ⟨%d1, H1⟩, ⟨%d2, H2⟩⟩
      iapply ((runLast c (grid1.coords t) _ (hs0 t) _ (hs1 t) _ (hs2 t) scM (Memref.isWhole_whole _) hc0 hc1 (rowsBlk V c t) (othBlk V c t) _).2.2 Set.univ _)
      isplitl [H0]; · iexact H0
      isplitl [H1]; · iexact H1
      isplitl [H2]; · iexists _; iexact H2
      isplitl [HS]; · iexact HS
      iintro ⟨H0, H1, ⟨%eo, H2⟩, ⟨%es, HS⟩⟩
      isplitl [B1 B2 B3 B4 B5 B6 B7 HS Hg]
      · isplitl [B1 B2 B3 B4 B5 B6 B7 HS]
        · isplitl [B1]; · iexact B1
          isplitl [B2]; · iexact B2
          isplitl [B3]; · iexact B3
          isplitl [B4]; · iexact B4
          isplitl [B5]; · iexact B5
          isplitl [B6]; · iexact B6
          isplitl [B7]; · iexact B7
          unfold owns; iexists _; isplitr
          swap; · iexact HS
          ipureintro; exact (View.read_writes_eq_canon _ _ _ (cover_last_s c _ _ _ _ _ _ _ _ _ hc0 hc1 _ _ _)).trans (last_val_s c _ _ _ _ _ _ _ _ _ hc0 hc1 _ _ _)
        iexact Hg
      isplitl [Ho]; · iexact Ho
      isplitl [H0]; · iexact H0
      isplitl [H1]; · iexact H1
      unfold owns; iexists _; isplitr
      swap; · iexact H2
      ipureintro; exact (View.read_writes_eq_canon _ _ _ (cover_last_o c _ _ _ _ _ _ _ _ _ hc0 hc1 _ _ _)).trans (last_val_o c _ _ _ _ _ _ _ _ _ hc0 hc1 _ _ _)
    · have hc1 : ¬isLast (grid1.coords t) := fun h => h1 ((isLast_iff t).mp h)
      rw [Dat.leavesExact_idle (dat V c) 2 t (idle_out t hc1) (noFlush_out t hc1)]
      unfold scopedBufs
      iintro ⟨⟨⟨B1, B2, B3, B4, B5, B6, B7, HS⟩, Hg⟩, Ho, ⟨%d0, H0⟩, ⟨%d1, H1⟩, ⟨%d2, H2⟩⟩
      iapply ((runMid c (grid1.coords t) _ (hs0 t) _ (hs1 t) _ (hs2 t) scM (Memref.isWhole_whole _) hc0 hc1 (rowsBlk V c t) (othBlk V c t) _).2 _ Set.univ _)
      isplitl [H0]; · iexact H0
      isplitl [H1]; · iexact H1
      isplitl [H2]; · iexact H2
      isplitl [HS]; · iexact HS
      iintro ⟨H0, H1, H2, ⟨%es, HS⟩⟩
      isplitl [B1 B2 B3 B4 B5 B6 B7 HS Hg]
      · isplitl [B1 B2 B3 B4 B5 B6 B7 HS]
        · isplitl [B1]; · iexact B1
          isplitl [B2]; · iexact B2
          isplitl [B3]; · iexact B3
          isplitl [B4]; · iexact B4
          isplitl [B5]; · iexact B5
          isplitl [B6]; · iexact B6
          isplitl [B7]; · iexact B7
          unfold owns; iexists _; isplitr
          swap; · iexact HS
          ipureintro; exact (View.read_writes_eq_canon _ _ _ (cover_mid c _ _ _ _ _ _ _ _ _ hc0 hc1 _ _ _)).trans (mid_val c _ _ _ _ _ _ _ _ _ hc0 hc1 _ _ _)
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the region is entered with is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the same back: what the scratch holds is forgotten. -/
theorem hout (c : Dev nD) : (dat V c).Φ (Fin.last cfg1.N) ⊢ Pipeline.ΦA spec1 c := by
  have hne : (Fin.last cfg1.N).val ≠ 0 := by rw [Fin.val_last]; have : cfg1.N = 32 := N_1; omega
  rw [show (dat V c).Φ (Fin.last cfg1.N) = PhiS V c (Fin.last cfg1.N).val (Nat.le_of_lt_succ (Fin.last cfg1.N).isLt) from rfl,
    PhiS_pos V c _ _ hne, PhiA_eq]
  unfold scopedBufs
  iintro ⟨⟨B1, B2, B3, B4, B5, B6, B7, HS⟩, Hg⟩
  isplitl [B1 B2 B3 B4 B5 B6 B7 HS]
  · isplitl [B1]; · iexact B1
    isplitl [B2]; · iexact B2
    isplitl [B3]; · iexact B3
    isplitl [B4]; · iexact B4
    isplitl [B5]; · iexact B5
    isplitl [B6]; · iexact B6
    isplitl [B7]; · iexact B7
    iexists _; iexact HS
  iexact Hg

end Data

end Cert.Kernel.Pd

end
-- ==== Proof.Kernel.SharedRows.lean ====
/-
  The second call's shared input. Its two input windows read one array, so the pipeline holds that array twice, each
  time at one half of the full share, while the output window's array is held at the full share. Here: the pipeline's
  windowed arrays written out as the three points-tos, the distinct buffers behind them written out as the two whole
  points-tos, and the passage between the two — halving the shared array's share on the way in, putting the halves
  together on the way out.
-/
import proofs.«102462_j11759620457095_1_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.Kernel.SharedRows

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The share each window's array is held at: the two inputs at the halves, the output at the full share. -/
theorem share_0 {c : Dev nD} (dat : Dat τ (Elt F) Unit ℕ (UR sig nD τ) ℕ cfg1 c) (hq0 : dat.q 0 = fullShare.left) :
    dat.share 0 = fullShare.left := by
  unfold Dat.share; rw [if_neg (by decide), hq0]
theorem share_1 {c : Dev nD} (dat : Dat τ (Elt F) Unit ℕ (UR sig nD τ) ℕ cfg1 c) (hq1 : dat.q 1 = fullShare.right) :
    dat.share 1 = fullShare.right := by
  unfold Dat.share; rw [if_neg (by decide), hq1]
theorem share_2 {c : Dev nD} (dat : Dat τ (Elt F) Unit ℕ (UR sig nD τ) ℕ cfg1 c) :
    dat.share 2 = fullShare := by
  unfold Dat.share; rw [if_pos (by decide)]

/-- The pipeline's windowed arrays, window by window: the shared input array at its two halves, the output array whole. -/
theorem arrays_eq {c : Dev nD} (dat : Dat τ (Elt F) Unit ℕ (UR sig nD τ) ℕ cfg1 c) (hq0 : dat.q 0 = fullShare.left) (hq1 : dat.q 1 = fullShare.right)
    (G : (w : Fin cfg1.W) → Buf (Elt F) ((cfg1.win w).arr.view.loc (c : Thread nD τ))) :
    (dat.arrays G : sProp 𝕄) = iprop((((c : Thread nD τ).loc main_v4) ↦{fullShare.left} G 0) ∗ (((c : Thread nD τ).loc main_v4) ↦{fullShare.right} G 1) ∗ (((c : Thread nD τ).loc main_v5) ↦{fullShare} G 2)) := by
  unfold Dat.arrays
  rw [bigSep_W1, (arr_whole1 0).set_eq_univ, (arr_whole1 2).set_eq_univ, share_0 dat hq0, share_1 dat hq1, share_2 dat]

/-- The distinct buffers behind the windows' arrays are two: the shared input array and the output array, each whole. -/
theorem arrBufs_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v4) ↦{fullShare} V main_v4) ∗ (((c : Thread nD τ).loc main_v5) ↦{fullShare} V main_v5)) := by
  unfold Pipeline.arrBufs
  rw [show (Finset.univ.image (Pipeline.arrRef spec1) : Finset (Ref sig .tc)) = insert main_v4 {main_v5} from by decide,
    bigSep_insert (by decide), bigSep_singleton]
  rfl

/-- On the way in: the shared input array, held whole, is halved — one half for each of the two windows that read it. -/
theorem split_in {c : Dev nD} (dat : Dat τ (Elt F) Unit ℕ (UR sig nD τ) ℕ cfg1 c) (hq0 : dat.q 0 = fullShare.left) (hq1 : dat.q 1 = fullShare.right)
    (V : (b : Ref sig .tc) → Buf (Elt F) ((c : Thread nD τ).loc b))
    (G : (w : Fin cfg1.W) → Buf (Elt F) ((cfg1.win w).arr.view.loc (c : Thread nD τ)))
    (h0 : G 0 = V main_v4) (h1 : G 1 = V main_v4) (h2 : G 2 = V main_v5) :
    (Pipeline.arrBufs (Ix := Unit) (Name := ℕ) (U := UR sig nD τ) (Lvl := ℕ) spec1 c V : sProp 𝕄) ⊢ dat.arrays G := by
  rw [arrays_eq dat hq0 hq1 G, arrBufs_eq c V, h0, h1, h2]
  have halve : (((c : Thread nD τ).loc main_v4) ↦{fullShare} V main_v4 : sProp 𝕄)
      ⊢ iprop((((c : Thread nD τ).loc main_v4) ↦{fullShare.left} V main_v4) ∗ (((c : Thread nD τ).loc main_v4) ↦{fullShare.right} V main_v4)) :=
    (pointsTo_share (PosShare.mem_left_op_right fullShare)).1
  iintro ⟨H4, H5⟩
  ihave H := halve $$ H4
  icases H with ⟨Hl, Hr⟩
  isplitl [Hl]; · iexact Hl
  isplitl [Hr]; · iexact Hr
  iexact H5

/-- On the way out: the two halves of the shared input array, at one contents, are the array held whole again. -/
theorem join_out {c : Dev nD} (dat : Dat τ (Elt F) Unit ℕ (UR sig nD τ) ℕ cfg1 c) (hq0 : dat.q 0 = fullShare.left) (hq1 : dat.q 1 = fullShare.right)
    (V' : (b : Ref sig .tc) → Buf (Elt F) ((c : Thread nD τ).loc b))
    (G : (w : Fin cfg1.W) → Buf (Elt F) ((cfg1.win w).arr.view.loc (c : Thread nD τ)))
    (h0 : G 0 = V' main_v4) (h1 : G 1 = V' main_v4) (h2 : G 2 = V' main_v5) :
    (dat.arrays G : sProp 𝕄) ⊢ Pipeline.arrBufs (Ix := Unit) (Name := ℕ) (U := UR sig nD τ) (Lvl := ℕ) spec1 c V' := by
  rw [arrays_eq dat hq0 hq1 G, arrBufs_eq c V', h0, h1, h2]
  have whole : iprop((((c : Thread nD τ).loc main_v4) ↦{fullShare.left} V' main_v4) ∗ (((c : Thread nD τ).loc main_v4) ↦{fullShare.right} V' main_v4))
      ⊢ (((c : Thread nD τ).loc main_v4) ↦{fullShare} V' main_v4 : sProp 𝕄) :=
    (pointsTo_share (PosShare.mem_left_op_right fullShare)).2
  iintro ⟨Hl, Hr, H5⟩
  isplitl [Hl Hr]
  · iapply whole
    isplitl [Hl]; · iexact Hl
    iexact Hr
  iexact H5

end Cert.Kernel.SharedRows

end
-- ==== Proof.Kernel.Whole.lean ====
/-
  The run of @main: the host operations, the matrix product's region, the reshape, the pairwise sum's region.

  Between two items the core holds every unscoped buffer at a named valuation (the module before this one names them up
  to the second region's entry; here the last one: the second region's result array at what its pipeline leaves). Each
  region is entered from the valuation before it and left at the one after it; the second region's two input windows
  read ONE array, which they hold at two half shares. Every weakly fair execution of @main terminates with memory at
  the last valuation: the arguments are never written, and the result buffer holds what the second pipeline's proof data
  compute.
-/
import proofs.«102462_j11759620457095_1_alg».proof.Proof.Gen.Kernel.Launch
import proofs.«102462_j11759620457095_1_alg».proof.Proof.Gen.Kernel.Skeleton
import proofs.«102462_j11759620457095_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«102462_j11759620457095_1_alg».proof.Proof.Kernel.Between
import proofs.«102462_j11759620457095_1_alg».proof.Proof.Kernel.PdData
import proofs.«102462_j11759620457095_1_alg».proof.Proof.Kernel.SharedRows
set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the second region: its result array at what the pipeline leaves, every other buffer as entered (its two input
    windows read one array and write nothing). -/
def W4 (c : Dev nD) : Valuation τ sig (Elt F) :=
  Function.update (W3 m c) main_v5 ((Pd.dat (V3 m) c).arrAt 2 cfg1.N)
abbrev V4 : (c : Dev nD) → (b : Ref sig .tc) → Buf (Elt F) ((c : Thread nD τ).loc b) := fun c b => W4 m c b
theorem W4_out (c : Dev nD) : W4 m c (Proc.devRef .tc main_v5) = (Pd.dat (V3 m) c).arrAt 2 cfg1.N := by
  unfold W4; exact Function.update_self _ _ _
theorem W4_of_ne (c : Dev nD) (b : Ref sig .tc) (hb : b ≠ main_v5) :
    W4 m c (Proc.devRef .tc b) = W3 m c (Proc.devRef .tc b) := by
  unfold W4; exact Function.update_of_ne (StableHlo.devRef_ne_of_ne hb) _ _
theorem hrest1 (c : Dev nD) : ∀ b, b ∉ Finset.univ.image (Pipeline.arrRef spec1) → V4 m c b = V3 m c b :=
  fun b hb => W4_of_ne m c b fun e => hb (Finset.mem_image.mpr ⟨2, Finset.mem_univ _, e.symm⟩)

/-! ### The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide : main_arg0 ∉ hostOps1_W)
    _ = W1 m c (Proc.devRef .tc main_arg0) := W2_of_ne m c main_arg0 (by decide)
    _ = W0 m c (Proc.devRef .tc main_arg0) := StableHlo.after_of_writes_sub hostOps0 _ hostOps0_writes (by decide : main_arg0 ∉ hostOps0_W)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide : main_arg1 ∉ hostOps1_W)
    _ = W1 m c (Proc.devRef .tc main_arg1) := W2_of_ne m c main_arg1 (by decide)
    _ = W0 m c (Proc.devRef .tc main_arg1) := StableHlo.after_of_writes_sub hostOps0 _ hostOps0_writes (by decide : main_arg1 ∉ hostOps0_W)
    _ = m ((c : Thread nD τ).loc main_arg1) := rfl

/-! ## The proof data family and the thread state -/

/-- No pipeline has a prefetched table. -/
abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => Mm.dat (V1 m) c
  | ⟨1, _⟩ => fun c => Pd.dat (V3 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the `owes` apart: every unscoped buffer at the last valuation. -/
abbrev Tₙ (c : Dev nD) : sProp 𝕄 := iprop(StableHlo.held (c : Thread nD τ) (Pipeline.ucRefs τ sig) (W4 m c) ∗ ∃ r, prngReg c r)

/-- A core's unscoped buffers are the two buffers behind the second region's windows and the rest. -/
theorem split1 (c : Dev nD) (V : (b : Ref sig .tc) → Buf (Elt F) ((c : Thread nD τ).loc b)) :
    (unscopedBufs c V : sProp 𝕄) = iprop((Pipeline.arrBufs (Ix := Unit) (Name := ℕ) (U := UR sig nD τ) (Lvl := ℕ) spec1 c V : sProp 𝕄) ∗ Pipeline.unscopedRest spec1 c V) := by
  classical
  have hA : Finset.univ.image (Pipeline.arrRef spec1) ⊆ Finset.univ.filter fun b : Ref sig .tc => ¬ b.isScoped := by decide
  unfold unscopedBufs Pipeline.unscopedRest Pipeline.arrBufs
  rw [bigSep_sdiff_split hA]
  rfl

/-! ## The regions as segments -/

set_option backward.isDefEq.respectTransparency.types false in
/-- The matrix product's region: entered from every unscoped buffer after the first host stretch, left with its result
    array at what the pipeline leaves. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Mm.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Mm.hin (V1 m) c)
    unfold Pipeline.ΦA
    iintro ⟨Hp, -, Hr⟩
    isplitl [Hr]; · iexact Hr
    iexact Hp
  hout c := by
    refine BIBase.Entails.trans (Mm.hout (V1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pairwise sum's region: entered from every unscoped buffer after the reshape, its two input windows sharing
    the rows array at half shares, left with its result array at what the pipeline leaves. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Pd.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit : (unscopedBufs c (V3 m c) : sProp 𝕄)
        ⊢ iprop((pdats m 1 c).arrays ((pdats m 1 c).arrAt · 0) ∗ Pipeline.unscopedRest spec1 c (V3 m c)) := by
      rw [split1 c (V3 m c)]
      exact sep_mono (SharedRows.split_in (Pd.dat (V3 m) c) rfl rfl (V3 m c) _ rfl rfl rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Pd.hin (V3 m) c)
    unfold Pipeline.ΦA
    iintro ⟨Hp, -, Hr⟩
    isplitl [Hr]; · iexact Hr
    iexact Hp
  hout c := by
    refine BIBase.Entails.trans (Pd.hout (V3 m) c) ?_
    rw [Pipeline.ownSems0_none]; unfold Pipeline.ΦA
    iintro ⟨Hr, Hp⟩
    isplitl [Hp]; · iexact Hp
    isplitr; · iempintro
    iexact Hr
  hexit c := by
    have h0 : (pdats m 1 c).arrAt 0 cfg1.N = V4 m c main_v4 :=
      ((pdats m 1 c).arrAt_in 0 rfl _).trans ((Pd.A_eq (V3 m) c 0).trans (W4_of_ne m c main_v4 (by decide)).symm)
    have h1 : (pdats m 1 c).arrAt 1 cfg1.N = V4 m c main_v4 :=
      ((pdats m 1 c).arrAt_in 1 rfl _).trans ((Pd.A_eq (V3 m) c 1).trans (W4_of_ne m c main_v4 (by decide)).symm)
    have h2 : (pdats m 1 c).arrAt 2 cfg1.N = V4 m c main_v5 := (W4_out m c).symm
    have hjoin : iprop((pdats m 1 c).arrays ((pdats m 1 c).arrAt · cfg1.N) ∗ Pipeline.unscopedRest spec1 c (V3 m c))
        ⊢ (unscopedBufs c (V4 m c) : sProp 𝕄) := by
      rw [split1 c (V4 m c)]
      refine sep_mono (SharedRows.join_out (Pd.dat (V3 m) c) rfl rfl (V4 m c) _ h0 h1 h2) (Entails.of_eq ?_)
      unfold Pipeline.unscopedRest
      exact bigSep_congr fun b hb => by rw [hrest1 m c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- From any memory with zero counters every weakly fair execution of @main terminates, nothing faulting, and every
    final memory holds each unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: the two arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m c), (h c _ (mem_uc main_arg1 (by decide))).trans (W4_main_arg1 m c)⟩)
    (run_all m ρ)

/-- The result buffer ends at what the second pipeline's proof data compute, the arguments as launched. -/
theorem run_out : θ_run defs (onTc (τ := τ) (main (F := F))) ⟨m, fun _ => 0, ρ⟩ (fun r => ∀ c : Dev nD,
      r.2.mem ((c.tc : Thread nD τ).loc main_v5) = (Pd.dat (V3 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v5 (by decide))).trans (W4_out m c),
     (h c _ (mem_uc main_arg0 (by decide))).trans (W4_main_arg0 m c), (h c _ (mem_uc main_arg1 (by decide))).trans (W4_main_arg1 m c)⟩)
    (run_all m ρ)

end Cert.Kernel.Whole

end
-- ==== Proof.KernelIdeal.MmRuns.lean ====
/-
  The blocked matrix product's kernel body, run once per position of the point in the contracted axis.

  The grid is (1, 4, 4): for each of the four column blocks of the product, four steps along the contracted axis. The
  body keeps a running sum in a scratch buffer: at the first step of a sweep it stores the zero block there, at every
  step it adds the product of the current row block and column block to what the scratch holds, and at the last step it
  copies the scratch into the result's staging buffer. So there are three cases, told apart by the two conditions on
  the grid point below; in each the body is run symbolically on whole buffers, and what it stores is recorded as the
  list of pieces the run finds (latest first).
-/
import proofs.«102462_j11759620457095_1_alg».proof.Proof.Gen.KernelIdeal.Launch
import proofs.«102462_j11759620457095_1_alg».proof.Proof.Gen.KernelIdeal.Skeleton
import proofs.«102462_j11759620457095_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Mm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first of a sweep along the contracted axis: the body resets the running sum. -/
abbrev isFirst (i : grid0.Coords) : Prop := (Scalar.cmpi .ne (Scalar.extui (Scalar.cmpi .eq (BitVec.ofNat 32 (i 2).val) 0#32)) 0#32) = 1#1
/-- The point is the last of a sweep: the body copies the running sum out. -/
abbrev isLast (i : grid0.Coords) : Prop := k0_cond2 i = 1#1

/-- A sweep starts at the points that are multiples of four, -/
theorem isFirst_iff : ∀ t : Fin cfg0.N, isFirst (grid0.coords t) ↔ t.val % 4 = 0 :=
  (by decide +kernel : ∀ t : Fin grid0.N, isFirst (grid0.coords t) ↔ t.val % 4 = 0)
/-- and ends three points later. -/
theorem isLast_iff : ∀ t : Fin cfg0.N, isLast (grid0.coords t) ↔ t.val % 4 = 3 :=
  (by decide +kernel : ∀ t : Fin grid0.N, isLast (grid0.coords t) ↔ t.val % 4 = 3)

set_option maxHeartbeats 1000000 in
/-- First step of a sweep: whatever the scratch held, the body stores the zero block, then the zero block plus the
    product of the two input blocks; the result's buffer is handed back as it was found. -/
noncomputable def runFirst (c : Dev nD) (i : grid0.Coords) (arg3 : Memref sig .tc .vmem S256x512 .bf16) (harg3 : arg3.IsWhole) (arg4 : Memref sig .tc .vmem S512x512 .bf16) (harg4 : arg4.IsWhole) (arg5 : Memref sig .tc .vmem S256x512 .f32) (harg5 : arg5.IsWhole) (arg6 : Memref sig .tc .vmem S256x512 .f32) (harg6 : arg6.IsWhole)
    (hc0 : isFirst i) (hc1 : ¬isLast i) (x0 : Vec F S256x512 .bf16) (x1 : Vec F S512x512 .bf16) :
    { LS : List (View.Piece (Elt F) S256x512 .f32) //
      ∀ (xo : Vec F S256x512 .f32) (E : Set ℕ) (K : PUnit → sProp 𝕄),
        iprop(owns (c : Thread nD τ) arg3 fullShare x0 ∗ owns (c : Thread nD τ) arg4 fullShare x1 ∗ owns (c : Thread nD τ) arg5 fullShare xo ∗ (∃ d, owns (c : Thread nD τ) arg6 fullShare d)
            ∗ (iprop(owns (c : Thread nD τ) arg3 fullShare x0 ∗ owns (c : Thread nD τ) arg4 fullShare x1 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc0__matmul_kernel i arg3 harg3 arg4 harg4 arg5 harg5 arg6 harg6) K } := by
  refine ⟨?_, fun xo E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 1000000 in
/-- A step inside a sweep: the body adds the product of the two input blocks to what the scratch holds; the result's
    buffer is handed back as it was found. -/
noncomputable def runMid (c : Dev nD) (i : grid0.Coords) (arg3 : Memref sig .tc .vmem S256x512 .bf16) (harg3 : arg3.IsWhole) (arg4 : Memref sig .tc .vmem S512x512 .bf16) (harg4 : arg4.IsWhole) (arg5 : Memref sig .tc .vmem S256x512 .f32) (harg5 : arg5.IsWhole) (arg6 : Memref sig .tc .vmem S256x512 .f32) (harg6 : arg6.IsWhole)
    (hc0 : ¬isFirst i) (hc1 : ¬isLast i) (x0 : Vec F S256x512 .bf16) (x1 : Vec F S512x512 .bf16) (xs : Vec F S256x512 .f32) :
    { LS : List (View.Piece (Elt F) S256x512 .f32) //
      ∀ (xo : Vec F S256x512 .f32) (E : Set ℕ) (K : PUnit → sProp 𝕄),
        iprop(owns (c : Thread nD τ) arg3 fullShare x0 ∗ owns (c : Thread nD τ) arg4 fullShare x1 ∗ owns (c : Thread nD τ) arg5 fullShare xo ∗ owns (c : Thread nD τ) arg6 fullShare xs
            ∗ (iprop(owns (c : Thread nD τ) arg3 fullShare x0 ∗ owns (c : Thread nD τ) arg4 fullShare x1 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc0__matmul_kernel i arg3 harg3 arg4 harg4 arg5 harg5 arg6 harg6) K } := by
  refine ⟨?_, fun xo E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 1000000 in
/-- Last step of a sweep: the body adds the last product to the scratch and copies the scratch into the result's
    buffer, whatever that held. The first list is what it stores into the result's buffer, the second into the scratch. -/
noncomputable def runLast (c : Dev nD) (i : grid0.Coords) (arg3 : Memref sig .tc .vmem S256x512 .bf16) (harg3 : arg3.IsWhole) (arg4 : Memref sig .tc .vmem S512x512 .bf16) (harg4 : arg4.IsWhole) (arg5 : Memref sig .tc .vmem S256x512 .f32) (harg5 : arg5.IsWhole) (arg6 : Memref sig .tc .vmem S256x512 .f32) (harg6 : arg6.IsWhole)
    (hc0 : ¬isFirst i) (hc1 : isLast i) (x0 : Vec F S256x512 .bf16) (x1 : Vec F S512x512 .bf16) (xs : Vec F S256x512 .f32) :
    Σ' (LO : List (View.Piece (Elt F) S256x512 .f32)), { LS : List (View.Piece (Elt F) S256x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc0__matmul_kernel i arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS

end Cert.KernelIdeal.Mm

end
-- ==== Proof.KernelIdeal.MmData.lean ====
/-
  The blocked matrix product's proof data: the running sum in the scratch after each grid point, what each window's
  staging buffer holds, and the body's obligation at every point.
-/
import proofs.«102462_j11759620457095_1_alg».proof.Proof.Gen.KernelIdeal.Launch
import proofs.«102462_j11759620457095_1_alg».proof.Proof.Gen.KernelIdeal.Skeleton
import proofs.«102462_j11759620457095_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«102462_j11759620457095_1_alg».proof.Proof.KernelIdeal.MmRuns
import Idealize.ShloMosaic.Lib.Pipeline.Value
set_option maxRecDepth 16384

noncomputable section

namespace Cert.KernelIdeal.Mm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-! ## What each case stores, read back -/

/-- The first step's two stores into the scratch cover it. -/
theorem cover_first (c : Dev nD) (i : grid0.Coords) (arg3 : Memref sig .tc .vmem S256x512 .bf16) (harg3 : arg3.IsWhole) (arg4 : Memref sig .tc .vmem S512x512 .bf16) (harg4 : arg4.IsWhole) (arg5 : Memref sig .tc .vmem S256x512 .f32) (harg5 : arg5.IsWhole) (arg6 : Memref sig .tc .vmem S256x512 .f32) (harg6 : arg6.IsWhole) (hc0 : isFirst i) (hc1 : ¬isLast i) (x0 : Vec F S256x512 .bf16) (x1 : Vec F S512x512 .bf16) (y : S256x512.Idx) :
    ∃ pc ∈ (runFirst c i arg3 harg3 arg4 harg4 arg5 harg5 arg6 harg6 hc0 hc1 x0 x1).1, y ∈ pc.1.set :=
  View.cover_of_tiledL (runFirst c i arg3 harg3 arg4 harg4 arg5 harg5 arg6 harg6 hc0 hc1 x0 x1).1 S256x512.size (by sl_kernel_rfl) y

/-- An inner step's one store into the scratch covers it. -/
theorem cover_mid (c : Dev nD) (i : grid0.Coords) (arg3 : Memref sig .tc .vmem S256x512 .bf16) (harg3 : arg3.IsWhole) (arg4 : Memref sig .tc .vmem S512x512 .bf16) (harg4 : arg4.IsWhole) (arg5 : Memref sig .tc .vmem S256x512 .f32) (harg5 : arg5.IsWhole) (arg6 : Memref sig .tc .vmem S256x512 .f32) (harg6 : arg6.IsWhole) (hc0 : ¬isFirst i) (hc1 : ¬isLast i) (x0 : Vec F S256x512 .bf16) (x1 : Vec F S512x512 .bf16) (xs : Vec F S256x512 .f32) (y : S256x512.Idx) :
    ∃ pc ∈ (runMid c i arg3 harg3 arg4 harg4 arg5 harg5 arg6 harg6 hc0 hc1 x0 x1 xs).1, y ∈ pc.1.set :=
  View.cover_of_tiledL (runMid c i arg3 harg3 arg4 harg4 arg5 harg5 arg6 harg6 hc0 hc1 x0 x1 xs).1 S256x512.size (by sl_kernel_rfl) y

/-- The last step's store into the scratch covers it, -/
theorem cover_last_s (c : Dev nD) (i : grid0.Coords) (arg3 : Memref sig .tc .vmem S256x512 .bf16) (harg3 : arg3.IsWhole) (arg4 : Memref sig .tc .vmem S512x512 .bf16) (harg4 : arg4.IsWhole) (arg5 : Memref sig .tc .vmem S256x512 .f32) (harg5 : arg5.IsWhole) (arg6 : Memref sig .tc .vmem S256x512 .f32) (harg6 : arg6.IsWhole) (hc0 : ¬isFirst i) (hc1 : isLast i) (x0 : Vec F S256x512 .bf16) (x1 : Vec F S512x512 .bf16) (xs : Vec F S256x512 .f32) (y : S256x512.Idx) :
    ∃ pc ∈ (runLast c i arg3 harg3 arg4 harg4 arg5 harg5 arg6 harg6 hc0 hc1 x0 x1 xs).2.1, y ∈ pc.1.set :=
  View.cover_of_tiledL (runLast c i arg3 harg3 arg4 harg4 arg5 harg5 arg6 harg6 hc0 hc1 x0 x1 xs).2.1 S256x512.size (by sl_kernel_rfl) y

/-- and so does its store into the result's buffer. -/
theorem cover_last_o (c : Dev nD) (i : grid0.Coords) (arg3 : Memref sig .tc .vmem S256x512 .bf16) (harg3 : arg3.IsWhole) (arg4 : Memref sig .tc .vmem S512x512 .bf16) (harg4 : arg4.IsWhole) (arg5 : Memref sig .tc .vmem S256x512 .f32) (harg5 : arg5.IsWhole) (arg6 : Memref sig .tc .vmem S256x512 .f32) (harg6 : arg6.IsWhole) (hc0 : ¬isFirst i) (hc1 : isLast i) (x0 : Vec F S256x512 .bf16) (x1 : Vec F S512x512 .bf16) (xs : Vec F S256x512 .f32) (y : S256x512.Idx) :
    ∃ pc ∈ (runLast c i arg3 harg3 arg4 harg4 arg5 harg5 arg6 harg6 hc0 hc1 x0 x1 xs).1, y ∈ pc.1.set :=
  View.cover_of_tiledL (runLast c i arg3 harg3 arg4 harg4 arg5 harg5 arg6 harg6 hc0 hc1 x0 x1 xs).1 S256x512.size (by sl_kernel_rfl) y

/-- The first step leaves in the scratch the zero block plus the product of the two input blocks. -/
theorem first_val (c : Dev nD) (i : grid0.Coords) (arg3 : Memref sig .tc .vmem S256x512 .bf16) (harg3 : arg3.IsWhole) (arg4 : Memref sig .tc .vmem S512x512 .bf16) (harg4 : arg4.IsWhole) (arg5 : Memref sig .tc .vmem S256x512 .f32) (harg5 : arg5.IsWhole) (arg6 : Memref sig .tc .vmem S256x512 .f32) (harg6 : arg6.IsWhole) (hc0 : isFirst i) (hc1 : ¬isLast i) (x0 : Vec F S256x512 .bf16) (x1 : Vec F S512x512 .bf16) :
    View.canon (runFirst c i arg3 harg3 arg4 harg4 arg5 harg5 arg6 harg6 hc0 hc1 x0 x1).1 = k0_pay2 (k0_pay1 (F := F)) x0 x1 := by
  unfold runFirst
  dsimp only
  sl_unfold_words
  rw [View.canon_cons_unit_zero (S := S256x512) hz2, View.readCov_unit_zero (S := S256x512) _ hz2]
  simp only [View.readAt_eq_ld, harg3.read_unread, harg4.read_unread, View.ld_unit_zero (S := S256x512) hz2, View.ld_unit_zero (S := S512x512) hz2]

/-- An inner step leaves in the scratch what it held plus the product of the two input blocks. -/
theorem mid_val (c : Dev nD) (i : grid0.Coords) (arg3 : Memref sig .tc .vmem S256x512 .bf16) (harg3 : arg3.IsWhole) (arg4 : Memref sig .tc .vmem S512x512 .bf16) (harg4 : arg4.IsWhole) (arg5 : Memref sig .tc .vmem S256x512 .f32) (harg5 : arg5.IsWhole) (arg6 : Memref sig .tc .vmem S256x512 .f32) (harg6 : arg6.IsWhole) (hc0 : ¬isFirst i) (hc1 : ¬isLast i) (x0 : Vec F S256x512 .bf16) (x1 : Vec F S512x512 .bf16) (xs : Vec F S256x512 .f32) :
    View.canon (runMid c i arg3 harg3 arg4 harg4 arg5 harg5 arg6 harg6 hc0 hc1 x0 x1 xs).1 = k0_pay2 xs x0 x1 := by
  unfold runMid
  dsimp only
  sl_unfold_words
  rw [View.canon_unit_zero (S := S256x512) hz2]
  simp only [View.readAt_eq_ld, harg3.read_unread, harg4.read_unread, harg6.read_unread, View.ld_unit_zero (S := S256x512) hz2, View.ld_unit_zero (S := S512x512) hz2]

/-- The last step leaves the same sum in the scratch, -/
theorem last_val_s (c : Dev nD) (i : grid0.Coords) (arg3 : Memref sig .tc .vmem S256x512 .bf16) (harg3 : arg3.IsWhole) (arg4 : Memref sig .tc .vmem S512x512 .bf16) (harg4 : arg4.IsWhole) (arg5 : Memref sig .tc .vmem S256x512 .f32) (harg5 : arg5.IsWhole) (arg6 : Memref sig .tc .vmem S256x512 .f32) (harg6 : arg6.IsWhole) (hc0 : ¬isFirst i) (hc1 : isLast i) (x0 : Vec F S256x512 .bf16) (x1 : Vec F S512x512 .bf16) (xs : Vec F S256x512 .f32) :
    View.canon (runLast c i arg3 harg3 arg4 harg4 arg5 harg5 arg6 harg6 hc0 hc1 x0 x1 xs).2.1 = k0_pay2 xs x0 x1 := by
  unfold runLast
  dsimp only
  sl_unfold_words
  rw [View.canon_unit_zero (S := S256x512) hz2]
  simp only [View.readAt_eq_ld, harg3.read_unread, harg4.read_unread, harg6.read_unread, View.ld_unit_zero (S := S256x512) hz2, View.ld_unit_zero (S := S512x512) hz2]

/-- and copies it into the result's buffer. -/
theorem last_val_o (c : Dev nD) (i : grid0.Coords) (arg3 : Memref sig .tc .vmem S256x512 .bf16) (harg3 : arg3.IsWhole) (arg4 : Memref sig .tc .vmem S512x512 .bf16) (harg4 : arg4.IsWhole) (arg5 : Memref sig .tc .vmem S256x512 .f32) (harg5 : arg5.IsWhole) (arg6 : Memref sig .tc .vmem S256x512 .f32) (harg6 : arg6.IsWhole) (hc0 : ¬isFirst i) (hc1 : isLast i) (x0 : Vec F S256x512 .bf16) (x1 : Vec F S512x512 .bf16) (xs : Vec F S256x512 .f32) :
    View.canon (runLast c i arg3 harg3 arg4 harg4 arg5 harg5 arg6 harg6 hc0 hc1 x0 x1 xs).1 = k0_pay2 xs x0 x1 := by
  unfold runLast
  dsimp only
  sl_unfold_words
  rw [View.canon_unit_zero (S := S256x512) hz2, View.readCov_unit_zero (S := S256x512) _ hz2]
  simp only [View.readAt_eq_ld, harg3.read_unread, harg4.read_unread, harg6.read_unread, View.ld_unit_zero (S := S256x512) hz2, View.ld_unit_zero (S := S512x512) hz2]

/-! ## The windows' blocks -/

section Data

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its block at every point, for any proof data over these arrays whose body
    leaves the block in place. -/
theorem before_lhs_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the right operand. -/
theorem before_rhs_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The row block of the left operand at a point: rows all, columns of the current step of the contracted axis. -/
abbrev lhsBlk (c : Dev nD) (t : Fin cfg0.N) : Vec F S256x512 .bf16 := iblk V c 0 t
/-- The block of the right operand at a point: rows of the current step, columns of the current column block. -/
abbrev rhsBlk (c : Dev nD) (t : Fin cfg0.N) : Vec F S512x512 .bf16 := iblk V c 1 t

/-! ## The running sum -/

/-- What the scratch holds after point `n`: at the first step of a sweep the zero block plus that step's product, at a
    later step what the step before left plus this step's product. -/
def acc (c : Dev nD) : (n : ℕ) → n < cfg0.N → Vec F S256x512 .f32
  | 0, h => k0_pay2 (k0_pay1 (F := F)) (lhsBlk V c ⟨0, h⟩) (rhsBlk V c ⟨0, h⟩)
  | n + 1, h =>
    if (n + 1) % 4 = 0 then k0_pay2 (k0_pay1 (F := F)) (lhsBlk V c ⟨n + 1, h⟩) (rhsBlk V c ⟨n + 1, h⟩)
    else k0_pay2 (acc c n (Nat.lt_of_succ_lt h)) (lhsBlk V c ⟨n + 1, h⟩) (rhsBlk V c ⟨n + 1, h⟩)

theorem acc_first (c : Dev nD) (t : Fin cfg0.N) (h0 : t.val % 4 = 0) :
    acc V c t.val t.isLt = k0_pay2 (k0_pay1 (F := F)) (lhsBlk V c t) (rhsBlk V c t) := by
  obtain ⟨n, hn⟩ := t
  cases n with
  | zero => rfl
  | succ n => exact if_pos h0

theorem acc_next (c : Dev nD) (t : Fin cfg0.N) (h0 : ¬t.val % 4 = 0) :
    acc V c t.val t.isLt = k0_pay2 (acc V c (t.val - 1) (Nat.lt_of_le_of_lt (Nat.sub_le _ _) t.isLt)) (lhsBlk V c t) (rhsBlk V c t) := by
  obtain ⟨n, hn⟩ := t
  cases n with
  | zero => exact absurd (Nat.zero_mod _) h0
  | succ n => exact if_neg h0

/-! ## The invariant between points -/

/-- The scratch the running sum lives in. -/
abbrev scM : Memref sig .tc .vmem S256x512 .f32 := Memref.whole cc0_scratch0

/-- The core's other scoped buffers that no window of this call stages: the second call's staging buffers and scratch,
    each whole at some contents. The body never touches them. -/
abbrev others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The invariant the region starts from, with the scratch named: the scratch at anything, the other scoped buffers,
    the generator register at some state. -/
theorem PhiA_eq (c : Dev nD) :
    (Pipeline.ΦA spec0 c : sProp 𝕄)
      = iprop(iprop((∃ d, owns (c : Thread nD τ) scM fullShare d) ∗ others (F := F) c) ∗ (∃ r, prngReg c r)) := by
  unfold Pipeline.ΦA; rw [scopedRest0_eq]; simp only [scM, owns_whole]; try rfl

/-- The invariant before position `n`: before the first point the scratch holds anything; afterwards the running sum
    the point before left. -/
def PhiS (c : Dev nD) : (n : ℕ) → n ≤ cfg0.N → sProp 𝕄
  | 0, _ => Pipeline.ΦA spec0 c
  | n + 1, hn => iprop(iprop(owns (c : Thread nD τ) scM fullShare (acc V c n hn) ∗ others (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (acc V c n hn) ∗ others (F := F) c) ∗ (∃ r, prngReg c r)) := rfl

theorem PhiS_pos (c : Dev nD) (n : ℕ) (h : n ≤ cfg0.N) (hz : n ≠ 0) :
    PhiS V c n h = iprop(iprop(owns (c : Thread nD τ) scM fullShare (acc V c (n - 1) (by omega)) ∗ others (F := F) c) ∗ (∃ r, prngReg c r)) := by
  cases n with
  | zero => exact absurd rfl hz
  | succ n => rfl

/-! ## The proof data -/

/-- The proof data of the matrix product's pipeline on core `c`: the arrays as the region finds them; after the body
    each operand's buffer at its block and the result's at the running sum; the invariant above; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => acc V c t.val t.isLt
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_lhs (c : Dev nD) (t : Fin cfg0.N) : (dat V c).after 0 t = iblk V c 0 t := by dsimp only [dat]
theorem after_rhs (c : Dev nD) (t : Fin cfg0.N) : (dat V c).after 1 t = iblk V c 1 t := by dsimp only [dat]
theorem after_out (c : Dev nD) (t : Fin cfg0.N) : (dat V c).after 2 t = acc V c t.val t.isLt := by dsimp only [dat]

theorem before_lhs (c : Dev nD) (t : Fin cfg0.N) (d) : (dat V c).before 0 t d = iblk V c 0 t :=
  before_lhs_of V (dat V c) (A_eq V c 0) (after_lhs V c) t d
theorem before_rhs (c : Dev nD) (t : Fin cfg0.N) (d) : (dat V c).before 1 t d = iblk V c 1 t :=
  before_rhs_of V (dat V c) (A_eq V c 1) (after_rhs V c) t d

/-! ## Where the result's window is idle -/

theorem live_lhs : ∀ t : Fin cfg0.N, cfg0.idle 0 (grid0.coords t) = false := by decide +kernel
theorem live_rhs : ∀ t : Fin cfg0.N, cfg0.idle 1 (grid0.coords t) = false := by decide +kernel
/-- Away from the last step of a sweep the body stores nothing into the result's buffer, -/
theorem idle_out : ∀ t : Fin cfg0.N, ¬isLast (grid0.coords t) → cfg0.idle 2 (grid0.coords t) = true := by decide +kernel
/-- and the pipeline does not write it back there. -/
theorem noFlush_out : ∀ t : Fin cfg0.N, ¬isLast (grid0.coords t) → (cfg0.win 2).flush t = false := by decide +kernel
/-- At the last step it does store into it. -/
theorem live_out : ∀ t : Fin cfg0.N, isLast (grid0.coords t) → cfg0.idle 2 (grid0.coords t) = false := by decide +kernel

/-! ## The body obligation -/

/-- Each window's current staging memref at point `t`, as the pipeline passes it, and its wholeness. -/
abbrev ms0 (t : Fin cfg0.N) : Memref sig .tc .vmem S256x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x512 .f32 := win0_2.stage (cfg0.slots t 2)
abbrev hs2 (t : Fin cfg0.N) : (ms2 t).IsWhole := hstage0_2 ((cfg0.slots t 2).cast nbuf0_2)

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The operands' buffers hold their blocks; the position of the point in its sweep says which
    case the body is in; the invariant hands it the scratch at the running sum so far (at anything before the first
    point and at the start of a sweep, where it is overwritten) and takes it back at the new running sum; the result's
    buffer goes back untouched except at the last step of a sweep, which fills it with the running sum. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_lhs, before_rhs]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live_lhs t], after_lhs]
  rw [show (dat V c).leavesExact 1 t = owns (c : Thread nD τ) (ms1 t) fullShare ((dat V c).after 1 t) from by
    unfold Dat.leavesExact; rw [live_rhs t], after_rhs]
  have hN : t.val < 16 := lt_of_lt_of_eq t.isLt (show cfg0.N = 16 from N_0)
  by_cases h0 : t.val % 4 = 0
  · have hc0 : isFirst (grid0.coords t) := (isFirst_iff t).mpr h0
    have hc1 : ¬isLast (grid0.coords t) := fun h => by have := (isLast_iff t).mp h; omega
    rw [Dat.leavesExact_idle (dat V c) 2 t (idle_out t hc1) (noFlush_out t hc1)]
    rw [acc_first V c t h0]
    by_cases hz : t.val = 0
    · rw [PhiS_castSucc V c t, PhiS_zero V c _ _ hz, PhiA_eq]
      iintro ⟨⟨⟨HS, Hoth⟩, Hg⟩, Ho, ⟨%d0, H0⟩, ⟨%d1, H1⟩, ⟨%d2, H2⟩⟩
      iapply ((runFirst c (grid0.coords t) _ (hs0 t) _ (hs1 t) _ (hs2 t) scM (Memref.isWhole_whole _) hc0 hc1 (lhsBlk V c t) (rhsBlk V c t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact (View.read_writes_eq_canon _ _ _ (cover_first c _ _ _ _ _ _ _ _ _ hc0 hc1 _ _)).trans (first_val c _ _ _ _ _ _ _ _ _ hc0 hc1 _ _)
          iexact Hoth
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS, Hoth⟩, Hg⟩, Ho, ⟨%d0, H0⟩, ⟨%d1, H1⟩, ⟨%d2, H2⟩⟩
      iapply ((runFirst c (grid0.coords t) _ (hs0 t) _ (hs1 t) _ (hs2 t) scM (Memref.isWhole_whole _) hc0 hc1 (lhsBlk V c t) (rhsBlk V c t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hoth Hg]
      · isplitl [HS Hoth]
        · isplitl [HS]
          · unfold owns; iexists _; isplitr
            swap; · iexact HS
            ipureintro; exact (View.read_writes_eq_canon _ _ _ (cover_first c _ _ _ _ _ _ _ _ _ hc0 hc1 _ _)).trans (first_val c _ _ _ _ _ _ _ _ _ hc0 hc1 _ _)
          iexact Hoth
        iexact Hg
      isplitl [Ho]; · iexact Ho
      isplitl [H0]; · iexact H0
      isplitl [H1]; · iexact H1
      iexists _; iexact H2
  · have hc0 : ¬isFirst (grid0.coords t) := fun h => h0 ((isFirst_iff t).mp h)
    have hz : t.val ≠ 0 := fun h => h0 (by rw [h])
    rw [acc_next V c t h0]
    rw [PhiS_castSucc V c t, PhiS_pos V c _ _ hz]
    by_cases h1 : t.val % 4 = 3
    · have hc1 : isLast (grid0.coords t) := (isLast_iff t).mpr h1
      rw [show (dat V c).leavesExact 2 t = owns (c : Thread nD τ) (ms2 t) fullShare ((dat V c).after 2 t) from by
        unfold Dat.leavesExact; rw [live_out t hc1], after_out]
      rw [acc_next V c t h0]
      iintro ⟨⟨⟨HS, Hoth⟩, Hg⟩, Ho, ⟨%d0, H0⟩, ⟨%d1, H1⟩, ⟨%d2, H2⟩⟩
      iapply ((runLast c (grid0.coords t) _ (hs0 t) _ (hs1 t) _ (hs2 t) scM (Memref.isWhole_whole _) hc0 hc1 (lhsBlk V c t) (rhsBlk V c t) _).2.2 Set.univ _)
      isplitl [H0]; · iexact H0
      isplitl [H1]; · iexact H1
      isplitl [H2]; · iexists _; iexact H2
      isplitl [HS]; · iexact HS
      iintro ⟨H0, H1, ⟨%eo, H2⟩, ⟨%es, HS⟩⟩
      isplitl [HS Hoth Hg]
      · isplitl [HS Hoth]
        · isplitl [HS]
          · unfold owns; iexists _; isplitr
            swap; · iexact HS
            ipureintro; exact (View.read_writes_eq_canon _ _ _ (cover_last_s c _ _ _ _ _ _ _ _ _ hc0 hc1 _ _ _)).trans (last_val_s c _ _ _ _ _ _ _ _ _ hc0 hc1 _ _ _)
          iexact Hoth
        iexact Hg
      isplitl [Ho]; · iexact Ho
      isplitl [H0]; · iexact H0
      isplitl [H1]; · iexact H1
      unfold owns; iexists _; isplitr
      swap; · iexact H2
      ipureintro; exact (View.read_writes_eq_canon _ _ _ (cover_last_o c _ _ _ _ _ _ _ _ _ hc0 hc1 _ _ _)).trans (last_val_o c _ _ _ _ _ _ _ _ _ hc0 hc1 _ _ _)
    · have hc1 : ¬isLast (grid0.coords t) := fun h => h1 ((isLast_iff t).mp h)
      rw [Dat.leavesExact_idle (dat V c) 2 t (idle_out t hc1) (noFlush_out t hc1)]
      iintro ⟨⟨⟨HS, Hoth⟩, Hg⟩, Ho, ⟨%d0, H0⟩, ⟨%d1, H1⟩, ⟨%d2, H2⟩⟩
      iapply ((runMid c (grid0.coords t) _ (hs0 t) _ (hs1 t) _ (hs2 t) scM (Memref.isWhole_whole _) hc0 hc1 (lhsBlk V c t) (rhsBlk V c t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact (View.read_writes_eq_canon _ _ _ (cover_mid c _ _ _ _ _ _ _ _ _ hc0 hc1 _ _ _)).trans (mid_val c _ _ _ _ _ _ _ _ _ hc0 hc1 _ _ _)
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the region is entered with is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the same back: what the scratch holds is forgotten. -/
theorem hout (c : Dev nD) : (dat V c).Φ (Fin.last cfg0.N) ⊢ Pipeline.ΦA spec0 c := by
  have hne : (Fin.last cfg0.N).val ≠ 0 := by rw [Fin.val_last]; have : cfg0.N = 16 := N_0; omega
  rw [show (dat V c).Φ (Fin.last cfg0.N) = PhiS V c (Fin.last cfg0.N).val (Nat.le_of_lt_succ (Fin.last cfg0.N).isLt) from rfl,
    PhiS_pos V c _ _ hne, PhiA_eq]
  iintro ⟨⟨HS, Hoth⟩, Hg⟩
  isplitl [HS Hoth]
  · isplitl [HS]
    · iexists _; iexact HS
    iexact Hoth
  iexact Hg

end Data

end Cert.KernelIdeal.Mm

end
-- ==== Proof.KernelIdeal.Between.lean ====
/-
  The contents of the core's unscoped buffers between the items of @main, up to the second region's entry: the launch
  contents, then what the three host operations before the first region write (the table flattened to a matrix, and
  both operands in the narrower float format), then the first region's result array at what its pipeline leaves, then
  the reshape of that result into rows.
-/
import proofs.«102462_j11759620457095_1_alg».proof.Proof.Gen.KernelIdeal.Launch
import proofs.«102462_j11759620457095_1_alg».proof.Proof.Gen.KernelIdeal.Skeleton
import proofs.«102462_j11759620457095_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«102462_j11759620457095_1_alg».proof.Proof.Gen.KernelIdeal.Regions
import proofs.«102462_j11759620457095_1_alg».proof.Proof.KernelIdeal.MmData
import Idealize.ShloMosaic.Lib.Pipeline.Value
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between items -/

/-- Core `c`'s buffers at launch. -/
abbrev W0 : Dev nD → Valuation τ sig (Elt F) := fun c b => m (c, b)
/-- After the three host operations before the first region: the flattened table and the two operands in the
    narrower float format. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first region: its arrays at what the pipeline leaves, every other buffer as entered. -/
def W2 (c : Dev nD) : Valuation τ sig (Elt F) :=
  Pipeline.withArrays spec0 c (W1 m c) fun w => (Mm.dat (V1 m) c).arrAt w cfg0.N
theorem W2_arr (c : Dev nD) (w : Fin cfg0.W) :
    W2 m c (Proc.devRef .tc (Pipeline.arrRef spec0 w)) = (Mm.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Mm.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the reshape of the product into rows. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

end Cert.KernelIdeal.Whole

end
-- ==== Proof.KernelIdeal.PdRuns.lean ====
/-
  The summed exponential of negative L1 distances: the kernel body, run once per position of the point in its sweep.

  The grid is (8, 4): for each of the eight row blocks of the result, four steps across the blocks of the other
  operand. At a step the body holds a block x of 32 rows and a block y of 64 rows (each row a 64 × 32 table) and forms,
  for every row a of x and every column k, the sum over the rows b of y of exp (−Σ_d |x[a,k,d] − y[b,k,d]|). It keeps a
  running sum of these in a scratch buffer: at the first step of a sweep it stores the zero block there, at every step
  it adds the step's term to what the scratch holds, and at the last step it copies the scratch into the result's
  staging buffer. So there are three cases, told apart by the two conditions on the grid point below; in each the body
  is run symbolically on whole buffers, and what it stores is recorded as the list of pieces the run finds (latest
  first).
-/
import proofs.«102462_j11759620457095_1_alg».proof.Proof.Gen.KernelIdeal.Launch
import proofs.«102462_j11759620457095_1_alg».proof.Proof.Gen.KernelIdeal.Skeleton
import proofs.«102462_j11759620457095_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first of a sweep across the other operand's blocks: the body resets the running sum. -/
abbrev isFirst (i : grid1.Coords) : Prop := (Scalar.cmpi .ne (Scalar.extui (Scalar.cmpi .eq (BitVec.ofNat 32 (i 1).val) 0#32)) 0#32) = 1#1
/-- The point is the last of a sweep: the body copies the running sum out. -/
abbrev isLast (i : grid1.Coords) : Prop := k1_cond2 i = 1#1

/-- A sweep starts at the points that are multiples of four, -/
theorem isFirst_iff : ∀ t : Fin cfg1.N, isFirst (grid1.coords t) ↔ t.val % 4 = 0 :=
  (by decide +kernel : ∀ t : Fin grid1.N, isFirst (grid1.coords t) ↔ t.val % 4 = 0)
/-- and ends three points later. -/
theorem isLast_iff : ∀ t : Fin cfg1.N, isLast (grid1.coords t) ↔ t.val % 4 = 3 :=
  (by decide +kernel : ∀ t : Fin grid1.N, isLast (grid1.coords t) ↔ t.val % 4 = 3)

set_option maxHeartbeats 1000000 in
/-- First step of a sweep: whatever the scratch held, the body stores the zero block, then the step's term added to the
    zero block; the result's buffer is handed back as it was found. -/
noncomputable def runFirst (c : Dev nD) (i : grid1.Coords) (arg2 : Memref sig .tc .vmem S32x64x32 .f32) (harg2 : arg2.IsWhole) (arg3 : Memref sig .tc .vmem S64x64x32 .f32) (harg3 : arg3.IsWhole) (arg4 : Memref sig .tc .vmem S32x64 .f32) (harg4 : arg4.IsWhole) (arg5 : Memref sig .tc .vmem S32x64 .f32) (harg5 : arg5.IsWhole)
    (hc0 : isFirst i) (hc1 : ¬isLast i) (x0 : Vec F S32x64x32 .f32) (x1 : Vec F S64x64x32 .f32) :
    { LS : List (View.Piece (Elt F) S32x64 .f32) //
      ∀ (xo : Vec F S32x64 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc1__l1_exp_sum_kernel i arg2 harg2 arg3 harg3 arg4 harg4 arg5 harg5) K } := by
  refine ⟨?_, fun xo E K => ?run⟩
  case run =>
    simp only [cc1__l1_exp_sum_kernel_eq_skeleton]; unfold cc1__l1_exp_sum_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- A step inside a sweep: the body adds the step's term to what the scratch holds; the result's buffer is handed back
    as it was found. -/
noncomputable def runMid (c : Dev nD) (i : grid1.Coords) (arg2 : Memref sig .tc .vmem S32x64x32 .f32) (harg2 : arg2.IsWhole) (arg3 : Memref sig .tc .vmem S64x64x32 .f32) (harg3 : arg3.IsWhole) (arg4 : Memref sig .tc .vmem S32x64 .f32) (harg4 : arg4.IsWhole) (arg5 : Memref sig .tc .vmem S32x64 .f32) (harg5 : arg5.IsWhole)
    (hc0 : ¬isFirst i) (hc1 : ¬isLast i) (x0 : Vec F S32x64x32 .f32) (x1 : Vec F S64x64x32 .f32) (xs : Vec F S32x64 .f32) :
    { LS : List (View.Piece (Elt F) S32x64 .f32) //
      ∀ (xo : Vec F S32x64 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc1__l1_exp_sum_kernel i arg2 harg2 arg3 harg3 arg4 harg4 arg5 harg5) K } := by
  refine ⟨?_, fun xo E K => ?run⟩
  case run =>
    simp only [cc1__l1_exp_sum_kernel_eq_skeleton]; unfold cc1__l1_exp_sum_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- Last step of a sweep: the body adds the last term to the scratch and copies the scratch into the result's buffer,
    whatever that held. The first list is what it stores into the result's buffer, the second into the scratch. -/
noncomputable def runLast (c : Dev nD) (i : grid1.Coords) (arg2 : Memref sig .tc .vmem S32x64x32 .f32) (harg2 : arg2.IsWhole) (arg3 : Memref sig .tc .vmem S64x64x32 .f32) (harg3 : arg3.IsWhole) (arg4 : Memref sig .tc .vmem S32x64 .f32) (harg4 : arg4.IsWhole) (arg5 : Memref sig .tc .vmem S32x64 .f32) (harg5 : arg5.IsWhole)
    (hc0 : ¬isFirst i) (hc1 : isLast i) (x0 : Vec F S32x64x32 .f32) (x1 : Vec F S64x64x32 .f32) (xs : Vec F S32x64 .f32) :
    Σ' (LO : List (View.Piece (Elt F) S32x64 .f32)), { LS : List (View.Piece (Elt F) S32x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc1__l1_exp_sum_kernel i arg2 harg2 arg3 harg3 arg4 harg4 arg5 harg5) K } := by
  refine ⟨?_, ?_, fun E K => ?run⟩
  case run =>
    simp only [cc1__l1_exp_sum_kernel_eq_skeleton]; unfold cc1__l1_exp_sum_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS

end Cert.KernelIdeal.Pd

end
-- ==== Proof.KernelIdeal.PdData.lean ====
/-
  The summed exponential of negative L1 distances: the proof data. The running sum in the scratch after each grid
  point, what each window's staging buffer holds, and the body's obligation at every point.

  With x the block of 32 rows and y the block of 64 rows at a point, the step's term is, for every row a of x and
  every column k, the sum over the rows b of y of exp (−Σ_d |x[a,k,d] − y[b,k,d]|). After a point the scratch holds the
  sum of the terms of the sweep so far; after the last point of a sweep the result's staging buffer holds the same.
-/
import proofs.«102462_j11759620457095_1_alg».proof.Proof.Gen.KernelIdeal.Launch
import proofs.«102462_j11759620457095_1_alg».proof.Proof.Gen.KernelIdeal.Skeleton
import proofs.«102462_j11759620457095_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«102462_j11759620457095_1_alg».proof.Proof.KernelIdeal.PdRuns
import Idealize.ShloMosaic.Lib.Pipeline.Value
set_option maxRecDepth 16384

noncomputable section

namespace Cert.KernelIdeal.Pd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case stores, read back -/

/-- The first step's two stores into the scratch cover it. -/
theorem cover_first (c : Dev nD) (i : grid1.Coords) (arg2 : Memref sig .tc .vmem S32x64x32 .f32) (harg2 : arg2.IsWhole) (arg3 : Memref sig .tc .vmem S64x64x32 .f32) (harg3 : arg3.IsWhole) (arg4 : Memref sig .tc .vmem S32x64 .f32) (harg4 : arg4.IsWhole) (arg5 : Memref sig .tc .vmem S32x64 .f32) (harg5 : arg5.IsWhole) (hc0 : isFirst i) (hc1 : ¬isLast i) (x0 : Vec F S32x64x32 .f32) (x1 : Vec F S64x64x32 .f32) (y : S32x64.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S32x64.size (by sl_kernel_rfl) y

/-- An inner step's one store into the scratch covers it. -/
theorem cover_mid (c : Dev nD) (i : grid1.Coords) (arg2 : Memref sig .tc .vmem S32x64x32 .f32) (harg2 : arg2.IsWhole) (arg3 : Memref sig .tc .vmem S64x64x32 .f32) (harg3 : arg3.IsWhole) (arg4 : Memref sig .tc .vmem S32x64 .f32) (harg4 : arg4.IsWhole) (arg5 : Memref sig .tc .vmem S32x64 .f32) (harg5 : arg5.IsWhole) (hc0 : ¬isFirst i) (hc1 : ¬isLast i) (x0 : Vec F S32x64x32 .f32) (x1 : Vec F S64x64x32 .f32) (xs : Vec F S32x64 .f32) (y : S32x64.Idx) :
    ∃ pc ∈ (runMid c i arg2 harg2 arg3 harg3 arg4 harg4 arg5 harg5 hc0 hc1 x0 x1 xs).1, y ∈ pc.1.set :=
  View.cover_of_tiledL (runMid c i arg2 harg2 arg3 harg3 arg4 harg4 arg5 harg5 hc0 hc1 x0 x1 xs).1 S32x64.size (by sl_kernel_rfl) y

/-- The last step's store into the scratch covers it, -/
theorem cover_last_s (c : Dev nD) (i : grid1.Coords) (arg2 : Memref sig .tc .vmem S32x64x32 .f32) (harg2 : arg2.IsWhole) (arg3 : Memref sig .tc .vmem S64x64x32 .f32) (harg3 : arg3.IsWhole) (arg4 : Memref sig .tc .vmem S32x64 .f32) (harg4 : arg4.IsWhole) (arg5 : Memref sig .tc .vmem S32x64 .f32) (harg5 : arg5.IsWhole) (hc0 : ¬isFirst i) (hc1 : isLast i) (x0 : Vec F S32x64x32 .f32) (x1 : Vec F S64x64x32 .f32) (xs : Vec F S32x64 .f32) (y : S32x64.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S32x64.size (by sl_kernel_rfl) y

/-- and so does its store into the result's buffer. -/
theorem cover_last_o (c : Dev nD) (i : grid1.Coords) (arg2 : Memref sig .tc .vmem S32x64x32 .f32) (harg2 : arg2.IsWhole) (arg3 : Memref sig .tc .vmem S64x64x32 .f32) (harg3 : arg3.IsWhole) (arg4 : Memref sig .tc .vmem S32x64 .f32) (harg4 : arg4.IsWhole) (arg5 : Memref sig .tc .vmem S32x64 .f32) (harg5 : arg5.IsWhole) (hc0 : ¬isFirst i) (hc1 : isLast i) (x0 : Vec F S32x64x32 .f32) (x1 : Vec F S64x64x32 .f32) (xs : Vec F S32x64 .f32) (y : S32x64.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S32x64.size (by sl_kernel_rfl) y

/-- The first step leaves in the scratch the step's term added to the zero block. -/
theorem first_val (c : Dev nD) (i : grid1.Coords) (arg2 : Memref sig .tc .vmem S32x64x32 .f32) (harg2 : arg2.IsWhole) (arg3 : Memref sig .tc .vmem S64x64x32 .f32) (harg3 : arg3.IsWhole) (arg4 : Memref sig .tc .vmem S32x64 .f32) (harg4 : arg4.IsWhole) (arg5 : Memref sig .tc .vmem S32x64 .f32) (harg5 : arg5.IsWhole) (hc0 : isFirst i) (hc1 : ¬isLast i) (x0 : Vec F S32x64x32 .f32) (x1 : Vec F S64x64x32 .f32) :
    View.canon (runFirst c i arg2 harg2 arg3 harg3 arg4 harg4 arg5 harg5 hc0 hc1 x0 x1).1 = k1_pay2 x0 x1 (k1_pay1 (F := F)) := by
  unfold runFirst
  dsimp only
  sl_unfold_words
  rw [View.canon_cons_unit_zero (S := S32x64) hz2, View.readCov_unit_zero (S := S32x64) _ hz2]
  simp only [View.readAt_eq_ld, harg2.read_unread, harg3.read_unread, View.ld_unit_zero (S := S32x64x32) hz3, View.ld_unit_zero (S := S64x64x32) hz3]

/-- An inner step leaves in the scratch the step's term added to what it held. -/
theorem mid_val (c : Dev nD) (i : grid1.Coords) (arg2 : Memref sig .tc .vmem S32x64x32 .f32) (harg2 : arg2.IsWhole) (arg3 : Memref sig .tc .vmem S64x64x32 .f32) (harg3 : arg3.IsWhole) (arg4 : Memref sig .tc .vmem S32x64 .f32) (harg4 : arg4.IsWhole) (arg5 : Memref sig .tc .vmem S32x64 .f32) (harg5 : arg5.IsWhole) (hc0 : ¬isFirst i) (hc1 : ¬isLast i) (x0 : Vec F S32x64x32 .f32) (x1 : Vec F S64x64x32 .f32) (xs : Vec F S32x64 .f32) :
    View.canon (runMid c i arg2 harg2 arg3 harg3 arg4 harg4 arg5 harg5 hc0 hc1 x0 x1 xs).1 = k1_pay2 x0 x1 xs := by
  unfold runMid
  dsimp only
  sl_unfold_words
  rw [View.canon_unit_zero (S := S32x64) hz2]
  simp only [View.readAt_eq_ld, harg2.read_unread, harg3.read_unread, harg5.read_unread, View.ld_unit_zero (S := S32x64) hz2, View.ld_unit_zero (S := S32x64x32) hz3, View.ld_unit_zero (S := S64x64x32) hz3]

/-- The last step leaves the same sum in the scratch, -/
theorem last_val_s (c : Dev nD) (i : grid1.Coords) (arg2 : Memref sig .tc .vmem S32x64x32 .f32) (harg2 : arg2.IsWhole) (arg3 : Memref sig .tc .vmem S64x64x32 .f32) (harg3 : arg3.IsWhole) (arg4 : Memref sig .tc .vmem S32x64 .f32) (harg4 : arg4.IsWhole) (arg5 : Memref sig .tc .vmem S32x64 .f32) (harg5 : arg5.IsWhole) (hc0 : ¬isFirst i) (hc1 : isLast i) (x0 : Vec F S32x64x32 .f32) (x1 : Vec F S64x64x32 .f32) (xs : Vec F S32x64 .f32) :
    View.canon (runLast c i arg2 harg2 arg3 harg3 arg4 harg4 arg5 harg5 hc0 hc1 x0 x1 xs).2.1 = k1_pay2 x0 x1 xs := by
  unfold runLast
  dsimp only
  sl_unfold_words
  rw [View.canon_unit_zero (S := S32x64) hz2]
  simp only [View.readAt_eq_ld, harg2.read_unread, harg3.read_unread, harg5.read_unread, View.ld_unit_zero (S := S32x64) hz2, View.ld_unit_zero (S := S32x64x32) hz3, View.ld_unit_zero (S := S64x64x32) hz3]

/-- and copies it into the result's buffer. -/
theorem last_val_o (c : Dev nD) (i : grid1.Coords) (arg2 : Memref sig .tc .vmem S32x64x32 .f32) (harg2 : arg2.IsWhole) (arg3 : Memref sig .tc .vmem S64x64x32 .f32) (harg3 : arg3.IsWhole) (arg4 : Memref sig .tc .vmem S32x64 .f32) (harg4 : arg4.IsWhole) (arg5 : Memref sig .tc .vmem S32x64 .f32) (harg5 : arg5.IsWhole) (hc0 : ¬isFirst i) (hc1 : isLast i) (x0 : Vec F S32x64x32 .f32) (x1 : Vec F S64x64x32 .f32) (xs : Vec F S32x64 .f32) :
    View.canon (runLast c i arg2 harg2 arg3 harg3 arg4 harg4 arg5 harg5 hc0 hc1 x0 x1 xs).1 = k1_pay2 x0 x1 xs := by
  unfold runLast
  dsimp only
  sl_unfold_words
  rw [View.canon_unit_zero (S := S32x64) hz2, View.readCov_unit_zero (S := S32x64) _ hz2]
  simp only [View.readAt_eq_ld, harg2.read_unread, harg3.read_unread, harg5.read_unread, View.ld_unit_zero (S := S32x64) hz2, View.ld_unit_zero (S := S32x64x32) hz3, View.ld_unit_zero (S := S64x64x32) hz3]

/-! ## The windows' blocks -/

section Data

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block's staging buffer holds its block at every point of a sweep, though it is fetched only at the sweep's
    first point: in between the block's index does not move. For any proof data over these arrays whose body leaves
    the block in place. -/
theorem before_rows_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the other operand's block, fetched at every point. -/
theorem before_oth_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The block of 32 rows at a point: the rows of the current row block of the result. -/
abbrev rowsBlk (c : Dev nD) (t : Fin cfg1.N) : Vec F S32x64x32 .f32 := iblk V c 0 t
/-- The block of 64 rows of the same array at a point: the rows of the current step of the sweep. -/
abbrev othBlk (c : Dev nD) (t : Fin cfg1.N) : Vec F S64x64x32 .f32 := iblk V c 1 t

/-! ## The running sum -/

/-- What the scratch holds after point `n`: at the first step of a sweep that step's term added to the zero block, at
    a later step this step's term added to what the step before left. -/
def acc (c : Dev nD) : (n : ℕ) → n < cfg1.N → Vec F S32x64 .f32
  | 0, h => k1_pay2 (rowsBlk V c ⟨0, h⟩) (othBlk V c ⟨0, h⟩) (k1_pay1 (F := F))
  | n + 1, h =>
    if (n + 1) % 4 = 0 then k1_pay2 (rowsBlk V c ⟨n + 1, h⟩) (othBlk V c ⟨n + 1, h⟩) (k1_pay1 (F := F))
    else k1_pay2 (rowsBlk V c ⟨n + 1, h⟩) (othBlk V c ⟨n + 1, h⟩) (acc c n (Nat.lt_of_succ_lt h))

theorem acc_first (c : Dev nD) (t : Fin cfg1.N) (h0 : t.val % 4 = 0) :
    acc V c t.val t.isLt = k1_pay2 (rowsBlk V c t) (othBlk V c t) (k1_pay1 (F := F)) := by
  obtain ⟨n, hn⟩ := t
  cases n with
  | zero => rfl
  | succ n => exact if_pos h0

theorem acc_next (c : Dev nD) (t : Fin cfg1.N) (h0 : ¬t.val % 4 = 0) :
    acc V c t.val t.isLt = k1_pay2 (rowsBlk V c t) (othBlk V c t) (acc V c (t.val - 1) (Nat.lt_of_le_of_lt (Nat.sub_le _ _) t.isLt)) := by
  obtain ⟨n, hn⟩ := t
  cases n with
  | zero => exact absurd (Nat.zero_mod _) h0
  | succ n => exact if_neg h0

/-! ## The invariant between points -/

/-- The scratch the running sum lives in. -/
abbrev scM : Memref sig .tc .vmem S32x64 .f32 := Memref.whole cc1_scratch0

/-- The core's scoped buffers that no window of this call stages, in the order the region lists them: the first
    call's staging buffers and scratch, each whole at some contents and never touched by the body, and last this
    call's scratch, of which `P` says what it holds. -/
abbrev scopedBufs (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ P)

/-- The invariant the region starts from, with the scratch named: the other scoped buffers, the scratch at anything,
    the generator register at some state. -/
theorem PhiA_eq (c : Dev nD) :
    (Pipeline.ΦA spec1 c : sProp 𝕄)
      = iprop(scopedBufs (F := F) c (iprop(∃ d, owns (c : Thread nD τ) scM fullShare d)) ∗ (∃ r, prngReg c r)) := by
  unfold Pipeline.ΦA; rw [scopedRest1_eq]; simp only [scM, owns_whole]; try rfl

/-- The invariant before position `n`: before the first point the scratch holds anything; afterwards the running sum
    the point before left. -/
def PhiS (c : Dev nD) : (n : ℕ) → n ≤ cfg1.N → sProp 𝕄
  | 0, _ => Pipeline.ΦA spec1 c
  | n + 1, hn => iprop(scopedBufs (F := F) c (owns (c : Thread nD τ) scM fullShare (acc V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(scopedBufs (F := F) c (owns (c : Thread nD τ) scM fullShare (acc V c n hn)) ∗ (∃ r, prngReg c r)) := rfl

theorem PhiS_pos (c : Dev nD) (n : ℕ) (h : n ≤ cfg1.N) (hz : n ≠ 0) :
    PhiS V c n h = iprop(scopedBufs (F := F) c (owns (c : Thread nD τ) scM fullShare (acc V c (n - 1) (by omega))) ∗ (∃ r, prngReg c r)) := by
  cases n with
  | zero => exact absurd rfl hz
  | succ n => rfl

/-! ## The proof data -/

/-- The proof data of this call's pipeline on core `c`: the arrays as the region finds them; after the body each
    operand's buffer at its block and the result's at the running sum; the invariant above; nothing owed. The two
    operand windows stage one and the same array, so each holds half of it; the result's array is held whole. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => acc V c t.val t.isLt
  Φ t := PhiS V c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_rows (c : Dev nD) (t : Fin cfg1.N) : (dat V c).after 0 t = iblk V c 0 t := by dsimp only [dat]
theorem after_oth (c : Dev nD) (t : Fin cfg1.N) : (dat V c).after 1 t = iblk V c 1 t := by dsimp only [dat]
theorem after_out (c : Dev nD) (t : Fin cfg1.N) : (dat V c).after 2 t = acc V c t.val t.isLt := by dsimp only [dat]

theorem before_rows (c : Dev nD) (t : Fin cfg1.N) (d) : (dat V c).before 0 t d = iblk V c 0 t :=
  before_rows_of V (dat V c) (A_eq V c 0) (after_rows V c) t d
theorem before_oth (c : Dev nD) (t : Fin cfg1.N) (d) : (dat V c).before 1 t d = iblk V c 1 t :=
  before_oth_of V (dat V c) (A_eq V c 1) (after_oth V c) t d

/-! ## Where the result's window is idle -/

theorem live_rows : ∀ t : Fin cfg1.N, cfg1.idle 0 (grid1.coords t) = false := by decide +kernel
theorem live_oth : ∀ t : Fin cfg1.N, cfg1.idle 1 (grid1.coords t) = false := by decide +kernel
/-- Away from the last step of a sweep the body stores nothing into the result's buffer, -/
theorem idle_out : ∀ t : Fin cfg1.N, ¬isLast (grid1.coords t) → cfg1.idle 2 (grid1.coords t) = true := by decide +kernel
/-- and the pipeline does not write it back there. -/
theorem noFlush_out : ∀ t : Fin cfg1.N, ¬isLast (grid1.coords t) → (cfg1.win 2).flush t = false := by decide +kernel
/-- At the last step it does store into it. -/
theorem live_out : ∀ t : Fin cfg1.N, isLast (grid1.coords t) → cfg1.idle 2 (grid1.coords t) = false := by decide +kernel

/-! ## The body obligation -/

/-- Each window's current staging memref at point `t`, as the pipeline passes it, and its wholeness. -/
abbrev ms0 (t : Fin cfg1.N) : Memref sig .tc .vmem S32x64x32 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S64x64x32 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S32x64 .f32 := win1_2.stage (cfg1.slots t 2)
abbrev hs2 (t : Fin cfg1.N) : (ms2 t).IsWhole := hstage1_2 ((cfg1.slots t 2).cast nbuf1_2)

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The operands' buffers hold their blocks; the position of the point in its sweep says which
    case the body is in; the invariant hands it the scratch at the running sum so far (at anything before the first
    point and at the start of a sweep, where it is overwritten) and takes it back at the new running sum; the other
    scoped buffers pass through untouched; the result's buffer goes back untouched except at the last step of a sweep,
    which fills it with the running sum. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_rows, before_oth]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live_rows t], after_rows]
  rw [show (dat V c).leavesExact 1 t = owns (c : Thread nD τ) (ms1 t) fullShare ((dat V c).after 1 t) from by
    unfold Dat.leavesExact; rw [live_oth t], after_oth]
  have hN : t.val < 32 := lt_of_lt_of_eq t.isLt (show cfg1.N = 32 from N_1)
  by_cases h0 : t.val % 4 = 0
  · have hc0 : isFirst (grid1.coords t) := (isFirst_iff t).mpr h0
    have hc1 : ¬isLast (grid1.coords t) := fun h => by have := (isLast_iff t).mp h; omega
    rw [Dat.leavesExact_idle (dat V c) 2 t (idle_out t hc1) (noFlush_out t hc1)]
    rw [acc_first V c t h0]
    by_cases hz : t.val = 0
    · rw [PhiS_castSucc V c t, PhiS_zero V c _ _ hz, PhiA_eq]
      unfold scopedBufs
      iintro ⟨⟨⟨B1, B2, B3, B4, B5, B6, B7, HS⟩, Hg⟩, Ho, ⟨%d0, H0⟩, ⟨%d1, H1⟩, ⟨%d2, H2⟩⟩
      iapply ((runFirst c (grid1.coords t) _ (hs0 t) _ (hs1 t) _ (hs2 t) scM (Memref.isWhole_whole _) hc0 hc1 (rowsBlk V c t) (othBlk V c t)).2 _ Set.univ _)
      isplitl [H0]; · iexact H0
      isplitl [H1]; · iexact H1
      isplitl [H2]; · iexact H2
      isplitl [HS]; · iexact HS
      iintro ⟨H0, H1, H2, ⟨%es, HS⟩⟩
      isplitl [B1 B2 B3 B4 B5 B6 B7 HS Hg]
      · isplitl [B1 B2 B3 B4 B5 B6 B7 HS]
        · isplitl [B1]; · iexact B1
          isplitl [B2]; · iexact B2
          isplitl [B3]; · iexact B3
          isplitl [B4]; · iexact B4
          isplitl [B5]; · iexact B5
          isplitl [B6]; · iexact B6
          isplitl [B7]; · iexact B7
          unfold owns; iexists _; isplitr
          swap; · iexact HS
          ipureintro; exact (View.read_writes_eq_canon _ _ _ (cover_first c _ _ _ _ _ _ _ _ _ hc0 hc1 _ _)).trans (first_val c _ _ _ _ _ _ _ _ _ hc0 hc1 _ _)
        iexact Hg
      isplitl [Ho]; · iexact Ho
      isplitl [H0]; · iexact H0
      isplitl [H1]; · iexact H1
      iexists _; iexact H2
    · rw [PhiS_castSucc V c t, PhiS_pos V c _ _ hz]
      unfold scopedBufs
      iintro ⟨⟨⟨B1, B2, B3, B4, B5, B6, B7, HS⟩, Hg⟩, Ho, ⟨%d0, H0⟩, ⟨%d1, H1⟩, ⟨%d2, H2⟩⟩
      iapply ((runFirst c (grid1.coords t) _ (hs0 t) _ (hs1 t) _ (hs2 t) scM (Memref.isWhole_whole _) hc0 hc1 (rowsBlk V c t) (othBlk V c t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [B1 B2 B3 B4 B5 B6 B7 HS Hg]
      · isplitl [B1 B2 B3 B4 B5 B6 B7 HS]
        · isplitl [B1]; · iexact B1
          isplitl [B2]; · iexact B2
          isplitl [B3]; · iexact B3
          isplitl [B4]; · iexact B4
          isplitl [B5]; · iexact B5
          isplitl [B6]; · iexact B6
          isplitl [B7]; · iexact B7
          unfold owns; iexists _; isplitr
          swap; · iexact HS
          ipureintro; exact (View.read_writes_eq_canon _ _ _ (cover_first c _ _ _ _ _ _ _ _ _ hc0 hc1 _ _)).trans (first_val c _ _ _ _ _ _ _ _ _ hc0 hc1 _ _)
        iexact Hg
      isplitl [Ho]; · iexact Ho
      isplitl [H0]; · iexact H0
      isplitl [H1]; · iexact H1
      iexists _; iexact H2
  · have hc0 : ¬isFirst (grid1.coords t) := fun h => h0 ((isFirst_iff t).mp h)
    have hz : t.val ≠ 0 := fun h => h0 (by rw [h])
    rw [acc_next V c t h0]
    rw [PhiS_castSucc V c t, PhiS_pos V c _ _ hz]
    by_cases h1 : t.val % 4 = 3
    · have hc1 : isLast (grid1.coords t) := (isLast_iff t).mpr h1
      rw [show (dat V c).leavesExact 2 t = owns (c : Thread nD τ) (ms2 t) fullShare ((dat V c).after 2 t) from by
        unfold Dat.leavesExact; rw [live_out t hc1], after_out]
      rw [acc_next V c t h0]
      unfold scopedBufs
      iintro ⟨⟨⟨B1, B2, B3, B4, B5, B6, B7, HS⟩, Hg⟩, Ho, ⟨%d0, H0⟩, ⟨%d1, H1⟩, ⟨%d2, H2⟩⟩
      iapply ((runLast c (grid1.coords t) _ (hs0 t) _ (hs1 t) _ (hs2 t) scM (Memref.isWhole_whole _) hc0 hc1 (rowsBlk V c t) (othBlk V c t) _).2.2 Set.univ _)
      isplitl [H0]; · iexact H0
      isplitl [H1]; · iexact H1
      isplitl [H2]; · iexists _; iexact H2
      isplitl [HS]; · iexact HS
      iintro ⟨H0, H1, ⟨%eo, H2⟩, ⟨%es, HS⟩⟩
      isplitl [B1 B2 B3 B4 B5 B6 B7 HS Hg]
      · isplitl [B1 B2 B3 B4 B5 B6 B7 HS]
        · isplitl [B1]; · iexact B1
          isplitl [B2]; · iexact B2
          isplitl [B3]; · iexact B3
          isplitl [B4]; · iexact B4
          isplitl [B5]; · iexact B5
          isplitl [B6]; · iexact B6
          isplitl [B7]; · iexact B7
          unfold owns; iexists _; isplitr
          swap; · iexact HS
          ipureintro; exact (View.read_writes_eq_canon _ _ _ (cover_last_s c _ _ _ _ _ _ _ _ _ hc0 hc1 _ _ _)).trans (last_val_s c _ _ _ _ _ _ _ _ _ hc0 hc1 _ _ _)
        iexact Hg
      isplitl [Ho]; · iexact Ho
      isplitl [H0]; · iexact H0
      isplitl [H1]; · iexact H1
      unfold owns; iexists _; isplitr
      swap; · iexact H2
      ipureintro; exact (View.read_writes_eq_canon _ _ _ (cover_last_o c _ _ _ _ _ _ _ _ _ hc0 hc1 _ _ _)).trans (last_val_o c _ _ _ _ _ _ _ _ _ hc0 hc1 _ _ _)
    · have hc1 : ¬isLast (grid1.coords t) := fun h => h1 ((isLast_iff t).mp h)
      rw [Dat.leavesExact_idle (dat V c) 2 t (idle_out t hc1) (noFlush_out t hc1)]
      unfold scopedBufs
      iintro ⟨⟨⟨B1, B2, B3, B4, B5, B6, B7, HS⟩, Hg⟩, Ho, ⟨%d0, H0⟩, ⟨%d1, H1⟩, ⟨%d2, H2⟩⟩
      iapply ((runMid c (grid1.coords t) _ (hs0 t) _ (hs1 t) _ (hs2 t) scM (Memref.isWhole_whole _) hc0 hc1 (rowsBlk V c t) (othBlk V c t) _).2 _ Set.univ _)
      isplitl [H0]; · iexact H0
      isplitl [H1]; · iexact H1
      isplitl [H2]; · iexact H2
      isplitl [HS]; · iexact HS
      iintro ⟨H0, H1, H2, ⟨%es, HS⟩⟩
      isplitl [B1 B2 B3 B4 B5 B6 B7 HS Hg]
      · isplitl [B1 B2 B3 B4 B5 B6 B7 HS]
        · isplitl [B1]; · iexact B1
          isplitl [B2]; · iexact B2
          isplitl [B3]; · iexact B3
          isplitl [B4]; · iexact B4
          isplitl [B5]; · iexact B5
          isplitl [B6]; · iexact B6
          isplitl [B7]; · iexact B7
          unfold owns; iexists _; isplitr
          swap; · iexact HS
          ipureintro; exact (View.read_writes_eq_canon _ _ _ (cover_mid c _ _ _ _ _ _ _ _ _ hc0 hc1 _ _ _)).trans (mid_val c _ _ _ _ _ _ _ _ _ hc0 hc1 _ _ _)
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the region is entered with is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the same back: what the scratch holds is forgotten. -/
theorem hout (c : Dev nD) : (dat V c).Φ (Fin.last cfg1.N) ⊢ Pipeline.ΦA spec1 c := by
  have hne : (Fin.last cfg1.N).val ≠ 0 := by rw [Fin.val_last]; have : cfg1.N = 32 := N_1; omega
  rw [show (dat V c).Φ (Fin.last cfg1.N) = PhiS V c (Fin.last cfg1.N).val (Nat.le_of_lt_succ (Fin.last cfg1.N).isLt) from rfl,
    PhiS_pos V c _ _ hne, PhiA_eq]
  unfold scopedBufs
  iintro ⟨⟨B1, B2, B3, B4, B5, B6, B7, HS⟩, Hg⟩
  isplitl [B1 B2 B3 B4 B5 B6 B7 HS]
  · isplitl [B1]; · iexact B1
    isplitl [B2]; · iexact B2
    isplitl [B3]; · iexact B3
    isplitl [B4]; · iexact B4
    isplitl [B5]; · iexact B5
    isplitl [B6]; · iexact B6
    isplitl [B7]; · iexact B7
    iexists _; iexact HS
  iexact Hg

end Data

end Cert.KernelIdeal.Pd

end
-- ==== Proof.KernelIdeal.SharedRows.lean ====
/-
  The second call's shared input. Its two input windows read one array, so the pipeline holds that array twice, each
  time at one half of the full share, while the output window's array is held at the full share. Here: the pipeline's
  windowed arrays written out as the three points-tos, the distinct buffers behind them written out as the two whole
  points-tos, and the passage between the two — halving the shared array's share on the way in, putting the halves
  together on the way out.
-/
import proofs.«102462_j11759620457095_1_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.KernelIdeal.SharedRows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The share each window's array is held at: the two inputs at the halves, the output at the full share. -/
theorem share_0 {c : Dev nD} (dat : Dat τ (Elt F) Unit ℕ (UR sig nD τ) ℕ cfg1 c) (hq0 : dat.q 0 = fullShare.left) :
    dat.share 0 = fullShare.left := by
  unfold Dat.share; rw [if_neg (by decide), hq0]
theorem share_1 {c : Dev nD} (dat : Dat τ (Elt F) Unit ℕ (UR sig nD τ) ℕ cfg1 c) (hq1 : dat.q 1 = fullShare.right) :
    dat.share 1 = fullShare.right := by
  unfold Dat.share; rw [if_neg (by decide), hq1]
theorem share_2 {c : Dev nD} (dat : Dat τ (Elt F) Unit ℕ (UR sig nD τ) ℕ cfg1 c) :
    dat.share 2 = fullShare := by
  unfold Dat.share; rw [if_pos (by decide)]

/-- The pipeline's windowed arrays, window by window: the shared input array at its two halves, the output array whole. -/
theorem arrays_eq {c : Dev nD} (dat : Dat τ (Elt F) Unit ℕ (UR sig nD τ) ℕ cfg1 c) (hq0 : dat.q 0 = fullShare.left) (hq1 : dat.q 1 = fullShare.right)
    (G : (w : Fin cfg1.W) → Buf (Elt F) ((cfg1.win w).arr.view.loc (c : Thread nD τ))) :
    (dat.arrays G : sProp 𝕄) = iprop((((c : Thread nD τ).loc main_v4) ↦{fullShare.left} G 0) ∗ (((c : Thread nD τ).loc main_v4) ↦{fullShare.right} G 1) ∗ (((c : Thread nD τ).loc main_v5) ↦{fullShare} G 2)) := by
  unfold Dat.arrays
  rw [bigSep_W1, (arr_whole1 0).set_eq_univ, (arr_whole1 2).set_eq_univ, share_0 dat hq0, share_1 dat hq1, share_2 dat]

/-- The distinct buffers behind the windows' arrays are two: the shared input array and the output array, each whole. -/
theorem arrBufs_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v4) ↦{fullShare} V main_v4) ∗ (((c : Thread nD τ).loc main_v5) ↦{fullShare} V main_v5)) := by
  unfold Pipeline.arrBufs
  rw [show (Finset.univ.image (Pipeline.arrRef spec1) : Finset (Ref sig .tc)) = insert main_v4 {main_v5} from by decide,
    bigSep_insert (by decide), bigSep_singleton]
  rfl

/-- On the way in: the shared input array, held whole, is halved — one half for each of the two windows that read it. -/
theorem split_in {c : Dev nD} (dat : Dat τ (Elt F) Unit ℕ (UR sig nD τ) ℕ cfg1 c) (hq0 : dat.q 0 = fullShare.left) (hq1 : dat.q 1 = fullShare.right)
    (V : (b : Ref sig .tc) → Buf (Elt F) ((c : Thread nD τ).loc b))
    (G : (w : Fin cfg1.W) → Buf (Elt F) ((cfg1.win w).arr.view.loc (c : Thread nD τ)))
    (h0 : G 0 = V main_v4) (h1 : G 1 = V main_v4) (h2 : G 2 = V main_v5) :
    (Pipeline.arrBufs (Ix := Unit) (Name := ℕ) (U := UR sig nD τ) (Lvl := ℕ) spec1 c V : sProp 𝕄) ⊢ dat.arrays G := by
  rw [arrays_eq dat hq0 hq1 G, arrBufs_eq c V, h0, h1, h2]
  have halve : (((c : Thread nD τ).loc main_v4) ↦{fullShare} V main_v4 : sProp 𝕄)
      ⊢ iprop((((c : Thread nD τ).loc main_v4) ↦{fullShare.left} V main_v4) ∗ (((c : Thread nD τ).loc main_v4) ↦{fullShare.right} V main_v4)) :=
    (pointsTo_share (PosShare.mem_left_op_right fullShare)).1
  iintro ⟨H4, H5⟩
  ihave H := halve $$ H4
  icases H with ⟨Hl, Hr⟩
  isplitl [Hl]; · iexact Hl
  isplitl [Hr]; · iexact Hr
  iexact H5

/-- On the way out: the two halves of the shared input array, at one contents, are the array held whole again. -/
theorem join_out {c : Dev nD} (dat : Dat τ (Elt F) Unit ℕ (UR sig nD τ) ℕ cfg1 c) (hq0 : dat.q 0 = fullShare.left) (hq1 : dat.q 1 = fullShare.right)
    (V' : (b : Ref sig .tc) → Buf (Elt F) ((c : Thread nD τ).loc b))
    (G : (w : Fin cfg1.W) → Buf (Elt F) ((cfg1.win w).arr.view.loc (c : Thread nD τ)))
    (h0 : G 0 = V' main_v4) (h1 : G 1 = V' main_v4) (h2 : G 2 = V' main_v5) :
    (dat.arrays G : sProp 𝕄) ⊢ Pipeline.arrBufs (Ix := Unit) (Name := ℕ) (U := UR sig nD τ) (Lvl := ℕ) spec1 c V' := by
  rw [arrays_eq dat hq0 hq1 G, arrBufs_eq c V', h0, h1, h2]
  have whole : iprop((((c : Thread nD τ).loc main_v4) ↦{fullShare.left} V' main_v4) ∗ (((c : Thread nD τ).loc main_v4) ↦{fullShare.right} V' main_v4))
      ⊢ (((c : Thread nD τ).loc main_v4) ↦{fullShare} V' main_v4 : sProp 𝕄) :=
    (pointsTo_share (PosShare.mem_left_op_right fullShare)).2
  iintro ⟨Hl, Hr, H5⟩
  isplitl [Hl Hr]
  · iapply whole
    isplitl [Hl]; · iexact Hl
    iexact Hr
  iexact H5

end Cert.KernelIdeal.SharedRows

end
-- ==== Proof.KernelIdeal.Whole.lean ====
/-
  The run of @main: the host operations, the matrix product's region, the reshape, the pairwise sum's region.

  Between two items the core holds every unscoped buffer at a named valuation (the module before this one names them up
  to the second region's entry; here the last one: the second region's result array at what its pipeline leaves). Each
  region is entered from the valuation before it and left at the one after it; the second region's two input windows
  read ONE array, which they hold at two half shares. Every weakly fair execution of @main terminates with memory at
  the last valuation: the arguments are never written, and the result buffer holds what the second pipeline's proof data
  compute.
-/
import proofs.«102462_j11759620457095_1_alg».proof.Proof.Gen.KernelIdeal.Launch
import proofs.«102462_j11759620457095_1_alg».proof.Proof.Gen.KernelIdeal.Skeleton
import proofs.«102462_j11759620457095_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«102462_j11759620457095_1_alg».proof.Proof.KernelIdeal.Between
import proofs.«102462_j11759620457095_1_alg».proof.Proof.KernelIdeal.PdData
import proofs.«102462_j11759620457095_1_alg».proof.Proof.KernelIdeal.SharedRows
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the second region: its result array at what the pipeline leaves, every other buffer as entered (its two input
    windows read one array and write nothing). -/
def W4 (c : Dev nD) : Valuation τ sig (Elt F) :=
  Function.update (W3 m c) main_v5 ((Pd.dat (V3 m) c).arrAt 2 cfg1.N)
abbrev V4 : (c : Dev nD) → (b : Ref sig .tc) → Buf (Elt F) ((c : Thread nD τ).loc b) := fun c b => W4 m c b
theorem W4_out (c : Dev nD) : W4 m c (Proc.devRef .tc main_v5) = (Pd.dat (V3 m) c).arrAt 2 cfg1.N := by
  unfold W4; exact Function.update_self _ _ _
theorem W4_of_ne (c : Dev nD) (b : Ref sig .tc) (hb : b ≠ main_v5) :
    W4 m c (Proc.devRef .tc b) = W3 m c (Proc.devRef .tc b) := by
  unfold W4; exact Function.update_of_ne (StableHlo.devRef_ne_of_ne hb) _ _
theorem hrest1 (c : Dev nD) : ∀ b, b ∉ Finset.univ.image (Pipeline.arrRef spec1) → V4 m c b = V3 m c b :=
  fun b hb => W4_of_ne m c b fun e => hb (Finset.mem_image.mpr ⟨2, Finset.mem_univ _, e.symm⟩)

/-! ### The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide : main_arg0 ∉ hostOps1_W)
    _ = W1 m c (Proc.devRef .tc main_arg0) := W2_of_ne m c main_arg0 (by decide)
    _ = W0 m c (Proc.devRef .tc main_arg0) := StableHlo.after_of_writes_sub hostOps0 _ hostOps0_writes (by decide : main_arg0 ∉ hostOps0_W)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide : main_arg1 ∉ hostOps1_W)
    _ = W1 m c (Proc.devRef .tc main_arg1) := W2_of_ne m c main_arg1 (by decide)
    _ = W0 m c (Proc.devRef .tc main_arg1) := StableHlo.after_of_writes_sub hostOps0 _ hostOps0_writes (by decide : main_arg1 ∉ hostOps0_W)
    _ = m ((c : Thread nD τ).loc main_arg1) := rfl

/-! ## The proof data family and the thread state -/

/-- No pipeline has a prefetched table. -/
abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => Mm.dat (V1 m) c
  | ⟨1, _⟩ => fun c => Pd.dat (V3 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the `owes` apart: every unscoped buffer at the last valuation. -/
abbrev Tₙ (c : Dev nD) : sProp 𝕄 := iprop(StableHlo.held (c : Thread nD τ) (Pipeline.ucRefs τ sig) (W4 m c) ∗ ∃ r, prngReg c r)

/-- A core's unscoped buffers are the two buffers behind the second region's windows and the rest. -/
theorem split1 (c : Dev nD) (V : (b : Ref sig .tc) → Buf (Elt F) ((c : Thread nD τ).loc b)) :
    (unscopedBufs c V : sProp 𝕄) = iprop((Pipeline.arrBufs (Ix := Unit) (Name := ℕ) (U := UR sig nD τ) (Lvl := ℕ) spec1 c V : sProp 𝕄) ∗ Pipeline.unscopedRest spec1 c V) := by
  classical
  have hA : Finset.univ.image (Pipeline.arrRef spec1) ⊆ Finset.univ.filter fun b : Ref sig .tc => ¬ b.isScoped := by decide
  unfold unscopedBufs Pipeline.unscopedRest Pipeline.arrBufs
  rw [bigSep_sdiff_split hA]
  rfl

/-! ## The regions as segments -/

set_option backward.isDefEq.respectTransparency.types false in
/-- The matrix product's region: entered from every unscoped buffer after the first host stretch, left with its result
    array at what the pipeline leaves. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Mm.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Mm.hin (V1 m) c)
    unfold Pipeline.ΦA
    iintro ⟨Hp, -, Hr⟩
    isplitl [Hr]; · iexact Hr
    iexact Hp
  hout c := by
    refine BIBase.Entails.trans (Mm.hout (V1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pairwise sum's region: entered from every unscoped buffer after the reshape, its two input windows sharing
    the rows array at half shares, left with its result array at what the pipeline leaves. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Pd.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit : (unscopedBufs c (V3 m c) : sProp 𝕄)
        ⊢ iprop((pdats m 1 c).arrays ((pdats m 1 c).arrAt · 0) ∗ Pipeline.unscopedRest spec1 c (V3 m c)) := by
      rw [split1 c (V3 m c)]
      exact sep_mono (SharedRows.split_in (Pd.dat (V3 m) c) rfl rfl (V3 m c) _ rfl rfl rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Pd.hin (V3 m) c)
    unfold Pipeline.ΦA
    iintro ⟨Hp, -, Hr⟩
    isplitl [Hr]; · iexact Hr
    iexact Hp
  hout c := by
    refine BIBase.Entails.trans (Pd.hout (V3 m) c) ?_
    rw [Pipeline.ownSems0_none]; unfold Pipeline.ΦA
    iintro ⟨Hr, Hp⟩
    isplitl [Hp]; · iexact Hp
    isplitr; · iempintro
    iexact Hr
  hexit c := by
    have h0 : (pdats m 1 c).arrAt 0 cfg1.N = V4 m c main_v4 :=
      ((pdats m 1 c).arrAt_in 0 rfl _).trans ((Pd.A_eq (V3 m) c 0).trans (W4_of_ne m c main_v4 (by decide)).symm)
    have h1 : (pdats m 1 c).arrAt 1 cfg1.N = V4 m c main_v4 :=
      ((pdats m 1 c).arrAt_in 1 rfl _).trans ((Pd.A_eq (V3 m) c 1).trans (W4_of_ne m c main_v4 (by decide)).symm)
    have h2 : (pdats m 1 c).arrAt 2 cfg1.N = V4 m c main_v5 := (W4_out m c).symm
    have hjoin : iprop((pdats m 1 c).arrays ((pdats m 1 c).arrAt · cfg1.N) ∗ Pipeline.unscopedRest spec1 c (V3 m c))
        ⊢ (unscopedBufs c (V4 m c) : sProp 𝕄) := by
      rw [split1 c (V4 m c)]
      refine sep_mono (SharedRows.join_out (Pd.dat (V3 m) c) rfl rfl (V4 m c) _ h0 h1 h2) (Entails.of_eq ?_)
      unfold Pipeline.unscopedRest
      exact bigSep_congr fun b hb => by rw [hrest1 m c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- From any memory with zero counters every weakly fair execution of @main terminates, nothing faulting, and every
    final memory holds each unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: the two arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m c), (h c _ (mem_uc main_arg1 (by decide))).trans (W4_main_arg1 m c)⟩)
    (run_all m ρ)

/-- The result buffer ends at what the second pipeline's proof data compute, the arguments as launched. -/
theorem run_out : θ_run defs (onTc (τ := τ) (main (F := F))) ⟨m, fun _ => 0, ρ⟩ (fun r => ∀ c : Dev nD,
      r.2.mem ((c.tc : Thread nD τ).loc main_v5) = (Pd.dat (V3 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v5 (by decide))).trans (W4_out m c),
     (h c _ (mem_uc main_arg0 (by decide))).trans (W4_main_arg0 m c), (h c _ (mem_uc main_arg1 (by decide))).trans (W4_main_arg1 m c)⟩)
    (run_all m ρ)

end Cert.KernelIdeal.Whole

end
-- ==== Proof.KernelIdeal.HostValues.lean ====
/-
  At the ideal instance, what the host operations of the program put into the arrays its two regions read. The
  change of float format is the identity over the extended reals, so the first region's left operand is the first
  argument itself and its right operand is the second argument flattened from a table to a matrix; the second
  region's rows array is the first region's result array cut back into rows.
-/
import proofs.«102462_j11759620457095_1_alg».proof.Proof.KernelIdeal.Between
import Idealize.ShloMosaic.Lib.StableHlo.Run
import Idealize.ShloMosaic.Lib.Pipeline.Value
import Idealize.ShloMosaic.PureOps.Ideal
set_option maxRecDepth 16384

noncomputable section

namespace Cert.KernelIdeal.HostValues

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Whole

variable (m : (ℓ : Loc nD τ sig) → Buf (Elt Ideal) ℓ) (c : Dev nD)

/-- The first region's left operand is the first argument: narrowing the float format changes no extended real. -/
theorem lhs_eq : Whole.V1 m c main_v1 = m ((c : Thread nD τ).loc main_arg0) := by
  dsimp only [Whole.V1, Whole.W1, Whole.W0, hostOps0]
  after_results
  rfl

/-- The first region's right operand is the second argument, the table flattened to a matrix. -/
theorem rhs_eq : Whole.V1 m c main_v2
    = shapeCast S2048x2048 (m ((c : Thread nD τ).loc main_arg1)) shapeCasts_S2048x64x32_S2048x2048 := by
  dsimp only [Whole.V1, Whole.W1, Whole.W0, hostOps0]
  after_results
  rfl

/-- The second region's rows array is the first region's result array, each row cut into its blocks. -/
theorem rows_eq : Whole.V3 m c main_v4
    = shapeCast S256x64x32 ((Mm.dat (Whole.V1 m) c).arrAt 2 cfg0.N) shapeCasts_S256x2048_S256x64x32 := by
  show StableHlo.after hostOps1 (W2 m c) (Proc.devRef .tc main_v4) = _
  after_results
  rw [show W2 m c (Proc.devRef .tc main_v3) = W2 m c (Proc.devRef .tc (Pipeline.arrRef spec0 2)) from rfl, W2_arr m c 2]
  rfl

end Cert.KernelIdeal.HostValues

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.KernelIdeal.MmEntry.lean ====
/-
  The first call's two stored values, read at one entry over the extended reals.

  The body of the blocked matrix product stores one of two blocks into its running-sum scratch: the zero block, at
  the first step along the contracted grid axis, and otherwise the scratch's old block plus the product of the left
  operand's [256 × 512] block with the right operand's [512 × 512] block. At entry (p, q) the first is 0 and the
  second is the old entry plus ∑ₖ a[p, k] · b[k, q]: the product is taken into a zero accumulator, its dimension
  numbers contract the left block's second axis with the right block's first, and every shape cast in the two
  values is to the shape its operand already has.
-/
import proofs.«102462_j11759620457095_1_alg».proof.Proof.Gen.KernelIdeal.Skeleton
import proofs.«102462_j11759620457095_1_alg».proof.Proof.LibMatmulAt
import Idealize.ShloMosaic.Lib.Pipeline.Value
import Idealize.ShloMosaic.Lib.ValueIdx
import Idealize.ShloMosaic.PureOps.Ideal.Laws

noncomputable section

namespace Cert.KernelIdeal.MmEntry

open Cert.KernelIdeal Cert.KernelIdeal.Gen Idealize.ShloMosaic Idealize.ShloMosaic.ValueIdx

/-! ## Where the product's dimension numbers read their operands -/

/-- The left operand's row is the result's row. -/
theorem lhs_0 (i : S256x512.Idx) (q : Cert.KernelIdeal.dot_S256x512_S512x512_S256x512_1_0_0_1_n_n.contr.Idx) :
    (Cert.KernelIdeal.dot_S256x512_S512x512_S256x512_1_0_0_1_n_n.lhsIdx i q 0).val = (i 0).val := by
  unfold DotDims.lhsIdx
  rw [dif_neg (show ¬(0 : Fin S256x512.rank) ∈ Cert.KernelIdeal.dot_S256x512_S512x512_S256x512_1_0_0_1_n_n.lhsBatch by decide),
    dif_pos (show (0 : Fin S256x512.rank) ∈ Cert.KernelIdeal.dot_S256x512_S512x512_S256x512_1_0_0_1_n_n.lhsNonContracting by decide)]
  rfl

/-- The left operand's column is the contracted index. -/
theorem lhs_1 (i : S256x512.Idx) (q : Cert.KernelIdeal.dot_S256x512_S512x512_S256x512_1_0_0_1_n_n.contr.Idx) :
    (Cert.KernelIdeal.dot_S256x512_S512x512_S256x512_1_0_0_1_n_n.lhsIdx i q 1).val = (q ⟨0, by decide⟩).val :=
  Cert.KernelIdeal.dot_S256x512_S512x512_S256x512_1_0_0_1_n_n.lhsIdx_val_of_single rfl i q

/-- The right operand's row is the contracted index. -/
theorem rhs_0 (i : S256x512.Idx) (q : Cert.KernelIdeal.dot_S256x512_S512x512_S256x512_1_0_0_1_n_n.contr.Idx) :
    (Cert.KernelIdeal.dot_S256x512_S512x512_S256x512_1_0_0_1_n_n.rhsIdx i q 0).val = (q ⟨0, by decide⟩).val :=
  Cert.KernelIdeal.dot_S256x512_S512x512_S256x512_1_0_0_1_n_n.rhsIdx_val_of_single rfl i q

/-- The right operand's column is the result's column. -/
theorem rhs_1 (i : S256x512.Idx) (q : Cert.KernelIdeal.dot_S256x512_S512x512_S256x512_1_0_0_1_n_n.contr.Idx) :
    (Cert.KernelIdeal.dot_S256x512_S512x512_S256x512_1_0_0_1_n_n.rhsIdx i q 1).val = (i 1).val := by
  unfold DotDims.rhsIdx
  rw [dif_neg (show ¬(1 : Fin S512x512.rank) ∈ Cert.KernelIdeal.dot_S256x512_S512x512_S256x512_1_0_0_1_n_n.rhsBatch by decide),
    dif_pos (show (1 : Fin S512x512.rank) ∈ Cert.KernelIdeal.dot_S256x512_S512x512_S256x512_1_0_0_1_n_n.rhsNonContracting by decide)]
  rfl

/-! ## The two stored values at an entry -/

/-- The block stored at the first step along the contracted grid axis is zero everywhere. -/
theorem zero_at (j : S256x512.Idx) : k0_pay1 (F := Ideal) j = 0 := by
  unfold k0_pay1
  simp only [shapeCast_self]
  show Ideal.ofBits .f32 0x00000000#32 = 0
  exact Ideal.ofBits_zero_f32

/-- The block stored at every step: the old entry plus the row of the left block times the column of the right. -/
theorem step_at (xs : Vec Ideal S256x512 .f32) (a : Vec Ideal S256x512 .bf16) (b : Vec Ideal S512x512 .bf16)
    (p : Fin 256) (q : Fin 512) :
    k0_pay2 xs a b (ix2 p q) = xs (ix2 p q) + ∑ k : Fin 512, a (ix2 p k) * b (ix2 k q) := by
  unfold k0_pay2
  simp only [shapeCast_self]
  show xs (ix2 p q) + FloatOps.matmul Cert.KernelIdeal.dot_S256x512_S512x512_S256x512_1_0_0_1_n_n none a b
      (constant (F := Ideal) S256x512 .f32 0x00000000#32) (ix2 p q) = _
  rw [MatmulAt.matmul_zero_at Cert.KernelIdeal.dot_S256x512_S512x512_S256x512_1_0_0_1_n_n rfl rfl
    lhs_0 lhs_1 rhs_0 rhs_1 none a b p q]

end Cert.KernelIdeal.MmEntry

end
-- ==== Proof.LibSumBlocks.lean ====
/-
  Splitting a finite sum into four consecutive blocks of equal length.

  In any additive commutative monoid, the sum of `f 0, …, f (4 · n - 1)` equals the left-nested sum, started at
  zero, of the four block sums `∑ᵢ f i`, `∑ᵢ f (n + i)`, `∑ᵢ f (2 · n + i)`, `∑ᵢ f (3 · n + i)` with `i` running
  over `n` indices each. The same fact is stated for a function on `Fin (4 · n)`, and at the two sizes
  `2048 = 4 · 512` and `256 = 4 · 64` with the block offsets written out as numerals.
-/
import Mathlib.Algebra.BigOperators.Fin
import Mathlib.Algebra.BigOperators.Intervals

namespace Idealize.ShloMosaic.SumBlocks

/-- A sum over `4 · n` consecutive naturals is the sum of its four consecutive blocks of `n` terms, added from
    left to right starting at zero. -/
theorem sum_four_blocks {α : Type} [AddCommMonoid α] (n : ℕ) (f : ℕ → α) :
    ∑ k : Fin (4 * n), f k.val
      = (((0 + ∑ i : Fin n, f i.val) + ∑ i : Fin n, f (n + i.val)) + ∑ i : Fin n, f (2 * n + i.val))
          + ∑ i : Fin n, f (3 * n + i.val) := by
  rw [Fin.sum_univ_eq_sum_range (fun k => f k) (4 * n),
    Fin.sum_univ_eq_sum_range (fun i => f i) n,
    Fin.sum_univ_eq_sum_range (fun i => f (n + i)) n,
    Fin.sum_univ_eq_sum_range (fun i => f (2 * n + i)) n,
    Fin.sum_univ_eq_sum_range (fun i => f (3 * n + i)) n]
  have h2 : 2 * n = n + n := by omega
  have h3 : 3 * n = n + n + n := by omega
  have h4 : 4 * n = n + n + n + n := by omega
  rw [h2, h3, h4, Finset.sum_range_add, Finset.sum_range_add, Finset.sum_range_add, zero_add]

/-- The same splitting for a function defined on `Fin (4 · n)`: block `c` reads the function at `c · n + i`. -/
theorem sum_fin_four_blocks {α : Type} [AddCommMonoid α] (n : ℕ) (g : Fin (4 * n) → α) :
    ∑ k : Fin (4 * n), g k
      = (((0 + ∑ i : Fin n, g ⟨i.val, by have := i.isLt; omega⟩)
            + ∑ i : Fin n, g ⟨n + i.val, by have := i.isLt; omega⟩)
            + ∑ i : Fin n, g ⟨2 * n + i.val, by have := i.isLt; omega⟩)
          + ∑ i : Fin n, g ⟨3 * n + i.val, by have := i.isLt; omega⟩ := by
  have key := sum_four_blocks n (fun k => if h : k < 4 * n then g ⟨k, h⟩ else 0)
  refine Eq.trans (Finset.sum_congr rfl fun k _ => ?_) (key.trans ?_)
  · exact (dif_pos (c := k.val < 4 * n) (t := fun h => g ⟨k.val, h⟩) (e := fun _ => 0) k.isLt).symm
  refine congrArg₂ (· + ·) (congrArg₂ (· + ·) (congrArg₂ (· + ·) (congrArg₂ (· + ·) rfl ?_) ?_) ?_) ?_
  all_goals exact Finset.sum_congr rfl fun i _ => dif_pos (by have := i.isLt; omega)

/-- A sum over 2048 indices as the sum of its four blocks of 512. -/
theorem sum_2048 {α : Type} [AddCommMonoid α] (g : Fin 2048 → α) :
    ∑ k : Fin 2048, g k
      = (((0 + ∑ i : Fin 512, g ⟨i.val, by have := i.isLt; omega⟩)
            + ∑ i : Fin 512, g ⟨512 + i.val, by have := i.isLt; omega⟩)
            + ∑ i : Fin 512, g ⟨1024 + i.val, by have := i.isLt; omega⟩)
          + ∑ i : Fin 512, g ⟨1536 + i.val, by have := i.isLt; omega⟩ :=
  sum_fin_four_blocks 512 g

/-- A sum over 256 indices as the sum of its four blocks of 64. -/
theorem sum_256 {α : Type} [AddCommMonoid α] (g : Fin 256 → α) :
    ∑ k : Fin 256, g k
      = (((0 + ∑ i : Fin 64, g ⟨i.val, by have := i.isLt; omega⟩)
            + ∑ i : Fin 64, g ⟨64 + i.val, by have := i.isLt; omega⟩)
            + ∑ i : Fin 64, g ⟨128 + i.val, by have := i.isLt; omega⟩)
          + ∑ i : Fin 64, g ⟨192 + i.val, by have := i.isLt; omega⟩ :=
  sum_fin_four_blocks 64 g

end Idealize.ShloMosaic.SumBlocks
-- ==== Proof.KernelIdeal.MmValue.lean ====
/-
  The value of the blocked matrix product at the ideal instance.

  The result array [256 × 2048] is tiled by four column blocks of 512. For each column block the grid makes four
  steps along the contracted axis; step k adds to a running sum the product of the left operand's columns
  512·k … 512·k + 511 with the right operand's rows of the same range, restricted to the column block. After the
  fourth step the running sum at entry (p, q) is (((0 + B₀) + B₁) + B₂) + B₃, where Bₖ is the partial sum over
  the k-th range of 512 contracted indices; over the extended reals this is the full sum over all 2048 contracted
  indices. That block is then written back into its place in the result, and the four column blocks cover it.
-/
import proofs.«102462_j11759620457095_1_alg».proof.Proof.KernelIdeal.MmData
import proofs.«102462_j11759620457095_1_alg».proof.Proof.KernelIdeal.MmEntry
import proofs.«102462_j11759620457095_1_alg».proof.Proof.LibSumBlocks
import Idealize.ShloMosaic.Lib.Pipeline.Value
import Idealize.ShloMosaic.Lib.ValueIdx
set_option maxRecDepth 16384

noncomputable section

namespace Cert.KernelIdeal.MmValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! ## Where each window's block sits -/

/-- The block indices of the three windows at every grid point: the left operand moves along its columns with the
    step of the contracted axis, the right operand along its rows with that step and along its columns with the
    column block, and the result along its columns with the column block. -/
theorem idx_facts : ∀ t : Fin cfg0.N, win0_0.index t 0 = 0 ∧ win0_0.index t 1 = t.val % 4
    ∧ win0_1.index t 0 = t.val % 4 ∧ win0_1.index t 1 = t.val / 4
    ∧ win0_2.index t 0 = 0 ∧ win0_2.index t 1 = t.val / 4 :=
  (by decide +kernel : ∀ t : Fin grid0.N, _)

/-- The left operand as the region finds it. -/
abbrev lhsArr (c : Dev nD) : Vec Ideal S256x2048 .bf16 := V c main_v1
/-- The right operand as the region finds it. -/
abbrev rhsArr (c : Dev nD) : Vec Ideal S2048x2048 .bf16 := V c main_v2

/-- Entry (p, kk) of the left operand's block at a point is entry (p, 512·(step) + kk) of the left operand. -/
theorem lhsBlk_at (c : Dev nD) (t : Fin cfg0.N) (p : Fin 256) (kk : Fin 512) :
    Mm.lhsBlk V c t (ix2 p kk)
      = lhsArr V c (ix2 p ⟨512 * (t.val % 4) + kk.val, by have := kk.isLt; omega⟩) := by
  obtain ⟨e0, e1, -, -, -, -⟩ := idx_facts t
  unfold Mm.lhsBlk Mm.iblk
  rw [View.read_apply]
  show V c main_v1 _ = V c main_v1 _
  congr 1
  funext a
  apply Fin.ext
  match a with
  | ⟨0, _⟩ => show win0_0.index t 0 * 256 + 1 * p.val = p.val; rw [e0]; omega
  | ⟨1, _⟩ => show win0_0.index t 1 * 512 + 1 * kk.val = 512 * (t.val % 4) + kk.val; rw [e1]; omega

/-- Entry (kk, q) of the right operand's block at a point is entry (512·(step) + kk, 512·(column block) + q) of the
    right operand. -/
theorem rhsBlk_at (c : Dev nD) (t : Fin cfg0.N) (kk : Fin 512) (q : Fin 512) :
    Mm.rhsBlk V c t (ix2 kk q)
      = rhsArr V c (ix2 ⟨512 * (t.val % 4) + kk.val, by have := kk.isLt; omega⟩
          ⟨512 * (t.val / 4) + q.val, by have := q.isLt; have := t.isLt; have hN : cfg0.N = 16 := N_0; omega⟩) := by
  obtain ⟨-, -, e2, e3, -, -⟩ := idx_facts t
  unfold Mm.rhsBlk Mm.iblk
  rw [View.read_apply]
  show V c main_v2 _ = V c main_v2 _
  congr 1
  funext a
  apply Fin.ext
  match a with
  | ⟨0, _⟩ => show win0_1.index t 0 * 512 + 1 * kk.val = 512 * (t.val % 4) + kk.val; rw [e2]; omega
  | ⟨1, _⟩ => show win0_1.index t 1 * 512 + 1 * q.val = 512 * (t.val / 4) + q.val; rw [e3]; omega

/-! ## The running sum at the end of a sweep -/

/-- One term of a step's partial sum, read off the two operand arrays: at a point whose step is the one holding
    contracted index r and whose column block holds column col. -/
theorem term_at (c : Dev nD) (s : Fin cfg0.N) (p : Fin 256) (kk : Fin 512) (q : Fin 512) (r col : Fin 2048)
    (hr : r.val = 512 * (s.val % 4) + kk.val) (hc : col.val = 512 * (s.val / 4) + q.val) :
    Mm.lhsBlk V c s (ix2 p kk) * Mm.rhsBlk V c s (ix2 kk q)
      = lhsArr V c (ix2 p r) * rhsArr V c (ix2 r col) := by
  rw [lhsBlk_at, rhsBlk_at]
  have er : ∀ h, (⟨512 * (s.val % 4) + kk.val, h⟩ : Fin 2048) = r := fun h => Fin.ext hr.symm
  have ec : ∀ h, (⟨512 * (s.val / 4) + q.val, h⟩ : Fin 2048) = col := fun h => Fin.ext hc.symm
  rw [er, ec]

/-- After the fourth step of a sweep the running sum at entry (p, q) is the sum over all 2048 contracted indices of
    the left operand's row p against the right operand's column 512·(column block) + q. -/
theorem acc_last_at (c : Dev nD) (t : Fin cfg0.N) (h3 : t.val % 4 = 3) (p : Fin 256) (q : Fin 512)
    (col : Fin 2048) (hc : col.val = 512 * (t.val / 4) + q.val) :
    Mm.acc V c t.val t.isLt (ix2 p q) = ∑ k : Fin 2048, lhsArr V c (ix2 p k) * rhsArr V c (ix2 k col) := by
  have hN : cfg0.N = 16 := N_0
  have ht := t.isLt
  let t2 : Fin cfg0.N := ⟨t.val - 1, by omega⟩
  let t1 : Fin cfg0.N := ⟨t.val - 1 - 1, by omega⟩
  let t0 : Fin cfg0.N := ⟨t.val - 1 - 1 - 1, by omega⟩
  have s3 : Mm.acc V c t.val t.isLt = k0_pay2 (Mm.acc V c (t.val - 1) t2.isLt) (Mm.lhsBlk V c t) (Mm.rhsBlk V c t) :=
    Mm.acc_next V c t (by omega)
  have s2 : Mm.acc V c (t.val - 1) t2.isLt = k0_pay2 (Mm.acc V c (t.val - 1 - 1) t1.isLt) (Mm.lhsBlk V c t2) (Mm.rhsBlk V c t2) :=
    Mm.acc_next V c t2 (by show ¬(t.val - 1) % 4 = 0; omega)
  have s1 : Mm.acc V c (t.val - 1 - 1) t1.isLt = k0_pay2 (Mm.acc V c (t.val - 1 - 1 - 1) t0.isLt) (Mm.lhsBlk V c t1) (Mm.rhsBlk V c t1) :=
    Mm.acc_next V c t1 (by show ¬(t.val - 1 - 1) % 4 = 0; omega)
  have s0 : Mm.acc V c (t.val - 1 - 1 - 1) t0.isLt = k0_pay2 (k0_pay1 (F := Ideal)) (Mm.lhsBlk V c t0) (Mm.rhsBlk V c t0) :=
    Mm.acc_first V c t0 (by show (t.val - 1 - 1 - 1) % 4 = 0; omega)
  rw [s3, MmEntry.step_at, s2, MmEntry.step_at, s1, MmEntry.step_at, s0, MmEntry.step_at, MmEntry.zero_at]
  rw [SumBlocks.sum_2048 (fun k : Fin 2048 => lhsArr V c (ix2 p k) * rhsArr V c (ix2 k col))]
  refine congrArg₂ (· + ·) (congrArg₂ (· + ·) (congrArg₂ (· + ·) (congrArg₂ (· + ·) rfl ?_) ?_) ?_) ?_
  · exact Finset.sum_congr rfl fun kk _ => term_at V c t0 p kk q _ col (by show kk.val = 512 * ((t.val - 1 - 1 - 1) % 4) + kk.val; omega) (by show col.val = 512 * ((t.val - 1 - 1 - 1) / 4) + q.val; omega)
  · exact Finset.sum_congr rfl fun kk _ => term_at V c t1 p kk q _ col (by show 512 + kk.val = 512 * ((t.val - 1 - 1) % 4) + kk.val; omega) (by show col.val = 512 * ((t.val - 1 - 1) / 4) + q.val; omega)
  · exact Finset.sum_congr rfl fun kk _ => term_at V c t2 p kk q _ col (by show 1024 + kk.val = 512 * ((t.val - 1) % 4) + kk.val; omega) (by show col.val = 512 * ((t.val - 1) / 4) + q.val; omega)
  · exact Finset.sum_congr rfl fun kk _ => term_at V c t p kk q _ col (by show 1536 + kk.val = 512 * (t.val % 4) + kk.val; omega) (by omega)

/-! ## The product, and what a sweep's last point writes back -/

/-- Entry (p, q) of the product of the two operand arrays as the region finds them. -/
def prod (c : Dev nD) : S256x2048.Idx → EReal :=
  fun i => ∑ k : Fin 2048, lhsArr V c (ix2 (i 0) k) * rhsArr V c (ix2 k (i 1))

/-- The running sum after a sweep's last step, at a block entry y, is the product at the array entry i that lies
    in the same row and, within the point's column block, in the same column. -/
theorem acc_last_idx (c : Dev nD) (t : Fin cfg0.N) (h3 : t.val % 4 = 3) (y : S256x512.Idx) (i : S256x2048.Idx)
    (h0 : (i 0).val = (y 0).val) (h1 : (i 1).val = 512 * (t.val / 4) + (y 1).val) :
    Mm.acc V c t.val t.isLt y = prod V c i := by
  have hy : y = ix2 (i 0 : Fin 256) (y 1 : Fin 512) := by
    funext a
    match a with
    | ⟨0, _⟩ => exact Fin.ext h0.symm
    | ⟨1, _⟩ => rfl
  exact (congrArg (Mm.acc V c t.val t.isLt) hy).trans (acc_last_at V c t h3 (i 0) (y 1) (i 1) h1)

/-- What a sweep's last point writes back is its block of the product. -/
theorem flushed_eq (c : Dev nD) (t : Fin cfg0.N) (hf : (cfg0.win 2).flush t = true) :
    (Mm.dat V c).flushed 2 t = ((cfg0.win 2).blk t).view.read (Elt Ideal) (prod V c) := by
  have h3 : t.val % 4 = 3 := (flush0_2 t).mp hf
  obtain ⟨-, -, -, -, e4, e5⟩ := idx_facts t
  show (cfg0.win 2).cut (grid0.coords t) ((Mm.dat V c).after 2 t) = _
  rw [Mm.after_out]
  funext j
  rw [View.read_apply]
  exact acc_last_idx V c t h3 (win0_2.xinj (grid0.coords t) j) (((cfg0.win 2).blk t).view.emb j)
    (by show win0_2.index t 0 * 256 + 1 * (j 0).val = (j 0).val; rw [e4]; omega)
    (by show win0_2.index t 1 * 512 + 1 * (j 1).val = 512 * (t.val / 4) + (j 1).val; rw [e5]; omega)

/-! ## The four column blocks cover the result -/

/-- An entry of the result lies in a point's block exactly when each coordinate lies in the block's range. -/
theorem mem_blk (t : Fin cfg0.N) (i : S256x2048.Idx) :
    i ∈ ((cfg0.win 2).blk t).view.set ↔ ∀ a : Fin 2, win0_2.index t a * S256x512.size a ≤ (i a).val
      ∧ (i a).val < win0_2.index t a * S256x512.size a + S256x512.size a := by
  show i ∈ ((View.whole main_v3).slice (win0_2.rect t)).set ↔ _
  rw [View.set_slice_whole, Rect.mem_set_unit]
  exact Iff.rfl

/-- Every entry of the result lies in the block written back at the last step of its column block's sweep. -/
theorem cover (i : S256x2048.Idx) :
    ∃ t : Fin cfg0.N, (cfg0.win 2).flush t = true ∧ i ∈ ((cfg0.win 2).blk t).view.set := by
  have hi0 : (i 0).val < 256 := idx2_lt0 i
  have hi1 : (i 1).val < 2048 := idx2_lt1 i
  have hN : cfg0.N = 16 := N_0
  obtain ⟨t, ht⟩ : ∃ t : Fin cfg0.N, t.val = 4 * ((i 1).val / 512) + 3 := ⟨⟨4 * ((i 1).val / 512) + 3, by omega⟩, rfl⟩
  obtain ⟨-, -, -, -, e4, e5⟩ := idx_facts t
  refine ⟨t, (flush0_2 t).mpr (by omega), ?_⟩
  rw [mem_blk]
  intro a
  match a with
  | ⟨0, _⟩ =>
    show win0_2.index t 0 * 256 ≤ (i 0).val ∧ (i 0).val < win0_2.index t 0 * 256 + 256
    rw [e4]; omega
  | ⟨1, _⟩ =>
    show win0_2.index t 1 * 512 ≤ (i 1).val ∧ (i 1).val < win0_2.index t 1 * 512 + 512
    rw [e5, ht]; omega

/-! ## The result array -/

/-- After the pipeline has run the result array holds the product of the two operand arrays. -/
theorem final_mm (c : Dev nD) : (Mm.dat V c).arrAt 2 cfg0.N = prod V c :=
  (Mm.dat V c).arrAt_eq_of_cover 2 (prod V c) (fun t hf => flushed_eq V c t hf) cover

end Cert.KernelIdeal.MmValue

end
-- ==== Proof.KernelIdeal.PdEntry.lean ====
/-
  The second call's two stored values, read at one entry, over the extended reals.

  The first stored value is the zero block of shape [32, 64]: every entry is 0.

  The second is computed from a row block `a` of shape [32, 64, 32], another block `b` of shape [64, 64, 32] and a
  running sum `xs` of shape [32, 64]. Both blocks are spread over a common index set [32, 64, 64, 32]: the row
  block does not depend on the second coordinate, the other block does not depend on the first. Their difference is
  taken entry by entry, then its absolute value, which over the extended reals is the larger of a number and its
  negative; the last axis is summed; the sum is negated (written as zero minus it) and exponentiated; the second axis
  is summed; and the running sum is added. So entry (p, bb) is

      xs[p, bb] + Σ_{q < 64} exp(− Σ_{c < 32} |a[p, bb, c] − b[q, bb, c]|).

  Each step that moves indices about is first read at explicit coordinates; the entry formula is their composition.
-/
import proofs.«102462_j11759620457095_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PdEntry

open Cert.KernelIdeal Cert.KernelIdeal.Gen Idealize.ShloMosaic Idealize.ShloMosaic.ValueIdx
open scoped BigOperators

/-! ## Index moves read at coordinates -/

section Layout
variable {α : Type}

/-- A [32, 64, 32] array viewed as [32, 1, 64, 32] reads, at (p, u, bb, cc), the array at (p, bb, cc): the unit
    coordinate `u` is 0, so both indices sit at row-major position (p · 64 + bb) · 32 + cc. -/
theorem cast_row_at (x : S32x64x32.Idx → α) (h : S32x64x32.ShapeCasts S32x1x64x32)
    (p : Fin 32) (u : Fin 1) (bb : Fin 64) (cc : Fin 32) :
    shapeCast S32x1x64x32 x h (ix4 p u bb cc) = x (ix3 p bb cc) :=
  shapeCast_apply x h _ _ (by
    have hu : u.val = 0 := by omega
    rw [Shape.rowMajor_val_three, Shape.rowMajor_val_four]
    show (p.val * 64 + bb.val) * 32 + cc.val = ((p.val * 1 + u.val) * 64 + bb.val) * 32 + cc.val
    rw [hu]; omega)

/-- A [64, 64, 32] array viewed as [1, 64, 64, 32] reads, at (u, q, bb, cc), the array at (q, bb, cc): again the
    unit coordinate is 0 and the two row-major positions agree. -/
theorem cast_other_at (x : S64x64x32.Idx → α) (h : S64x64x32.ShapeCasts S1x64x64x32)
    (u : Fin 1) (q : Fin 64) (bb : Fin 64) (cc : Fin 32) :
    shapeCast S1x64x64x32 x h (ix4 u q bb cc) = x (ix3 q bb cc) :=
  shapeCast_apply x h _ _ (by
    have hu : u.val = 0 := by omega
    rw [Shape.rowMajor_val_three, Shape.rowMajor_val_four]
    show (q.val * 64 + bb.val) * 32 + cc.val = ((u.val * 64 + q.val) * 64 + bb.val) * 32 + cc.val
    rw [hu]; omega)

/-- A [32, 1, 64, 32] array repeated along its unit axis to [32, 64, 64, 32] reads, at (p, q, bb, cc), the array
    at (p, 0, bb, cc): the value does not depend on `q`. -/
theorem bcast_row_at (x : S32x1x64x32.Idx → α) (h : S32x1x64x32.Broadcasts S32x64x64x32)
    (p : Fin 32) (q : Fin 64) (bb : Fin 64) (cc : Fin 32) :
    broadcastTo S32x64x64x32 x h (ix4 p q bb cc) = x (ix4 p (0 : Fin 1) bb cc) := by
  refine broadcastTo_apply x h (ix4 p q bb cc) (ix4 p (0 : Fin 1) bb cc) fun ax => ?_
  match ax with
  | ⟨0, _⟩ => rfl
  | ⟨1, _⟩ => rfl
  | ⟨2, _⟩ => rfl
  | ⟨3, _⟩ => rfl

/-- A [1, 64, 64, 32] array repeated along its unit axis to [32, 64, 64, 32] reads, at (p, q, bb, cc), the array
    at (0, q, bb, cc): the value does not depend on `p`. -/
theorem bcast_other_at (x : S1x64x64x32.Idx → α) (h : S1x64x64x32.Broadcasts S32x64x64x32)
    (p : Fin 32) (q : Fin 64) (bb : Fin 64) (cc : Fin 32) :
    broadcastTo S32x64x64x32 x h (ix4 p q bb cc) = x (ix4 (0 : Fin 1) q bb cc) := by
  refine broadcastTo_apply x h (ix4 p q bb cc) (ix4 (0 : Fin 1) q bb cc) fun ax => ?_
  match ax with
  | ⟨0, _⟩ => rfl
  | ⟨1, _⟩ => rfl
  | ⟨2, _⟩ => rfl
  | ⟨3, _⟩ => rfl

end Layout

/-! ## The two sums read at coordinates -/

/-- Summing a [32, 64, 64, 32] array over its last axis gives, at (p, q, bb), the sum over `cc` of the entries
    (p, q, bb, cc): the index over (p, q, bb) with `cc` inserted last is exactly (p, q, bb, cc). -/
theorem lane_sum_at (src : FVec Ideal S32x64x64x32 .f32) (h : S32x64x64x32.Reduces [3] S32x64x64)
    (hφ : FKind.Formats .f32) (hacc : (0x00000000#32 : BitVec 32) = 0x00000000#32)
    (p : Fin 32) (q : Fin 64) (bb : Fin 64) :
    multiReduction (F := Ideal) .add [3] S32x64x64 src 0x00000000#32 h hφ hacc (ix3 p q bb)
      = ∑ cc : Fin 32, src (ix4 p q bb cc) := by
  refine (Ideal.multiReduction_add_single src 0x00000000#32 h hφ hacc (ix3 p q bb)).trans ?_
  refine Finset.sum_congr rfl fun cc _ => congrArg src ?_
  funext ax
  match ax with
  | ⟨0, _⟩ => rfl
  | ⟨1, _⟩ => rfl
  | ⟨2, _⟩ => rfl
  | ⟨3, _⟩ => rfl

/-- Summing a [32, 64, 64] array over its middle axis gives, at (p, bb), the sum over `q` of the entries
    (p, q, bb): the index over (p, bb) with `q` inserted in the middle is exactly (p, q, bb). -/
theorem other_sum_at (src : FVec Ideal S32x64x64 .f32) (h : S32x64x64.Reduces [1] S32x64)
    (hφ : FKind.Formats .f32) (hacc : (0x00000000#32 : BitVec 32) = 0x00000000#32)
    (p : Fin 32) (bb : Fin 64) :
    multiReduction (F := Ideal) .add [1] S32x64 src 0x00000000#32 h hφ hacc (ix2 p bb)
      = ∑ q : Fin 64, src (ix3 p q bb) := by
  refine (Ideal.multiReduction_add_single src 0x00000000#32 h hφ hacc (ix2 p bb)).trans ?_
  refine Finset.sum_congr rfl fun q _ => congrArg src ?_
  funext ax
  match ax with
  | ⟨0, _⟩ => rfl
  | ⟨1, _⟩ => rfl
  | ⟨2, _⟩ => rfl

/-! ## The two stored values at an entry -/

/-- The first stored value is 0 at every entry: the zero word read as an extended real is 0, and it is the same
    at every index. -/
theorem zero_at (j : S32x64.Idx) : k1_pay1 (F := Ideal) j = 0 := by
  unfold k1_pay1
  rw [shapeCast_self]
  exact Ideal.ofBits_zero_f32

/-- The difference of the two spread blocks at (p, q, bb, cc) is a[p, bb, cc] − b[q, bb, cc]: the row block is
    read through its inserted unit axis at position 1, the other block through its inserted unit axis at position 0. -/
theorem diff_at (a : Vec Ideal S32x64x32 .f32) (b : Vec Ideal S64x64x32 .f32)
    (p : Fin 32) (q : Fin 64) (bb : Fin 64) (cc : Fin 32) :
    subf (F := Ideal) (φ := .f32)
        (broadcastTo S32x64x64x32 (shapeCast S32x1x64x32 a shapeCasts_S32x64x32_S32x1x64x32)
          broadcasts_S32x1x64x32_S32x64x64x32)
        (broadcastTo S32x64x64x32 (shapeCast S1x64x64x32 b shapeCasts_S64x64x32_S1x64x64x32)
          broadcasts_S1x64x64x32_S32x64x64x32)
        (ix4 p q bb cc)
      = a (ix3 p bb cc) - b (ix3 q bb cc) :=
  congrArg₂ (· - ·)
    ((bcast_row_at _ _ p q bb cc).trans (cast_row_at a _ p 0 bb cc))
    ((bcast_other_at _ _ p q bb cc).trans (cast_other_at b _ 0 q bb cc))

/-- The second stored value at (p, bb): the running sum there plus, summed over `q`, the exponential of minus
    the sum over `cc` of |a[p, bb, cc] − b[q, bb, cc]|, the absolute value written as the larger of the difference
    and its negative. Outermost first: the addition splits off the running sum; the outer sum runs over `q`; under
    the exponential, zero minus the inner sum is its negative; the inner sum runs over `cc`; and each of its terms
    is the absolute value of the difference read above. -/
theorem step_at (a : Vec Ideal S32x64x32 .f32) (b : Vec Ideal S64x64x32 .f32) (xs : Vec Ideal S32x64 .f32)
    (p : Fin 32) (bb : Fin 64) :
    k1_pay2 a b xs (ix2 p bb)
      = xs (ix2 p bb) + ∑ q : Fin 64, Ideal.exp (-(∑ cc : Fin 32,
          max (a (ix3 p bb cc) - b (ix3 q bb cc)) (-(a (ix3 p bb cc) - b (ix3 q bb cc))))) := by
  unfold k1_pay2
  simp only [shapeCast_self]
  refine congrArg (xs (ix2 p bb) + ·) ?_
  refine (other_sum_at _ _ _ _ p bb).trans ?_
  refine Finset.sum_congr rfl fun q _ => ?_
  refine congrArg Ideal.exp ?_
  refine (congrArg₂ (· - ·) Ideal.ofBits_zero_f32 (lane_sum_at _ _ _ _ p q bb)).trans ?_
  refine (zero_sub _).trans ?_
  refine congrArg Neg.neg ?_
  refine Finset.sum_congr rfl fun cc _ => ?_
  exact congrArg (fun z : EReal => max z (-z)) (diff_at a b p q bb cc)

end Cert.KernelIdeal.PdEntry

end
-- ==== Proof.PairSpec.lean ====
/-
  The pairwise sum both programs compute from a rows array `M[n, b, c]` (256 rows, 64 groups, 32 columns), over the
  extended reals: the L1 distance between rows `p` and `j` inside group `b`, and for each row and group the sum over
  all rows `j` of `exp (- distance)`. The absolute value is written `max a (-a)`.
-/
import Idealize.ShloMosaic.PureOps.Ideal
import Idealize.ShloMosaic.Lib.ValueIdx

noncomputable section

namespace Cert.PairSpec

open Idealize.ShloMosaic Idealize.ShloMosaic.ValueIdx

/-- The L1 distance between rows `p` and `j` of `M` inside group `b`: the sum over the 32 columns of the absolute
    difference. -/
def dist (M : (⟨3, ![256, 64, 32]⟩ : Shape).Idx → EReal) (p j : Fin 256) (b : Fin 64) : EReal :=
  ∑ cc : Fin 32, max (M (ix3 p b cc) - M (ix3 j b cc)) (-(M (ix3 p b cc) - M (ix3 j b cc)))

/-- Entry `(p, b)` of the result: the sum over all 256 rows `j` of `exp (- dist p j b)` (the row itself included). -/
def pairAt (M : (⟨3, ![256, 64, 32]⟩ : Shape).Idx → EReal) (p : Fin 256) (b : Fin 64) : EReal :=
  ∑ j : Fin 256, Ideal.exp (-(dist M p j b))

/-- The result array. -/
def pairSum (M : (⟨3, ![256, 64, 32]⟩ : Shape).Idx → EReal) : (⟨2, ![256, 64]⟩ : Shape).Idx → EReal :=
  fun i => pairAt M (i 0) (i 1)

/-- The part of `pairAt` that comes from the 64 rows `64 * jb, …, 64 * jb + 63`. -/
def blockSum (M : (⟨3, ![256, 64, 32]⟩ : Shape).Idx → EReal) (p : Fin 256) (b : Fin 64) (jb : Fin 4) : EReal :=
  ∑ q : Fin 64, Ideal.exp (-(dist M p ⟨64 * jb.val + q.val, by have := jb.isLt; have := q.isLt; omega⟩ b))

end Cert.PairSpec

end
-- ==== Proof.PairBlocks.lean ====
/-
  The pairwise sum of the shared specification, read at one row `p` and one group `b`, as the left-nested sum
  (started at zero) of its four block sums: the 256 rows `j` are cut into the four consecutive blocks of 64 rows,
  block `jb` holding the rows `64 · jb, …, 64 · jb + 63`.
-/
import proofs.«102462_j11759620457095_1_alg».proof.Proof.PairSpec
import proofs.«102462_j11759620457095_1_alg».proof.Proof.LibSumBlocks

noncomputable section

namespace Cert.PairBlocks

open Idealize.ShloMosaic Idealize.ShloMosaic.ValueIdx

/-- A block sum written with its row offset `c = 64 · jb` as a numeral: the sum over the 64 rows `c + q`. -/
theorem blockSum_offset (M : (⟨3, ![256, 64, 32]⟩ : Shape).Idx → EReal) (p : Fin 256) (b : Fin 64) (jb : Fin 4)
    (c : ℕ) (hc : c = 64 * jb.val) (hb : ∀ q : Fin 64, c + q.val < 256) :
    ∑ q : Fin 64, Ideal.exp (-(Cert.PairSpec.dist M p ⟨c + q.val, hb q⟩ b)) = Cert.PairSpec.blockSum M p b jb := by
  subst hc
  rfl

/-- Entry `(p, b)` of the pairwise sum is the sum of its four block sums, added from left to right starting at
    zero. -/
theorem pairAt_four (M : (⟨3, ![256, 64, 32]⟩ : Shape).Idx → EReal) (p : Fin 256) (b : Fin 64) :
    Cert.PairSpec.pairAt M p b
      = (((0 + Cert.PairSpec.blockSum M p b 0) + Cert.PairSpec.blockSum M p b 1) + Cert.PairSpec.blockSum M p b 2)
          + Cert.PairSpec.blockSum M p b 3 := by
  -- the first block has offset zero: its rows are `q` themselves
  have h0 : ∑ q : Fin 64, Ideal.exp (-(Cert.PairSpec.dist M p ⟨q.val, by have := q.isLt; omega⟩ b))
      = Cert.PairSpec.blockSum M p b 0 :=
    Finset.sum_congr rfl fun q _ =>
      congrArg (fun j : Fin 256 => Ideal.exp (-(Cert.PairSpec.dist M p j b)))
        (Fin.ext (show q.val = 64 * 0 + q.val by omega))
  have h1 := blockSum_offset M p b 1 64 rfl (fun q => by have := q.isLt; omega)
  have h2 := blockSum_offset M p b 2 128 rfl (fun q => by have := q.isLt; omega)
  have h3 := blockSum_offset M p b 3 192 rfl (fun q => by have := q.isLt; omega)
  rw [← h0, ← h1, ← h2, ← h3]
  exact Idealize.ShloMosaic.SumBlocks.sum_256 (fun j : Fin 256 => Ideal.exp (-(Cert.PairSpec.dist M p j b)))

end Cert.PairBlocks

end
-- ==== Proof.KernelIdeal.PdValue.lean ====
/-
  The value of the second call at the ideal instance. After its pipeline has run, the result array [256, 64] holds, at
  row p and group b, the sum over all 256 rows j of exp (− Σ_c |M[p, b, c] − M[j, b, c]|), where M is the rows array
  [256, 64, 32] both operand windows read.

  The 32 grid points are t = 4 · ib + jb. The row block ib = t / 4 names 32 consecutive rows of the result; the step
  jb = t % 4 names the 64 rows they are compared with. Over one sweep jb = 0, 1, 2, 3 the running sum, started at zero,
  takes on the four block sums of the specification in order, and at jb = 3 it is written back to rows
  32 · ib, …, 32 · ib + 31 of the result. The eight sweeps' blocks tile the result.
-/
import proofs.«102462_j11759620457095_1_alg».proof.Proof.KernelIdeal.PdData
import proofs.«102462_j11759620457095_1_alg».proof.Proof.KernelIdeal.PdEntry
import proofs.«102462_j11759620457095_1_alg».proof.Proof.PairSpec
import proofs.«102462_j11759620457095_1_alg».proof.Proof.PairBlocks
import Idealize.ShloMosaic.Lib.Pipeline.Value
import Idealize.ShloMosaic.Lib.ValueIdx
set_option maxRecDepth 16384

noncomputable section

namespace Cert.KernelIdeal.PdValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The printed index maps, decided once over the grid: the row block's window and the result's window sit at block
    t / 4 on the row axis, the other operand's window at block t % 4, and every other block index is zero. -/
theorem idx_facts : ∀ t : Fin cfg1.N, win1_0.index t 0 = t.val / 4 ∧ win1_0.index t 1 = 0 ∧ win1_0.index t 2 = 0
    ∧ win1_1.index t 0 = t.val % 4 ∧ win1_1.index t 1 = 0 ∧ win1_1.index t 2 = 0
    ∧ win1_2.index t 0 = t.val / 4 ∧ win1_2.index t 1 = 0 :=
  (by decide +kernel : ∀ t : Fin grid1.N, _)

/-- The block of 32 rows at point t is rows 32 · (t / 4), … of the rows array: entry (p, bb, cc) of the block is
    entry (32 · (t / 4) + p, bb, cc) of the array. -/
theorem rowsBlk_at (c : Dev nD) (t : Fin cfg1.N) (p : Fin 32) (bb : Fin 64) (cc : Fin 32) (k : Fin 256)
    (hk : k.val = 32 * (t.val / 4) + p.val) :
    Pd.rowsBlk V c t (ix3 p bb cc) = V c main_v4 (ix3 k bb cc) := by
  obtain ⟨e0, e1, e2, -⟩ := idx_facts t
  unfold Pd.rowsBlk Pd.iblk
  rw [View.read_apply]
  show V c main_v4 _ = V c main_v4 _
  congr 1
  funext a
  apply Fin.ext
  match a with
  | ⟨0, _⟩ => show win1_0.index t 0 * 32 + 1 * p.val = k.val; rw [e0, hk]; omega
  | ⟨1, _⟩ => show win1_0.index t 1 * 64 + 1 * bb.val = bb.val; rw [e1]; omega
  | ⟨2, _⟩ => show win1_0.index t 2 * 32 + 1 * cc.val = cc.val; rw [e2]; omega

/-- The block of 64 rows at point t is rows 64 · (t % 4), … of the same array: entry (q, bb, cc) of the block is
    entry (64 · (t % 4) + q, bb, cc) of the array. -/
theorem othBlk_at (c : Dev nD) (t : Fin cfg1.N) (q : Fin 64) (bb : Fin 64) (cc : Fin 32) (k : Fin 256)
    (hk : k.val = 64 * (t.val % 4) + q.val) :
    Pd.othBlk V c t (ix3 q bb cc) = V c main_v4 (ix3 k bb cc) := by
  obtain ⟨-, -, -, e0, e1, e2, -⟩ := idx_facts t
  unfold Pd.othBlk Pd.iblk
  rw [View.read_apply]
  show V c main_v4 _ = V c main_v4 _
  congr 1
  funext a
  apply Fin.ext
  match a with
  | ⟨0, _⟩ => show win1_1.index t 0 * 64 + 1 * q.val = k.val; rw [e0, hk]; omega
  | ⟨1, _⟩ => show win1_1.index t 1 * 64 + 1 * bb.val = bb.val; rw [e1]; omega
  | ⟨2, _⟩ => show win1_1.index t 2 * 32 + 1 * cc.val = cc.val; rw [e2]; omega

/-- The running sum after a point does not depend on how the point is written. -/
theorem acc_congr (c : Dev nD) (n m : ℕ) (hn : n < cfg1.N) (hm : m < cfg1.N) (h : n = m) :
    Pd.acc V c n hn = Pd.acc V c m hm := by
  subst h; rfl

/-- The step's term at point t and entry (p, bb) is a block sum of the specification: the sum over the 64 rows of the
    other block of exp (− the L1 distance to row p of the row block), read in the rows array, is the block sum of row
    32 · (t / 4) + p over the rows 64 · (t % 4), …, 64 · (t % 4) + 63. -/
theorem term_eq (c : Dev nD) (t : Fin cfg1.N) (p : Fin 32) (bb : Fin 64) (P : Fin 256)
    (hP : P.val = 32 * (t.val / 4) + p.val) (jb : Fin 4) (hjb : jb.val = t.val % 4) :
    (∑ q : Fin 64, Ideal.exp (-(∑ cc : Fin 32,
        max (Pd.rowsBlk V c t (ix3 p bb cc) - Pd.othBlk V c t (ix3 q bb cc))
          (-(Pd.rowsBlk V c t (ix3 p bb cc) - Pd.othBlk V c t (ix3 q bb cc))))))
      = Cert.PairSpec.blockSum (V c main_v4) P bb jb := by
  unfold Cert.PairSpec.blockSum Cert.PairSpec.dist
  refine Finset.sum_congr rfl fun q _ => ?_
  refine congrArg (fun x : EReal => Ideal.exp (-x)) ?_
  refine Finset.sum_congr rfl fun cc _ => ?_
  rw [rowsBlk_at V c t p bb cc P hP,
    othBlk_at V c t q bb cc ⟨64 * jb.val + q.val, by have := jb.isLt; have := q.isLt; omega⟩ (by show 64 * jb.val + q.val = _; rw [hjb])]

/-- At the first point of a sweep the running sum is zero plus the first block sum. -/
theorem acc_first_at (c : Dev nD) (n : ℕ) (hn : n < cfg1.N) (h0 : n % 4 = 0) (p : Fin 32) (bb : Fin 64) (P : Fin 256)
    (hP : P.val = 32 * (n / 4) + p.val) :
    Pd.acc V c n hn (ix2 p bb) = 0 + Cert.PairSpec.blockSum (V c main_v4) P bb 0 := by
  refine (congrFun (Pd.acc_first V c ⟨n, hn⟩ h0) (ix2 p bb)).trans ?_
  rw [PdEntry.step_at, PdEntry.zero_at, term_eq V c ⟨n, hn⟩ p bb P hP 0 (by show 0 = n % 4; omega)]

/-- At a later point of a sweep the running sum is what the point before left plus this point's block sum. -/
theorem acc_next_at (c : Dev nD) (n m : ℕ) (hn : n < cfg1.N) (hm : m < cfg1.N) (hnm : n = m + 1) (h0 : ¬n % 4 = 0)
    (p : Fin 32) (bb : Fin 64) (P : Fin 256) (hP : P.val = 32 * (n / 4) + p.val) (jb : Fin 4) (hjb : jb.val = n % 4) :
    Pd.acc V c n hn (ix2 p bb) = Pd.acc V c m hm (ix2 p bb) + Cert.PairSpec.blockSum (V c main_v4) P bb jb := by
  refine (congrFun (Pd.acc_next V c ⟨n, hn⟩ h0) (ix2 p bb)).trans ?_
  rw [PdEntry.step_at, term_eq V c ⟨n, hn⟩ p bb P hP jb hjb]
  rw [acc_congr V c _ m _ hm (show n - 1 = m by omega)]

/-- At the last point of a sweep the running sum at entry (p, bb) is the specification's pairwise sum at row
    32 · (t / 4) + p and group bb: the four block sums, added in order starting from zero. -/
theorem sweep_end (c : Dev nD) (t : Fin cfg1.N) (h3 : t.val % 4 = 3) (p : Fin 32) (bb : Fin 64) (P : Fin 256)
    (hP : P.val = 32 * (t.val / 4) + p.val) :
    Pd.acc V c t.val t.isLt (ix2 p bb) = Cert.PairSpec.pairAt (V c main_v4) P bb := by
  have hlt : ∀ k, k ≤ t.val → k < cfg1.N := fun k hk => lt_of_le_of_lt hk t.isLt
  rw [Cert.PairBlocks.pairAt_four,
    acc_next_at V c t.val (t.val - 1) t.isLt (hlt _ (by omega)) (by omega) (by omega) p bb P hP 3 (by show 3 = _ % 4; omega),
    acc_next_at V c (t.val - 1) (t.val - 2) (hlt _ (by omega)) (hlt _ (by omega)) (by omega) (by omega) p bb P (by omega) 2
      (by show 2 = _ % 4; omega),
    acc_next_at V c (t.val - 2) (t.val - 3) (hlt _ (by omega)) (hlt _ (by omega)) (by omega) (by omega) p bb P (by omega) 1
      (by show 1 = _ % 4; omega),
    acc_first_at V c (t.val - 3) (hlt _ (by omega)) (by omega) p bb P (by omega)]

/-- What a flushing point writes back is its block of the specification's pairwise sum. A flushing point ends a sweep,
    so entry (p, bb) of the running sum there is the pairwise sum at row 32 · (t / 4) + p and group bb, which is where
    the result's window puts entry (p, bb) of its block. -/
theorem flushed_eq (c : Dev nD) (t : Fin cfg1.N) (hf : (cfg1.win 2).flush t = true) :
    (Pd.dat V c).flushed 2 t
      = ((cfg1.win 2).blk t).view.read (Elt Ideal) (Cert.PairSpec.pairSum (V c main_v4)) := by
  have h3 : t.val % 4 = 3 := (flush1_2 t).mp hf
  have hN : t.val < 32 := lt_of_lt_of_eq t.isLt N_1
  obtain ⟨-, -, -, -, -, -, e0, e1⟩ := idx_facts t
  funext j
  show (Pd.dat V c).after 2 t _ = _
  rw [Pd.after_out, View.read_apply]
  have hj0 : (j 0).val < 32 := (j 0).isLt
  have hj1 : (j 1).val < 64 := (j 1).isLt
  have hx : (cfg1.win 2).xinj (cfg1.grid.coords t) j = ix2 (⟨(j 0).val, hj0⟩ : Fin 32) (⟨(j 1).val, hj1⟩ : Fin 64) := by
    funext a
    match a with
    | ⟨0, _⟩ => rfl
    | ⟨1, _⟩ => rfl
  refine (congrArg (Pd.acc V c t.val t.isLt) hx).trans ?_
  rw [sweep_end V c t h3 ⟨(j 0).val, hj0⟩ ⟨(j 1).val, hj1⟩ ⟨32 * (t.val / 4) + (j 0).val, by omega⟩ rfl]
  show Cert.PairSpec.pairAt (V c main_v4) _ _
    = Cert.PairSpec.pairAt (V c main_v4) ((((cfg1.win 2).blk t).view.emb j) 0) ((((cfg1.win 2).blk t).view.emb j) 1)
  refine congrArg₂ (Cert.PairSpec.pairAt (V c main_v4)) (Fin.ext ?_) (Fin.ext ?_)
  · show 32 * (t.val / 4) + (j 0).val = win1_2.index t 0 * 32 + 1 * (j 0).val
    rw [e0]; omega
  · show (j 1).val = win1_2.index t 1 * 64 + 1 * (j 1).val
    rw [e1]; omega

/-- An index of the result array lies in the block of point t exactly when, on each axis, its coordinate lies in the
    block's range. -/
theorem mem_blk (t : Fin cfg1.N) (i : S256x64.Idx) :
    i ∈ ((cfg1.win 2).blk t).view.set
      ↔ ∀ a : Fin 2, win1_2.index t a * S32x64.size a ≤ (i a).val
          ∧ (i a).val < win1_2.index t a * S32x64.size a + S32x64.size a := by
  show i ∈ ((View.whole main_v5).slice (win1_2.rect t)).set ↔ _
  rw [View.set_slice_whole, Rect.mem_set_unit]
  exact Iff.rfl

/-- Every index of the result array lies in the block of a flushing point: row r lies in row block r / 32, whose
    sweep ends at point 4 · (r / 32) + 3. -/
theorem cover (i : S256x64.Idx) :
    ∃ t : Fin cfg1.N, (cfg1.win 2).flush t = true ∧ i ∈ ((cfg1.win 2).blk t).view.set := by
  have hi0 : (i 0).val < 256 := (i 0).isLt
  have hi1 : (i 1).val < 64 := (i 1).isLt
  have hN : cfg1.N = 32 := N_1
  obtain ⟨t, ht⟩ : ∃ t : Fin cfg1.N, t.val = 4 * ((i 0).val / 32) + 3 := ⟨⟨4 * ((i 0).val / 32) + 3, by rw [hN]; omega⟩, rfl⟩
  obtain ⟨-, -, -, -, -, -, e0, e1⟩ := idx_facts t
  refine ⟨t, (flush1_2 t).mpr (by omega), ?_⟩
  rw [mem_blk]
  intro a
  match a with
  | ⟨0, _⟩ =>
    show win1_2.index t 0 * 32 ≤ (i 0).val ∧ (i 0).val < win1_2.index t 0 * 32 + 32
    rw [e0]; omega
  | ⟨1, _⟩ =>
    show win1_2.index t 1 * 64 ≤ (i 1).val ∧ (i 1).val < win1_2.index t 1 * 64 + 64
    rw [e1]; omega

/-- After the second call's pipeline has run, the result array holds the specification's pairwise sum of the rows
    array: every flushing point writes its block of it, and the flushing points' blocks cover the array. -/
theorem final_pd (c : Dev nD) : (Pd.dat V c).arrAt 2 cfg1.N = Cert.PairSpec.pairSum (V c main_v4) :=
  (Pd.dat V c).arrAt_eq_of_cover 2 (Cert.PairSpec.pairSum (V c main_v4)) (flushed_eq V c) fun i => cover i

end Cert.KernelIdeal.PdValue

end
-- ==== Proof.PairRef.lean ====
/-
  The reference program's tail, read one operation at a time: from the rows array `M[n, b, c]` (256 rows, 64 groups,
  32 columns) it forms every difference `M[p, b, c] - M[j, b, c]`, takes absolute values, sums over the 32 columns,
  negates, exponentiates, and sums over all 256 rows `j`. That is the pairwise sum of the shared specification,
  entry by entry.
-/
import proofs.«102462_j11759620457095_1_alg».proof.Proof.Gen.ReferenceIdeal.Read
import proofs.«102462_j11759620457095_1_alg».proof.Proof.PairSpec
import Idealize.ShloMosaic.Lib.ValueIdx
import Idealize.ShloMosaic.PureOps.Ideal.Laws

noncomputable section

namespace Cert.PairRef

open Idealize.ShloMosaic Idealize.ShloMosaic.ValueIdx Cert.ReferenceIdeal Cert.ReferenceIdeal.Read Cert.PairSpec

/-- The left operand of the difference at `(p, j, b, c)` is read from the rows array at `(p, b, c)`: the unit axis
    inserted at position 1 and its broadcast along `j` drop out. -/
theorem idx_left (p j : Fin 256) (b : Fin 64) (cc : Fin 32) :
    idx_main_v3 (idx_main_v5 (idx_main_v9 (idx_main_v12 (ix2 p b) j) cc)) = ix3 p b cc :=
  funext fun a => Fin.ext (by match a with | ⟨0, _⟩ => rfl | ⟨1, _⟩ => rfl | ⟨2, _⟩ => rfl)

/-- The right operand of the difference at `(p, j, b, c)` is read from the rows array at `(j, b, c)`: the unit axis
    inserted at position 0 and its broadcast along `p` drop out. -/
theorem idx_right (p j : Fin 256) (b : Fin 64) (cc : Fin 32) :
    idx_main_v4 (idx_main_v6 (idx_main_v9 (idx_main_v12 (ix2 p b) j) cc)) = ix3 j b cc :=
  funext fun a => Fin.ext (by match a with | ⟨0, _⟩ => rfl | ⟨1, _⟩ => rfl | ⟨2, _⟩ => rfl)

/-- The reference's result is the pairwise sum of its rows array. -/
theorem ref_tail (x0 : (⟨Cert.ReferenceIdeal.S256x2048, .f32⟩ : BufTy).Contents (Elt Ideal)) (x1 : (⟨Cert.ReferenceIdeal.S2048x64x32, .f32⟩ : BufTy).Contents (Elt Ideal)) :
    Cert.ReferenceIdeal.Read.val_main_v12 (F := Ideal) x0 x1 = Cert.PairSpec.pairSum (Cert.ReferenceIdeal.Read.val_main_v2 (F := Ideal) x0 x1) := by
  funext i
  obtain ⟨p, b, rfl⟩ : ∃ (p : Fin 256) (b : Fin 64), i = ix2 p b := ⟨i 0, i 1, eq_ix2 i⟩
  show _ = pairAt _ p b
  unfold pairAt Cert.PairSpec.dist
  rw [val_main_v12_apply, val_main_cst_0_apply, Ideal.ofBits_def, Ideal.ofBits_zero_f32, zero_add]
  refine Finset.sum_congr rfl fun j _ => ?_
  rw [val_main_v11_apply, val_main_v10_apply, val_main_v9_apply, val_main_cst_apply, Ideal.ofBits_def,
    Ideal.ofBits_zero_f32, zero_add, Ideal.hostUnary_exp_def, Ideal.hostNegf_def, Ideal.negf_def]
  refine congrArg (fun t => Ideal.exp (-t)) (Finset.sum_congr rfl fun cc _ => ?_)
  rw [val_main_v8_apply, val_main_v7_apply, val_main_v5_apply, val_main_v6_apply, val_main_v3_apply,
    val_main_v4_apply, idx_left, idx_right, Ideal.hostAbsf_def, Ideal.absf_def, Ideal.subf_def]

end Cert.PairRef

end
-- ==== Proof.Bridge.lean ====
/-
  The kernel's result is the reference's, over the extended reals.

  The matrix product the first region computes is the reference's: the operand arrays the region finds are the two
  arguments (the narrower float format is the identity; the table is flattened by the same reshape), so entry (p, q)
  of their product is the reference's `dot_general` at (p, q). The rows array the second region reads is the same
  reshape of that product as the reference's rows. And what the second region leaves in the result array is the
  pairwise sum of the rows, which is what the reference's remaining operations compute from its rows.
-/
import proofs.«102462_j11759620457095_1_alg».proof.Proof.KernelIdeal.HostValues
import proofs.«102462_j11759620457095_1_alg».proof.Proof.KernelIdeal.Whole
import proofs.«102462_j11759620457095_1_alg».proof.Proof.KernelIdeal.MmValue
import proofs.«102462_j11759620457095_1_alg».proof.Proof.KernelIdeal.PdValue
import proofs.«102462_j11759620457095_1_alg».proof.Proof.PairRef
import proofs.«102462_j11759620457095_1_alg».proof.Proof.Gen.ReferenceIdeal.Read
import Idealize.ShloMosaic.Lib.ValueIdx
import Idealize.ShloMosaic.PureOps.Ideal

noncomputable section

namespace Cert.Bridge

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (c : Dev nD)

/-- The left argument, as an array of extended reals. -/
abbrev xArg : Cert.ReferenceIdeal.S256x2048.Idx → EReal := m ((c : Thread nD τ).loc main_arg0)
/-- The table argument. -/
abbrev tArg : Cert.ReferenceIdeal.S2048x64x32.Idx → EReal := m ((c : Thread nD τ).loc main_arg1)

/-- The left operand array the first region finds, at its literal type. -/
abbrev lhsArr : Vec Ideal S256x2048 .bf16 := Whole.V1 m c main_v1
/-- The right operand array the first region finds. -/
abbrev rhsArr : Vec Ideal S2048x2048 .bf16 := Whole.V1 m c main_v2

theorem lhsArr_eq : lhsArr m c = xArg m c := HostValues.lhs_eq m c
theorem rhsArr_eq : rhsArr m c = shapeCast S2048x2048 (tArg m c) shapeCasts_S2048x64x32_S2048x2048 := HostValues.rhs_eq m c

/-- Entry `i` of the product of the two operand arrays the first region finds is the reference's matrix product of
    the arguments at `i`. -/
theorem prod_at (i : S256x2048.Idx) :
    (∑ k : Fin 2048, lhsArr m c (ix2 (i 0) k) * rhsArr m c (ix2 k (i 1)))
      = Cert.ReferenceIdeal.Read.val_main_v1 (F := Ideal) (xArg m c) (tArg m c) i := by
  rw [Cert.ReferenceIdeal.Read.val_main_v1_apply, lhsArr_eq, rhsArr_eq]
  refine Finset.sum_congr rfl fun k _ => ?_
  have el : (ix2 (i 0) k : S256x2048.Idx) = Cert.ReferenceIdeal.Read.lidx_main_v1 i k :=
    funext fun a => Fin.ext (by match a with | ⟨0, _⟩ => rfl | ⟨1, _⟩ => rfl)
  have er : (ix2 k (i 1) : S2048x2048.Idx) = Cert.ReferenceIdeal.Read.ridx_main_v1 i k :=
    funext fun a => Fin.ext (by match a with | ⟨0, _⟩ => rfl | ⟨1, _⟩ => rfl)
  rw [el, er]
  rfl

/-- The first region's result array is the reference's matrix product of the arguments. -/
theorem product_eq :
    (Mm.dat (Whole.V1 m) c).arrAt 2 cfg0.N = Cert.ReferenceIdeal.Read.val_main_v1 (F := Ideal) (xArg m c) (tArg m c) := by
  rw [MmValue.final_mm]
  funext i
  exact prod_at m c i

/-- The rows array the second region reads is the reference's rows array. -/
theorem rows_eq :
    Whole.V3 m c main_v4 = Cert.ReferenceIdeal.Read.val_main_v2 (F := Ideal) (xArg m c) (tArg m c) := by
  rw [HostValues.rows_eq, product_eq]
  rfl

/-- What the kernel's run leaves in its result buffer is the reference's last stage. -/
theorem out_eq :
    (Pd.dat (Whole.V3 m) c).arrAt 2 cfg1.N = Cert.ReferenceIdeal.Read.val_main_v12 (F := Ideal) (xArg m c) (tArg m c) := by
  rw [PdValue.final_pd, rows_eq, Cert.PairRef.ref_tail]

end Cert.Bridge

end
-- ==== Proof.lean ====
/-
  Two programs compute, from `x` [256, 2048] and a table `T` [2048, 64, 32], the array
      out[i, b] = Σ_j exp (- Σ_c |M[i, b, c] - M[j, b, c]|),      M = (x · T flattened to [2048, 2048]) cut into [256, 64, 32].
  The reference does it with whole-array operations. The kernel does it in two regions: a matrix product whose
  contracted axis is walked in four steps of 512 with a running sum kept in a scratch buffer, and a pairwise sum whose
  inner sum over `j` is walked in four steps of 64 rows with a running sum kept in a second scratch buffer. Over the
  extended reals a change of float format is the identity, a sum may be regrouped in blocks, and `0 - y = - y`, so the
  two agree; no finiteness of the inputs is used.

  The frames of the two kernel programs are the run of @main (Proof/Kernel/Whole.lean, Proof/KernelIdeal/Whole.lean);
  the reference's frame is its run with the result dropped; the ideal pass rewrote nothing. For the value, the kernel's
  run ends with the result buffer at what the second pipeline's proof data compute, which the bridge lemma identifies
  with the reference's last stage.
-/
import proofs.«102462_j11759620457095_1_alg».proof.Defs
import proofs.«102462_j11759620457095_1_alg».proof.Proof.Gen.Kernel
import proofs.«102462_j11759620457095_1_alg».proof.Proof.Gen.KernelIdeal
import proofs.«102462_j11759620457095_1_alg».proof.Proof.Gen.ReferenceIdeal
import proofs.«102462_j11759620457095_1_alg».proof.Proof.Gen.Pre_finite_inputs
import proofs.«102462_j11759620457095_1_alg».proof.Proof.Gen.ReferenceIdeal.Run
import proofs.«102462_j11759620457095_1_alg».proof.Proof.Gen.ReferenceIdeal.Read
import proofs.«102462_j11759620457095_1_alg».proof.Proof.Kernel.Whole
import proofs.«102462_j11759620457095_1_alg».proof.Proof.KernelIdeal.Whole
import proofs.«102462_j11759620457095_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_k : Cert.frame_Kernel := fun m ρ _ => Cert.Kernel.Whole.frame m ρ

/-- So does its idealization. -/
theorem frame_ki : Cert.frame_KernelIdeal := fun m ρ _ => Cert.KernelIdeal.Whole.frame m ρ

/-- The reference is a line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Over the extended reals the kernel's result buffer and the reference's end at the same array. -/
theorem algebraic : Cert.algebraic_KernelIdeal_ReferenceIdeal := by
  intro m ρ m' ρ' _ hagree
  refine ⟨fun c => (Cert.KernelIdeal.Pd.dat (Cert.KernelIdeal.Whole.V3 m) c).arrAt 2 Cert.KernelIdeal.cfg1.N,
    Cert.KernelIdeal.Whole.run_out m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v12_eq]
  exact (Cert.Bridge.out_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
